-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S48x2 : Shape := ⟨2, ![48, 2]⟩
abbrev S2 : Shape := ⟨1, ![2]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x48 : S_.BroadcastsInDim S48x48 (![] : Fin 0 → Fin S48x48.rank)
  reducesTo_S48x48_S_d0_1 : S48x48.ReducesTo [0, 1] S_
  bcast_S_S48 : S_.BroadcastsInDim S48 (![] : Fin 0 → Fin S48.rank)
  reducesTo_S48_S_d0 : S48.ReducesTo [0] S_
  bcast_S_S48x2 : S_.BroadcastsInDim S48x2 (![] : Fin 0 → Fin S48x2.rank)
  reducesTo_S48x2_S_d0_1 : S48x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S48 .f32) (main_arg6 : FVec F S48x2 .f32) (main_arg7 : FVec F S2 .f32) (main_v13 : IVec S_ 1) (main_v16 : IVec S48x48 1) : IVec S_ 1 :=
  let main_c_5 : IVec S_ 1 := constantI S_ 1 1#1
  let main_v17 : IVec S_ 1 := (fun x v => Host.reduce IntOp.andi x v reducesTo_S48x48_S_d0_1 h_S_) main_v16 main_c_5
  let main_v18 : IVec S_ 1 := andi main_v13 main_v17
  let main_v19 : FVec F S48 .f32 := Host.absf main_arg5
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  let main_v24 : FVec F S48x2 .f32 := Host.absf main_arg6
  let main_cst_8 : FVec F S_ .f32 := constant S_ .f32 0x7F800000#32
  let main_v25 : FVec F S48x2 .f32 := broadcastInDim S48x2 ![] bcast_S_S48x2 main_cst_8
  let main_v26 : IVec S48x2 1 := cmpf .olt main_v24 main_v25
  let main_c_9 : IVec S_ 1 := constantI S_ 1 1#1
  let main_v27 : IVec S_ 1 := (fun x v => Host.reduce IntOp.andi x v reducesTo_S48x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x48 .f32) (main_arg1 : IVec S2x1600000 32) (main_arg2 : FVec F S48x48 .f32) (main_arg3 : FVec F S48 .f32) (main_arg4 : FVec F S48x48 .f32) (main_arg5 : FVec F S48 .f32) (main_arg6 : FVec F S48x2 .f32) (main_arg7 : FVec F S2 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x48 .f32 := Host.absf main_arg2
  let main_cst_0 : FVec F S_ .f32 := constant S_ .f32 0x7F800000#32
  let main_v5 : FVec F S48x48 .f32 := broadcastInDim S48x48 ![] bcast_S_S48x48 main_cst_0
  let main_v6 : IVec S48x48 1 := cmpf .olt main_v4 main_v5
  let main_c_1 : IVec S_ 1 := constantI S_ 1 1#1
  let main_v7 : IVec S_ 1 := (fun x v => Host.reduce IntOp.andi x v reducesTo_S48x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x48 .f32 := Host.absf main_arg4
  let main_cst_4 : FVec F S_ .f32 := constant S_ .f32 0x7F800000#32
  let main_v15 : FVec F S48x48 .f32 := broadcastInDim S48x48 ![] bcast_S_S48x48 main_cst_4
  let main_v16 : IVec S48x48 1 := cmpf .olt main_v14 main_v15
  fn_part1 (F := F) main_arg5 main_arg6 main_arg7 main_v13 main_v16
-- ==== Kernel.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S48x2 : Shape := ⟨2, ![48, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x48 : Shape := ⟨2, ![10000, 48]⟩
abbrev S1700000x48 : Shape := ⟨2, ![1700000, 48]⟩
abbrev S1x48 : Shape := ⟨2, ![1, 48]⟩
abbrev S20000x48 : Shape := ⟨2, ![20000, 48]⟩
abbrev S1x2 : Shape := ⟨2, ![1, 2]⟩

abbrev nBuf : Space → Nat
  | .hbm => 90
  | .vmem => 22
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x48, .f32⟩
  | .hbm, ⟨3, _⟩ => ⟨S48, .f32⟩
  | .hbm, ⟨4, _⟩ => ⟨S48x48, .f32⟩
  | .hbm, ⟨5, _⟩ => ⟨S48, .f32⟩
  | .hbm, ⟨6, _⟩ => ⟨S48x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x48, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x48, .f32⟩
  | .hbm, ⟨61, _⟩ => ⟨S1700000x1, .f32⟩
  | .hbm, ⟨62, _⟩ => ⟨S1700000x48, .f32⟩
  | .hbm, ⟨63, _⟩ => ⟨S1700000x48, .f32⟩
  | .hbm, ⟨64, _⟩ => ⟨S_, .f32⟩
  | .hbm, ⟨65, _⟩ => ⟨S100000x48, .f32⟩
  | .hbm, ⟨66, _⟩ => ⟨S1700000x1, .i32⟩
  | .hbm, ⟨67, _⟩ => ⟨S100000x48, .f32⟩
  | .hbm, ⟨68, _⟩ => ⟨S1x48, .f32⟩
  | .hbm, ⟨69, _⟩ => ⟨S100000x48, .f32⟩
  | .hbm, ⟨70, _⟩ => ⟨S100000x48, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x48, .f32⟩
  | .hbm, ⟨80, _⟩ => ⟨S1700000x1, .f32⟩
  | .hbm, ⟨81, _⟩ => ⟨S1700000x48, .f32⟩
  | .hbm, ⟨82, _⟩ => ⟨S1700000x48, .f32⟩
  | .hbm, ⟨83, _⟩ => ⟨S_, .f32⟩
  | .hbm, ⟨84, _⟩ => ⟨S100000x48, .f32⟩
  | .hbm, ⟨85, _⟩ => ⟨S1700000x1, .i32⟩
  | .hbm, ⟨86, _⟩ => ⟨S100000x48, .f32⟩
  | .hbm, ⟨87, _⟩ => ⟨S1x48, .f32⟩
  | .hbm, ⟨88, _⟩ => ⟨S1x2, .f32⟩
  | .hbm, ⟨89, _⟩ => ⟨S1x2, .f32⟩
  | .local _ .vmem, ⟨0, _⟩ => ⟨S10000x48, .f32⟩
  | .local _ .vmem, ⟨1, _⟩ => ⟨S10000x48, .f32⟩
  | .local _ .vmem, ⟨2, _⟩ => ⟨S48x48, .f32⟩
  | .local _ .vmem, ⟨3, _⟩ => ⟨S10000x48, .f32⟩
  | .local _ .vmem, ⟨4, _⟩ => ⟨S10000x48, .f32⟩
  | .local _ .vmem, ⟨5, _⟩ => ⟨S20000x48, .f32⟩
  | .local _ .vmem, ⟨6, _⟩ => ⟨S20000x48, .f32⟩
  | .local _ .vmem, ⟨7, _⟩ => ⟨S1x48, .f32⟩
  | .local _ .vmem, ⟨8, _⟩ => ⟨S20000x48, .f32⟩
  | .local _ .vmem, ⟨9, _⟩ => ⟨S20000x48, .f32⟩
  | .local _ .vmem, ⟨10, _⟩ => ⟨S10000x48, .f32⟩
  | .local _ .vmem, ⟨11, _⟩ => ⟨S10000x48, .f32⟩
  | .local _ .vmem, ⟨12, _⟩ => ⟨S48x48, .f32⟩
  | .local _ .vmem, ⟨13, _⟩ => ⟨S10000x48, .f32⟩
  | .local _ .vmem, ⟨14, _⟩ => ⟨S10000x48, .f32⟩
  | .local _ .vmem, ⟨15, _⟩ => ⟨S20000x48, .f32⟩
  | .local _ .vmem, ⟨16, _⟩ => ⟨S20000x48, .f32⟩
  | .local _ .vmem, ⟨17, _⟩ => ⟨S1x48, .f32⟩
  | .local _ .vmem, ⟨18, _⟩ => ⟨S48x2, .f32⟩
  | .local _ .vmem, ⟨19, _⟩ => ⟨S1x2, .f32⟩
  | .local _ .vmem, ⟨20, _⟩ => ⟨S1x2, .f32⟩
  | .local _ .vmem, ⟨21, _⟩ => ⟨S1x48, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S48x48 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def k3_cond2 (i : grid3.Coords) : BitVec 1 :=
  let arg0 : BitVec 32 := BitVec.ofNat 32 (i 0).val
  let c4_i32 : BitVec 32 := 4#32
  let v12 : BitVec 1 := Scalar.cmpi .eq arg0 c4_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S20000x48 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x48 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S48x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x48_S10000x48_0_0 : ∀ a, (![0, 0] : Fin 2 → Nat) a + S10000x48.size a ≤ S10000x48.size a
  h_S10000x48 : 0 < S10000x48.numel
  bitsLt_bf16_f32 : FTy.bits .bf16 < FTy.bits .f32
  inb_S48x48_S48x48_0_0 : ∀ a, (![0, 0] : Fin 2 → Nat) a + S48x48.size a ≤ S48x48.size a
  h_S48x48 : 0 < S48x48.numel
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  shapeCasts_S48_S1x48 : S48.ShapeCasts S1x48
  inb_S20000x48_S20000x48_0_0 : ∀ a, (![0, 0] : Fin 2 → Nat) a + S20000x48.size a ≤ S20000x48.size a
  h_S20000x48 : 0 < S20000x48.numel
  shapeCasts_S20000x48_S20000x48 : S20000x48.ShapeCasts S20000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S20000x48 : S1x48.Broadcasts S20000x48
  shapeCasts_S10000x48_S10000x48 : S10000x48.ShapeCasts S10000x48
  shapeCasts_S2_S1x2 : S2.ShapeCasts S1x2
  reduces_S20000x48_S48 : S20000x48.Reduces [0] S48
  inb_S48x2_S48x2_0_0 : ∀ a, (![0, 0] : Fin 2 → Nat) a + S48x2.size a ≤ S48x2.size a
  h_S48x2 : 0 < S48x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x48_S48x48_S10000x48_1_0_0_1_n_n_wf : DotDims.WF S10000x48 S48x48 S10000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S1x48_S48x2_S1x2_1_0_0_1_n_n_wf : DotDims.WF S1x48 S48x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x48.size a ≤ S100000x48.size a
  hwx0_0 : ∀ i : grid0.Coords, EltTy.bits .f32 = 32 ∨ (Rect.block (s := S100000x48) S10000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x48.size a ≤ S48x48.size a
  hwx0_1 : ∀ i : grid0.Coords, EltTy.bits .f32 = 32 ∨ (Rect.block (s := S48x48) S48x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x48.size a ≤ S100000x48.size a
  hwx0_2 : ∀ i : grid0.Coords, EltTy.bits .f32 = 32 ∨ (Rect.block (s := S100000x48) S10000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x48.size a ≤ S100000x48.size a
  hwx1_0 : ∀ i : grid1.Coords, EltTy.bits .f32 = 32 ∨ (Rect.block (s := S100000x48) S20000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x48.size a ≤ S100000x48.size a
  hwx1_2 : ∀ i : grid1.Coords, EltTy.bits .f32 = 32 ∨ (Rect.block (s := S100000x48) S20000x48.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x48.size a ≤ S100000x48.size a
  hwx2_0 : ∀ i : grid2.Coords, EltTy.bits .f32 = 32 ∨ (Rect.block (s := S100000x48) S10000x48.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S48x48.size a ≤ S48x48.size a
  hwx2_1 : ∀ i : grid2.Coords, EltTy.bits .f32 = 32 ∨ (Rect.block (s := S48x48) S48x48.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x48.size a ≤ S100000x48.size a
  hwx2_2 : ∀ i : grid2.Coords, EltTy.bits .f32 = 32 ∨ (Rect.block (s := S100000x48) S10000x48.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x48.size a ≤ S100000x48.size a
  hwx3_0 : ∀ i : grid3.Coords, EltTy.bits .f32 = 32 ∨ (Rect.block (s := S100000x48) S20000x48.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x48.size a ≤ S1x48.size a
  hwx3_1 : ∀ i : grid3.Coords, EltTy.bits .f32 = 32 ∨ (Rect.block (s := S1x48) S1x48.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S48x2.size a ≤ S48x2.size a
  hwx3_2 : ∀ i : grid3.Coords, EltTy.bits .f32 = 32 ∨ (Rect.block (s := S48x2) S48x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x48_S48x48_S10000x48_1_0_0_1_n_n : DotDims S10000x48 S48x48 S10000x48 where
  lhsContracting := [1]
  rhsContracting := [0]
  lhsNonContracting := [0]
  rhsNonContracting := [1]
  lhsBatch := []
  rhsBatch := []
  wf := dot_S10000x48_S48x48_S10000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S1x48_S48x2_S1x2_1_0_0_1_n_n : DotDims S1x48 S48x2 S1x2 where
  lhsContracting := [1]
  rhsContracting := [0]
  lhsNonContracting := [0]
  rhsNonContracting := [1]
  lhsBatch := []
  rhsBatch := []
  wf := dot_S1x48_S48x2_S1x2_1_0_0_1_n_n_wf

abbrev win0_0 : Pipeline.Window sig grid0 :=
  Pipeline.Window.ofSpec (Memref.whole main_arg0) S10000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S48x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S20000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S20000x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S48x48.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x48.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S20000x48.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x48.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S48x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x2.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S48x2 : Shape := ⟨2, ![48, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x48 : Shape := ⟨2, ![1700000, 48]⟩
abbrev S1x48 : Shape := ⟨2, ![1, 48]⟩
abbrev S1x2 : Shape := ⟨2, ![1, 2]⟩

abbrev nBuf : Space → Nat
  | .hbm => 148
  | .vmem => 0
  | .smem => 0
  | _ => 0

abbrev hbmTy0_0 (i : Nat) : BufTy := match i % 128 with
  | 0 => ⟨S100000x48, .f32⟩
  | 1 => ⟨S2x1600000, .i32⟩
  | 2 => ⟨S48x48, .f32⟩
  | 3 => ⟨S48, .f32⟩
  | 4 => ⟨S48x48, .f32⟩
  | 5 => ⟨S48, .f32⟩
  | 6 => ⟨S48x2, .f32⟩
  | 7 => ⟨S2, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x48, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x48, .f32⟩
  | 61 => ⟨S1700000x1, .f32⟩
  | 62 => ⟨S1700000x48, .f32⟩
  | 63 => ⟨S1700000x48, .f32⟩
  | 64 => ⟨S_, .f32⟩
  | 65 => ⟨S100000x48, .f32⟩
  | 66 => ⟨S1700000x1, .i32⟩
  | 67 => ⟨S100000x48, .f32⟩
  | 68 => ⟨S1x48, .f32⟩
  | 69 => ⟨S100000x48, .f32⟩
  | 70 => ⟨S100000x48, .f32⟩
  | 71 => ⟨S_, .f32⟩
  | 72 => ⟨S_, .f32⟩
  | 73 => ⟨S100000x48, .f32⟩
  | 74 => ⟨S100000x48, .i1⟩
  | 75 => ⟨S_, .f32⟩
  | 76 => ⟨S100000x48, .f32⟩
  | 77 => ⟨S100000x48, .f32⟩
  | 78 => ⟨S100000x48, .f32⟩
  | 79 => ⟨S100000, .i32⟩
  | 80 => ⟨S1x1600000, .i32⟩
  | 81 => ⟨S1600000, .i32⟩
  | 82 => ⟨S1700000, .i32⟩
  | 83 => ⟨S1x1600000, .i32⟩
  | 84 => ⟨S1600000, .i32⟩
  | 85 => ⟨S1700000, .i32⟩
  | 86 => ⟨S_, .f32⟩
  | 87 => ⟨S1700000, .f32⟩
  | 88 => ⟨S_, .f32⟩
  | 89 => ⟨S100000, .f32⟩
  | 90 => ⟨S1700000x1, .i32⟩
  | 91 => ⟨S100000, .f32⟩
  | 92 => ⟨S_, .f32⟩
  | 93 => ⟨S100000, .f32⟩
  | 94 => ⟨S100000, .i1⟩
  | 95 => ⟨S_, .f32⟩
  | 96 => ⟨S100000, .f32⟩
  | 97 => ⟨S100000, .f32⟩
  | 98 => ⟨S100000, .f32⟩
  | 99 => ⟨S_, .f32⟩
  | 100 => ⟨S_, .f32⟩
  | 101 => ⟨S100000, .f32⟩
  | 102 => ⟨S100000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000, .f32⟩
  | 121 => ⟨S1700000, .f32⟩
  | 122 => ⟨S100000x48, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x48, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x48, .f32⟩
  | 4 => ⟨S1700000x1, .f32⟩
  | 5 => ⟨S1700000x48, .f32⟩
  | 6 => ⟨S1700000x48, .f32⟩
  | 7 => ⟨S_, .f32⟩
  | 8 => ⟨S100000x48, .f32⟩
  | 9 => ⟨S1700000x1, .i32⟩
  | 10 => ⟨S100000x48, .f32⟩
  | 11 => ⟨S1x48, .f32⟩
  | 12 => ⟨S100000x48, .f32⟩
  | 13 => ⟨S100000x48, .f32⟩
  | 14 => ⟨S_, .f32⟩
  | 15 => ⟨S48, .f32⟩
  | 16 => ⟨S1x48, .f32⟩
  | 17 => ⟨S1x2, .f32⟩
  | 18 => ⟨S1x2, .f32⟩
  | 19 => ⟨S1x2, .f32⟩
  | _ => ⟨S100000x48, .f32⟩

abbrev hbmTy (i : Nat) : BufTy := match i / 128 with
  | 0 => hbmTy0_0 i
  | 1 => hbmTy0_1 i
  | _ => ⟨S100000x48, .f32⟩

abbrev bufTy : (tb : Table) → Fin (tcTables nBuf tb) → BufTy
  | .hbm, ⟨i, _⟩ => hbmTy i
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_call2_v0 : Ref sig .tc := ⟨.hbm, 100, rfl⟩
abbrev main_call2_v1 : Ref sig .tc := ⟨.hbm, 101, rfl⟩
abbrev main_v66 : Ref sig .tc := ⟨.hbm, 102, rfl⟩
abbrev main_c_16 : Ref sig .tc := ⟨.hbm, 103, rfl⟩
abbrev main_v67 : Ref sig .tc := ⟨.hbm, 104, rfl⟩
abbrev main_v68 : Ref sig .tc := ⟨.hbm, 105, rfl⟩
abbrev main_c_17 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_18 : Ref sig .tc := ⟨.hbm, 112, rfl⟩
abbrev main_v74 : Ref sig .tc := ⟨.hbm, 113, rfl⟩
abbrev main_v75 : Ref sig .tc := ⟨.hbm, 114, rfl⟩
abbrev main_c_19 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_20 : Ref sig .tc := ⟨.hbm, 123, rfl⟩
abbrev main_v83 : Ref sig .tc := ⟨.hbm, 124, rfl⟩
abbrev main_v84 : Ref sig .tc := ⟨.hbm, 125, rfl⟩
abbrev main_c_21 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_22 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  reducesTo_S100000x48_S48_d0 : S100000x48.ReducesTo [0] S48
  h_S_ : 0 < S_.numel
  bcast_S2_S1x2_1 : S2.BroadcastsInDim S1x2 (![1] : Fin 1 → Fin S1x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x48_S48x48_S100000x48_1_0_0_1_n_n_wf : DotDims.WF S100000x48 S48x48 S100000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S1x48_S48x2_S1x2_1_0_0_1_n_n_wf : DotDims.WF S1x48 S48x2 S1x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S1x48_S48x2_S1x2_1_0_0_1_n_n : DotDims S1x48 S48x2 S1x2 where
  lhsContracting := [1]
  rhsContracting := [0]
  lhsNonContracting := [0]
  rhsNonContracting := [1]
  lhsBatch := []
  rhsBatch := []
  wf := dot_S1x48_S48x2_S1x2_1_0_0_1_n_n_wf

class Facts : Prop extends Facts₀ where

variable [Facts]
-- ==== Proof.BReg0.lean ====
/-
  Region 0 of the program: the first dense layer, a 100000×48 matrix times a 48×48 matrix, ten row blocks of 10000.
  The pipeline hands the body, at grid point t, block t of its first operand and the whole of its second; the body
  stores one value over the whole output block. What that block holds after the body is therefore one pure function
  of the two input blocks (the store's payload), and the region's proof data say exactly that: the inputs' buffers
  are left as found, the output's buffer holds the payload, nothing is owed and the scoped rest is untouched.
-/
import proofs.«129971_j27144193311514_1_alg».proof.Proof.Gen.Kernel.Launch
import proofs.«129971_j27144193311514_1_alg».proof.Proof.Gen.Kernel.Skeleton
import proofs.«129971_j27144193311514_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev rOut0 : Rect S10000x48 := Rect.unit (s := S10000x48) ![0, 0] S10000x48.size inb_S10000x48_S10000x48_0_0

/-- The output block after the body: the store's payload of the two input blocks, laid over the whole block. -/
def out0_2 (x0 : Vec F S10000x48 .f32) (x1 : Vec F S48x48 .f32) : Vec F S10000x48 .f32 :=
  View.canon [⟨rOut0, k0_pay1 (View.ld x0 (Rect.unit (s := S10000x48) ![0, 0] S10000x48.size inb_S10000x48_S10000x48_0_0)) (View.ld x1 (Rect.unit (s := S48x48) ![0, 0] S48x48.size inb_S48x48_S48x48_0_0))⟩]

/-- The one store covers the block. -/
theorem cover0_2 (p0 : Vec F S10000x48 .f32) (y : S10000x48.Idx) :
    ∃ pc ∈ ([⟨rOut0, p0⟩] : List (View.Piece (Elt F) S10000x48 .f32)), y ∈ pc.1.set :=
  View.cover_of_tiled [⟨rOut0, p0⟩] S10000x48.size (by rfl) y

set_option maxHeartbeats 1000000 in
/-- The body on whole staging buffers, the inputs' at contents x0, x1 and the output's at anything, ends with the
    inputs' as they were and the output's at the payload. -/
theorem sound_kernel0 (c : Dev nD) (E : Set ℕ) (i : grid0.Coords) (arg1 : Memref sig .tc .vmem S10000x48 .f32) (harg1 : arg1.IsWhole) (arg2 : Memref sig .tc .vmem S48x48 .f32) (harg2 : arg2.IsWhole)
    (arg3 : Memref sig .tc .vmem S10000x48 .f32) (harg3 : arg3.IsWhole)
    (x0 : Vec F S10000x48 .f32) (x1 : Vec F S48x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as the region finds them; after the body each input's buffer at its
    block and the output's at the payload of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Before the first point and after the last the invariant is the class's: the scoped rest and the generator register. -/
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.BReg1.lean ====
/-
  Region 1 of the program: the bias row added to every row and the leaky rectifier, five row blocks of 20000.
  The pipeline hands the body, at grid point t, block t of its first operand and the whole of its second; the body
  stores one value over the whole output block. What that block holds after the body is therefore one pure function
  of the two input blocks (the store's payload), and the region's proof data say exactly that: the inputs' buffers
  are left as found, the output's buffer holds the payload, nothing is owed and the scoped rest is untouched.
-/
import proofs.«129971_j27144193311514_1_alg».proof.Proof.Gen.Kernel.Launch
import proofs.«129971_j27144193311514_1_alg».proof.Proof.Gen.Kernel.Skeleton
import proofs.«129971_j27144193311514_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole output block. -/
abbrev rOut1 : Rect S20000x48 := Rect.unit (s := S20000x48) ![0, 0] S20000x48.size inb_S20000x48_S20000x48_0_0

/-- The output block after the body: the store's payload of the two input blocks, laid over the whole block. -/
def out1_2 (x0 : Vec F S20000x48 .f32) (x1 : Vec F S1x48 .f32) : Vec F S20000x48 .f32 :=
  View.canon [⟨rOut1, k1_pay1 (View.ld x0 (Rect.unit (s := S20000x48) ![0, 0] S20000x48.size inb_S20000x48_S20000x48_0_0)) (View.ld x1 (Rect.unit (s := S1x48) ![0, 0] S1x48.size inb_S1x48_S1x48_0_0))⟩]

/-- The one store covers the block. -/
theorem cover1_2 (p0 : Vec F S20000x48 .f32) (y : S20000x48.Idx) :
    ∃ pc ∈ ([⟨rOut1, p0⟩] : List (View.Piece (Elt F) S20000x48 .f32)), y ∈ pc.1.set :=
  View.cover_of_tiled [⟨rOut1, p0⟩] S20000x48.size (by rfl) y

set_option maxHeartbeats 1000000 in
/-- The body on whole staging buffers, the inputs' at contents x0, x1 and the output's at anything, ends with the
    inputs' as they were and the output's at the payload. -/
theorem sound_kernel1 (c : Dev nD) (E : Set ℕ) (i : grid1.Coords) (arg1 : Memref sig .tc .vmem S20000x48 .f32) (harg1 : arg1.IsWhole) (arg2 : Memref sig .tc .vmem S1x48 .f32) (harg2 : arg2.IsWhole)
    (arg3 : Memref sig .tc .vmem S20000x48 .f32) (harg3 : arg3.IsWhole)
    (x0 : Vec F S20000x48 .f32) (x1 : Vec F S1x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as the region finds them; after the body each input's buffer at its
    block and the output's at the payload of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Before the first point and after the last the invariant is the class's: the scoped rest and the generator register. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.BReg2.lean ====
/-
  Region 2 of the program: the second dense layer, a 100000×48 matrix times a 48×48 matrix, ten row blocks of 10000.
  The pipeline hands the body, at grid point t, block t of its first operand and the whole of its second; the body
  stores one value over the whole output block. What that block holds after the body is therefore one pure function
  of the two input blocks (the store's payload), and the region's proof data say exactly that: the inputs' buffers
  are left as found, the output's buffer holds the payload, nothing is owed and the scoped rest is untouched.
-/
import proofs.«129971_j27144193311514_1_alg».proof.Proof.Gen.Kernel.Launch
import proofs.«129971_j27144193311514_1_alg».proof.Proof.Gen.Kernel.Skeleton
import proofs.«129971_j27144193311514_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body stores through: the whole output block. -/
abbrev rOut2 : Rect S10000x48 := Rect.unit (s := S10000x48) ![0, 0] S10000x48.size inb_S10000x48_S10000x48_0_0

/-- The output block after the body: the store's payload of the two input blocks, laid over the whole block. -/
def out2_2 (x0 : Vec F S10000x48 .f32) (x1 : Vec F S48x48 .f32) : Vec F S10000x48 .f32 :=
  View.canon [⟨rOut2, k2_pay1 (View.ld x0 (Rect.unit (s := S10000x48) ![0, 0] S10000x48.size inb_S10000x48_S10000x48_0_0)) (View.ld x1 (Rect.unit (s := S48x48) ![0, 0] S48x48.size inb_S48x48_S48x48_0_0))⟩]

/-- The one store covers the block. -/
theorem cover2_2 (p0 : Vec F S10000x48 .f32) (y : S10000x48.Idx) :
    ∃ pc ∈ ([⟨rOut2, p0⟩] : List (View.Piece (Elt F) S10000x48 .f32)), y ∈ pc.1.set :=
  View.cover_of_tiled [⟨rOut2, p0⟩] S10000x48.size (by rfl) y

set_option maxHeartbeats 1000000 in
/-- The body on whole staging buffers, the inputs' at contents x0, x1 and the output's at anything, ends with the
    inputs' as they were and the output's at the payload. -/
theorem sound_kernel2 (c : Dev nD) (E : Set ℕ) (i : grid2.Coords) (arg1 : Memref sig .tc .vmem S10000x48 .f32) (harg1 : arg1.IsWhole) (arg2 : Memref sig .tc .vmem S48x48 .f32) (harg2 : arg2.IsWhole)
    (arg3 : Memref sig .tc .vmem S10000x48 .f32) (harg3 : arg3.IsWhole)
    (x0 : Vec F S10000x48 .f32) (x1 : Vec F S48x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core c: the arrays as the region finds them; after the body each input's buffer at its
    block and the output's at the payload of the input blocks; the scoped rest and the generator register untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Before the first point and after the last the invariant is the class's: the scoped rest and the generator register. -/
theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.BReg3.lean ====
/-
  Region 3 of the program: the sum over the 100000 rows, five row blocks of 20000, kept in a scratch row between the
  grid points, and at the last point the pooled row (plus 100000 times the bias row) times the 48×2 matrix plus the
  last bias, stored into the one output block.
  At point 0 the body first stores zeros into the scratch; at every point it adds the block's column sums to the
  scratch; at point 4 it also computes and stores the result. So after point n the scratch holds a running sum that
  is a recursion on n, and the region's invariant between the points is exactly that: the scratch row at the running
  sum, everything else the region may use handed back once the scratch is given up.
-/
import proofs.«129971_j27144193311514_1_alg».proof.Proof.Gen.Kernel.Launch
import proofs.«129971_j27144193311514_1_alg».proof.Proof.Gen.Kernel.Skeleton
import proofs.«129971_j27144193311514_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch row the kernel keeps between the grid points. -/
abbrev scr3 : Memref sig .tc .vmem S1x48 .f32 := Memref.whole cc3_scratch0

/-- THE RUNNING SUM: what the scratch row holds after point n — zeros plus the first block's column sums after point 0,
    what the point before left plus this block's column sums afterwards. -/
def acc3 (c : Dev nD) : (n : ℕ) → n < cfg3.N → FVec F S1x48 .f32
  | 0, hn => k3_pay2 (k3_pay1 (F := F)) (iblk3 V c 0 ⟨0, hn⟩)
  | n + 1, hn => k3_pay2 (acc3 c n (Nat.lt_of_succ_lt hn)) (iblk3 V c 0 ⟨n + 1, hn⟩)

/-- What the last point stores into the output block, of the running sum and the three small operands (stated at
    every point; the body stores it at the last one only, and nothing reads it elsewhere). -/
def out3_4 (c : Dev nD) (t : Fin cfg3.N) : FVec F S1x2 .f32 :=
  k3_pay3 (acc3 V c t.val t.isLt) (iblk3 V c 1 t) (iblk3 V c 2 t) (iblk3 V c 3 t)

/-- The region's invariant before position n: at the start the scoped rest and the generator register; afterwards the
    scratch row at the running sum, and the rest handed back in exchange for the scratch row at any contents. -/
def PhiS3 (c : Dev nD) : (n : ℕ) → n ≤ cfg3.N → sProp 𝕄
  | 0, _ => Pipeline.ΦA spec3 c
  | n + 1, hn => iprop(owns (c : Thread nD τ) scr3 fullShare (acc3 V c n hn)
      ∗ ((∃ d, owns (c : Thread nD τ) scr3 fullShare d) -∗ Pipeline.ΦA spec3 c))

/-- The region's proof data on core c. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]

/-- Before the first point the invariant is the class's. -/
theorem hin3 (c : Dev nD) : (Pipeline.ΦA spec3 c : sProp 𝕄) ⊢ (dat3 V c).Φ 0 := .rfl

/-! ## The grid's facts: the two conditions of the body, where the output window is idle, where it is written back -/

/-- The condition of the body's first branch (the scratch row is reset), from the grid coordinates. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The condition of the body's second branch (the result is computed and stored), from the grid coordinates. -/
abbrev cond3_1 (i : grid3.Coords) : Prop := k3_cond2 i = 1#1
/-- It holds at the last point only. -/
theorem hcond3_1 : ∀ t : Fin cfg3.N, cond3_1 (grid3.coords t) ↔ t.val = 4 :=
  (by decide +kernel : ∀ t : Fin grid3.N, cond3_1 (grid3.coords t) ↔ t.val = 4)

/-- The four inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Away from the last point the output window is idle, -/
theorem idleAt3_4 : ∀ t : Fin cfg3.N, t.val ≠ 4 → cfg3.idle 4 (grid3.coords t) = true :=
  (by decide +kernel : ∀ t : Fin grid3.N, t.val ≠ 4 → idle3 4 (grid3.coords t) = true)
/-- and its block is not written back there; -/
theorem noFlush3_4 : ∀ t : Fin cfg3.N, t.val ≠ 4 → (cfg3.win 4).flush t = false :=
  (by decide +kernel : ∀ t : Fin grid3.N, t.val ≠ 4 → win3_4.flush t = false)
/-- at the last point it is live. -/
theorem liveAt3_4 : ∀ t : Fin cfg3.N, t.val = 4 → cfg3.idle 4 (grid3.coords t) = false :=
  (by decide +kernel : ∀ t : Fin grid3.N, t.val = 4 → idle3 4 (grid3.coords t) = false)

/-- The zero offsets of a whole-block rectangle, however spelt. -/
theorem hz3 : (![0, 0] : Fin 2 → Nat) = fun _ => 0 := funext fun a => by fin_cases a <;> rfl

/-- A store through the whole scratch row, last, covers it whatever was stored before. -/
theorem cover3_s (p : Vec F S1x48 .f32) (L : List (View.Piece (Elt F) S1x48 .f32)) (y : S1x48.Idx) :
    ∃ pc ∈ ((⟨Rect.unit (s := S1x48) ![0, 0] S1x48.size inb_S1x48_S1x48_0_0, p⟩ : View.Piece (Elt F) S1x48 .f32) :: L), y ∈ pc.1.set :=
  ⟨_, List.mem_cons.mpr (Or.inl rfl), View.mem_set_unit_zero (S := S1x48) hz3 inb_S1x48_S1x48_0_0 y⟩
/-- The one store through the whole output block covers it. -/
theorem cover3_o (p : Vec F S1x2 .f32) (L : List (View.Piece (Elt F) S1x2 .f32)) (y : S1x2.Idx) :
    ∃ pc ∈ ((⟨Rect.unit (s := S1x2) ![0, 0] S1x2.size inb_S1x2_S1x2_0_0, p⟩ : View.Piece (Elt F) S1x2 .f32) :: L), y ∈ pc.1.set :=
  ⟨_, List.mem_cons.mpr (Or.inl rfl), View.mem_set_unit_zero (S := S1x2) hz3 inb_S1x2_S1x2_0_0 y⟩

/-! ## The inputs' buffers -/

/-- An input window's staging buffer holds its block at every point, fetched there or not: unfetched, the block
    index has not moved, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_0 (c : Dev nD) (t : Fin cfg3.N) (d) : (dat3 V c).before 0 t d = iblk3 V c 0 t :=
  before3_0_of V (dat3 V c) (A_eq3 V c 0) (after3_0 V c) t d
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_1 (c : Dev nD) (t : Fin cfg3.N) (d) : (dat3 V c).before 1 t d = iblk3 V c 1 t :=
  before3_1_of V (dat3 V c) (A_eq3 V c 1) (after3_1 V c) t d
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_2 (c : Dev nD) (t : Fin cfg3.N) (d) : (dat3 V c).before 2 t d = iblk3 V c 2 t :=
  before3_2_of V (dat3 V c) (A_eq3 V c 2) (after3_2 V c) t d
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_3 (c : Dev nD) (t : Fin cfg3.N) (d) : (dat3 V c).before 3 t d = iblk3 V c 3 t :=
  before3_3_of V (dat3 V c) (A_eq3 V c 3) (after3_3 V c) t d

/-! ## The running sum and the invariant, point by point -/

/-- At the first point the running sum is the first block's column sums over zeros; -/
theorem acc3_first (c : Dev nD) (t : Fin cfg3.N) (h0 : t.val = 0) :
    acc3 V c t.val t.isLt = k3_pay2 (k3_pay1 (F := F)) (iblk3 V c 0 t) := by
  obtain ⟨n, hn⟩ := t
  cases n with
  | zero => rfl
  | succ n => exact absurd h0 (Nat.succ_ne_zero n)

/-- afterwards it is this block's column sums over what the point before left. -/
theorem acc3_later (c : Dev nD) (t : Fin cfg3.N) (h0 : t.val ≠ 0) :
    acc3 V c t.val t.isLt
      = k3_pay2 (acc3 V c (t.val - 1) (Nat.lt_of_le_of_lt (Nat.sub_le _ _) t.isLt)) (iblk3 V c 0 t) := by
  obtain ⟨n, hn⟩ := t
  cases n with
  | zero => exact absurd rfl h0
  | succ n => rfl

theorem PhiS3_zero (c : Dev nD) (n : ℕ) (h : n ≤ cfg3.N) (hz : n = 0) : PhiS3 V c n h = Pipeline.ΦA spec3 c := by
  subst hz; rfl

/-- After point n (before point n + 1): the scratch row at that point's running sum. -/
theorem PhiS3_succ (c : Dev nD) (n : ℕ) (hn : n < cfg3.N) :
    PhiS3 V c (n + 1) hn = iprop(owns (c : Thread nD τ) scr3 fullShare (acc3 V c n hn)
      ∗ ((∃ d, owns (c : Thread nD τ) scr3 fullShare d) -∗ Pipeline.ΦA spec3 c)) := rfl

/-- Before a point that is not the first: the scratch row at what the point before left. -/
theorem PhiS3_pos (c : Dev nD) (n : ℕ) (h : n ≤ cfg3.N) (hz : n ≠ 0) :
    PhiS3 V c n h = iprop(owns (c : Thread nD τ) scr3 fullShare (acc3 V c (n - 1) (by omega))
      ∗ ((∃ d, owns (c : Thread nD τ) scr3 fullShare d) -∗ Pipeline.ΦA spec3 c)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- The class's invariant lends the scratch row: it holds the row at some contents, and takes it back at any
    contents for everything it held. -/
theorem PhiA3_split (c : Dev nD) :
    (Pipeline.ΦA spec3 c : sProp 𝕄)
      ⊢ iprop((∃ d, owns (c : Thread nD τ) scr3 fullShare d)
          ∗ ((∃ d, owns (c : Thread nD τ) scr3 fullShare d) -∗ Pipeline.ΦA spec3 c)) := by
  unfold Pipeline.ΦA; rw [scopedRest3_eq]; simp only [scr3, owns_whole]
  iintro ⟨⟨H1, H2, H3, H4, H5, H6, H7, H8, H9, H10, H11, H12, H13, H14, H15, HS⟩, Hg⟩
  isplitl [HS]; · iexact HS
  iintro HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HS

/-! ## The body on whole memrefs, case by case -/

set_option maxHeartbeats 1000000 in
/-- At the first point (the first branch taken, the second not): the scratch row at anything ends at the block's
    column sums over zeros; the block's buffer is left as it was, the other buffers are not touched. -/
theorem sound_kernel3_A (c : Dev nD) (E : Set ℕ) (i : grid3.Coords)
    (arg1 : Memref sig .tc .vmem S20000x48 .f32) (harg1 : arg1.IsWhole) (arg2 : Memref sig .tc .vmem S1x48 .f32) (harg2 : arg2.IsWhole)
    (arg3 : Memref sig .tc .vmem S48x2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x48 .f32) (harg6 : arg6.IsWhole)
    (hc0 : cond3_0 i) (hc1 : ¬cond3_1 i)
    (x0 : Vec F S20000x48 .f32) (K : PUnit → sProp 𝕄) :
    iprop(owns (c : Thread nD τ) arg1 fullShare x0 ∗ (∃ d, owns (c : Thread nD τ) arg6 fullShare d)
        ∗ (iprop(owns (c : Thread nD τ) arg1 fullShare x0 ∗ owns (c : Thread nD τ) arg6 fullShare (k3_pay2 (k3_pay1 (F := F)) x0)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%ds, %fs, -, HS⟩, Hk⟩
  subst hf0
  sl_exec (disch := first | exact hc0 | exact hc1)
  sl_step
  iapply Hk
  isplitl [H0]
  · iexists f0; isplitr; · ipureintro; rfl
    iexact H0
  iexists _; isplitr
  swap; · iexact HS
  ipureintro
  sl_unfold_words
  rw [View.read_writes_eq_canon _ _ _ (cover3_s _ _)]
  rw [View.canon_cons_unit_zero (S := S1x48) hz3, View.readCov_unit_zero (S := S1x48) _ hz3]
  simp only [View.readAt_eq_ld, View.ld_unit_zero (S := S20000x48) hz3]

set_option maxHeartbeats 1000000 in
/-- At a middle point (neither branch taken): the scratch row at s ends at the block's column sums over s. -/
theorem sound_kernel3_B (c : Dev nD) (E : Set ℕ) (i : grid3.Coords)
    (arg1 : Memref sig .tc .vmem S20000x48 .f32) (harg1 : arg1.IsWhole) (arg2 : Memref sig .tc .vmem S1x48 .f32) (harg2 : arg2.IsWhole)
    (arg3 : Memref sig .tc .vmem S48x2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x48 .f32) (harg6 : arg6.IsWhole)
    (hc0 : ¬cond3_0 i) (hc1 : ¬cond3_1 i)
    (x0 : Vec F S20000x48 .f32) (s : Vec F S1x48 .f32) (K : PUnit → sProp 𝕄) :
    iprop(owns (c : Thread nD τ) arg1 fullShare x0 ∗ owns (c : Thread nD τ) arg6 fullShare s
        ∗ (iprop(owns (c : Thread nD τ) arg1 fullShare x0 ∗ owns (c : Thread nD τ) arg6 fullShare (k3_pay2 s x0)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%fs, %hfs, HS⟩, Hk⟩
  subst hf0; subst hfs
  sl_exec (disch := first | exact hc0 | exact hc1)
  sl_step
  iapply Hk
  isplitl [H0]
  · iexists f0; isplitr; · ipureintro; rfl
    iexact H0
  iexists _; isplitr
  swap; · iexact HS
  ipureintro
  sl_unfold_words
  rw [View.read_writes_eq_canon _ _ _ (cover3_s _ _), View.canon_cons_unit_zero (S := S1x48) hz3]
  simp only [View.readAt_eq_ld, View.ld_unit_zero (S := S20000x48) hz3, View.ld_unit_zero (S := S1x48) hz3]

set_option maxHeartbeats 1000000 in
/-- At the last point (the first branch not taken, the second taken): the scratch row at s ends at the block's
    column sums over s, and the output block, at anything, ends at the result computed of that row and the three
    small operands, whose buffers are left as they were. -/
theorem sound_kernel3_C (c : Dev nD) (E : Set ℕ) (i : grid3.Coords)
    (arg1 : Memref sig .tc .vmem S20000x48 .f32) (harg1 : arg1.IsWhole) (arg2 : Memref sig .tc .vmem S1x48 .f32) (harg2 : arg2.IsWhole)
    (arg3 : Memref sig .tc .vmem S48x2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x48 .f32) (harg6 : arg6.IsWhole)
    (hc0 : ¬cond3_0 i) (hc1 : cond3_1 i)
    (x0 : Vec F S20000x48 .f32) (x1 : Vec F S1x48 .f32) (x2 : Vec F S48x2 .f32) (x3 : Vec F S1x2 .f32) (s : Vec F S1x48 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k3_pay3 (k3_pay2 s x0) x1 x2 x3)
            ∗ owns (c : Thread nD τ) arg6 fullShare (k3_pay2 s x0)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover3_o _ _), View.canon_cons_unit_zero (S := S1x2) hz3,
      View.readCov_unit_zero (S := S1x48) _ hz3]
    simp only [View.readAt_eq_ld, View.ld_unit_zero (S := S20000x48) hz3, View.ld_unit_zero (S := S1x48) hz3,
      View.ld_unit_zero (S := S48x2) hz3, View.ld_unit_zero (S := S1x2) hz3]
  iexists _; isplitr
  swap; · iexact HS
  ipureintro
  sl_unfold_words
  rw [View.read_writes_eq_canon _ _ _ (cover3_s _ _), View.canon_cons_unit_zero (S := S1x48) hz3]
  simp only [View.readAt_eq_ld, View.ld_unit_zero (S := S20000x48) hz3, View.ld_unit_zero (S := S1x48) hz3]

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point. The inputs' buffers hold their blocks. At the first point the class's invariant lends the
    scratch row at some contents and the body leaves it at the first running sum; at a later point the invariant
    holds the row at the running sum of the point before and the body leaves it at this point's; the promise to
    take the row back is carried along unchanged. Away from the last point the output's buffer is handed back as
    found (idle and not written back there); at the last point the body stores the result over the whole block.
    What the core owes passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [PhiS3_castSucc]
  by_cases h0 : t.val = 0
  · have h4 : t.val ≠ 4 := by omega
    rw [Dat.leavesExact_idle (dat3 V c) 4 t (idleAt3_4 t h4) (noFlush3_4 t h4)]
    rw [PhiS3_zero V c _ _ h0, acc3_first V c t h0]
    iintro ⟨HΦ, Ho, ⟨%d0, H0⟩, ⟨%d1, H1⟩, ⟨%d2, H2⟩, ⟨%d3, H3⟩, ⟨%d4, H4⟩⟩
    ihave ⟨HS, Hw⟩ := (PhiA3_split (F := F) c) $$ HΦ
    iapply (sound_kernel3_A c Set.univ _ _ _ _ _ _ _ _ _ _ _ _ _ ((hcond3_0 t).mpr h0) (fun h => h4 ((hcond3_1 t).mp h)) (iblk3 V c 0 t) _)
    isplitl [H0]; · iexact H0
    isplitl [HS]; · iexact HS
    iintro ⟨H0, HS⟩
    isplitl [HS Hw]
    · isplitl [HS]; · iexact HS
      iexact Hw
    isplitl [Ho]; · iexact Ho
    isplitl [H0]; · iexact H0
    isplitl [H1]; · iexact H1
    isplitl [H2]; · iexact H2
    isplitl [H3]; · iexact H3
    iexists _; iexact H4
  · by_cases h4 : t.val = 4
    · rw [show (dat3 V c).leavesExact 4 t = owns (c : Thread nD τ) (st3_4 t) fullShare ((dat3 V c).after 4 t) from by
        unfold Dat.leavesExact; rw [liveAt3_4 t h4], after3_4]
      unfold out3_4
      rw [PhiS3_pos V c _ _ h0, acc3_later V c t h0]
      iintro ⟨⟨HS, Hw⟩, Ho, ⟨%d0, H0⟩, ⟨%d1, H1⟩, ⟨%d2, H2⟩, ⟨%d3, H3⟩, ⟨%d4, H4⟩⟩
      iapply (sound_kernel3_C c Set.univ _ _ _ _ _ _ _ _ _ _ _ _ _ (fun h => h0 ((hcond3_0 t).mp h)) ((hcond3_1 t).mpr h4)
        (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexact H4
    · rw [Dat.leavesExact_idle (dat3 V c) 4 t (idleAt3_4 t h4) (noFlush3_4 t h4)]
      rw [PhiS3_pos V c _ _ h0, acc3_later V c t h0]
      iintro ⟨⟨HS, Hw⟩, Ho, ⟨%d0, H0⟩, ⟨%d1, H1⟩, ⟨%d2, H2⟩, ⟨%d3, H3⟩, ⟨%d4, H4⟩⟩
      iapply (sound_kernel3_B c Set.univ _ _ _ _ _ _ _ _ _ _ _ _ _ (fun h => h0 ((hcond3_0 t).mp h)) (fun h => h4 ((hcond3_1 t).mp h))
        (iblk3 V c 0 t) _ _)
      isplitl [H0]; · iexact H0
      isplitl [HS]; · iexact HS
      iintro ⟨H0, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexists _; iexact H4

/-- After the last point the scratch row is given up and the class's invariant comes back. -/
theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 5 := N_3; omega)]
  iintro ⟨HS, Hw⟩
  iapply Hw
  iexists _; iexact HS

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end

end Cert.Kernel.Hand

end
-- ==== Proof.BRun.lean ====
/-
  The run of the whole program: nine segments in order — three stretches of host operations (the edge lists, the degree
  normalisation, the per-edge weights), the first dense layer, the first aggregation on the host, the bias and
  rectifier, the second dense layer, the second aggregation on the host, and the pooling with the last linear map.
  Between two segments the core holds every unscoped buffer at a named valuation: the launch memory, then after a host
  stretch what the stretch's operations compute from the valuation before, and after a region the valuation before
  with the region's arrays at what its pipeline leaves. The run ends with every unscoped buffer at the last of these
  valuations, from which both the frame (no argument array is ever written) and the result's value are read.
-/
import proofs.«129971_j27144193311514_1_alg».proof.Proof.BReg0
import proofs.«129971_j27144193311514_1_alg».proof.Proof.BReg1
import proofs.«129971_j27144193311514_1_alg».proof.Proof.BReg2
import proofs.«129971_j27144193311514_1_alg».proof.Proof.BReg3
import proofs.«129971_j27144193311514_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_keep (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_keep (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- At region 0's exit: its arrays at what the pipeline leaves (an input as entered, the output with the write-backs
    folded in), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- An input window's array is left as the region found it. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_keep (c : Dev nD) (r : Ref sig .tc) (h : r ∉ hostOps1_W) : W5 m ρ c (Proc.devRef .tc r) = W4 m ρ c (Proc.devRef .tc r) :=
  StableHlo.after_of_writes_sub hostOps1 _ hostOps1_writes h

/-- At region 1's exit: its arrays at what the pipeline leaves (an input as entered, the output with the write-backs
    folded in), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- An input window's array is left as the region found it. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (an input as entered, the output with the write-backs
    folded in), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- An input window's array is left as the region found it. -/
theorem W7_in (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
theorem W8_keep (c : Dev nD) (r : Ref sig .tc) (h : r ∉ hostOps3_W) : W8 m ρ c (Proc.devRef .tc r) = W7 m ρ c (Proc.devRef .tc r) :=
  StableHlo.after_of_writes_sub hostOps3 _ hostOps3_writes h

/-- At region 3's exit: its arrays at what the pipeline leaves (an input as entered, the output with the write-backs
    folded in), every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- An input window's array is left as the region found it. -/
theorem W9_in (c : Dev nD) (w : Fin cfg3.W) (hw : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hw _).trans (A_eq3 (V8 m ρ) c w))
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ## No segment writes an argument array -/

theorem W9_main_arg0 (c : Dev nD) : W9 m ρ c (Proc.devRef .tc main_arg0) = m ((c : Thread nD τ).loc main_arg0) :=
  (W9_of_ne m ρ c main_arg0 (by decide)).trans <| (W8_keep m ρ c main_arg0 (by decide)).trans <| (W7_of_ne m ρ c main_arg0 (by decide)).trans <| (W6_of_ne m ρ c main_arg0 (by decide)).trans <|
    (W5_keep m ρ c main_arg0 (by decide)).trans <| (W4_in m ρ c 0 rfl).trans <| (W3_keep m ρ c main_arg0 (by decide)).trans <|
    (W2_keep m ρ c main_arg0 (by decide)).trans <| (W1_keep m ρ c main_arg0 (by decide)).trans rfl
theorem W9_main_arg1 (c : Dev nD) : W9 m ρ c (Proc.devRef .tc main_arg1) = m ((c : Thread nD τ).loc main_arg1) :=
  (W9_of_ne m ρ c main_arg1 (by decide)).trans <| (W8_keep m ρ c main_arg1 (by decide)).trans <| (W7_of_ne m ρ c main_arg1 (by decide)).trans <| (W6_of_ne m ρ c main_arg1 (by decide)).trans <|
    (W5_keep m ρ c main_arg1 (by decide)).trans <| (W4_of_ne m ρ c main_arg1 (by decide)).trans <| (W3_keep m ρ c main_arg1 (by decide)).trans <|
    (W2_keep m ρ c main_arg1 (by decide)).trans <| (W1_keep m ρ c main_arg1 (by decide)).trans rfl
theorem W9_main_arg2 (c : Dev nD) : W9 m ρ c (Proc.devRef .tc main_arg2) = m ((c : Thread nD τ).loc main_arg2) :=
  (W9_of_ne m ρ c main_arg2 (by decide)).trans <| (W8_keep m ρ c main_arg2 (by decide)).trans <| (W7_of_ne m ρ c main_arg2 (by decide)).trans <| (W6_of_ne m ρ c main_arg2 (by decide)).trans <|
    (W5_keep m ρ c main_arg2 (by decide)).trans <| (W4_in m ρ c 1 rfl).trans <| (W3_keep m ρ c main_arg2 (by decide)).trans <|
    (W2_keep m ρ c main_arg2 (by decide)).trans <| (W1_keep m ρ c main_arg2 (by decide)).trans rfl
theorem W9_main_arg3 (c : Dev nD) : W9 m ρ c (Proc.devRef .tc main_arg3) = m ((c : Thread nD τ).loc main_arg3) :=
  (W9_of_ne m ρ c main_arg3 (by decide)).trans <| (W8_keep m ρ c main_arg3 (by decide)).trans <| (W7_of_ne m ρ c main_arg3 (by decide)).trans <| (W6_of_ne m ρ c main_arg3 (by decide)).trans <|
    (W5_keep m ρ c main_arg3 (by decide)).trans <| (W4_of_ne m ρ c main_arg3 (by decide)).trans <| (W3_keep m ρ c main_arg3 (by decide)).trans <|
    (W2_keep m ρ c main_arg3 (by decide)).trans <| (W1_keep m ρ c main_arg3 (by decide)).trans rfl
theorem W9_main_arg4 (c : Dev nD) : W9 m ρ c (Proc.devRef .tc main_arg4) = m ((c : Thread nD τ).loc main_arg4) :=
  (W9_of_ne m ρ c main_arg4 (by decide)).trans <| (W8_keep m ρ c main_arg4 (by decide)).trans <| (W7_in m ρ c 1 rfl).trans <| (W6_of_ne m ρ c main_arg4 (by decide)).trans <|
    (W5_keep m ρ c main_arg4 (by decide)).trans <| (W4_of_ne m ρ c main_arg4 (by decide)).trans <| (W3_keep m ρ c main_arg4 (by decide)).trans <|
    (W2_keep m ρ c main_arg4 (by decide)).trans <| (W1_keep m ρ c main_arg4 (by decide)).trans rfl
theorem W9_main_arg5 (c : Dev nD) : W9 m ρ c (Proc.devRef .tc main_arg5) = m ((c : Thread nD τ).loc main_arg5) :=
  (W9_of_ne m ρ c main_arg5 (by decide)).trans <| (W8_keep m ρ c main_arg5 (by decide)).trans <| (W7_of_ne m ρ c main_arg5 (by decide)).trans <| (W6_of_ne m ρ c main_arg5 (by decide)).trans <|
    (W5_keep m ρ c main_arg5 (by decide)).trans <| (W4_of_ne m ρ c main_arg5 (by decide)).trans <| (W3_keep m ρ c main_arg5 (by decide)).trans <|
    (W2_keep m ρ c main_arg5 (by decide)).trans <| (W1_keep m ρ c main_arg5 (by decide)).trans rfl
theorem W9_main_arg6 (c : Dev nD) : W9 m ρ c (Proc.devRef .tc main_arg6) = m ((c : Thread nD τ).loc main_arg6) :=
  (W9_in m ρ c 2 rfl).trans <| (W8_keep m ρ c main_arg6 (by decide)).trans <| (W7_of_ne m ρ c main_arg6 (by decide)).trans <| (W6_of_ne m ρ c main_arg6 (by decide)).trans <|
    (W5_keep m ρ c main_arg6 (by decide)).trans <| (W4_of_ne m ρ c main_arg6 (by decide)).trans <| (W3_keep m ρ c main_arg6 (by decide)).trans <|
    (W2_keep m ρ c main_arg6 (by decide)).trans <| (W1_keep m ρ c main_arg6 (by decide)).trans rfl
theorem W9_main_arg7 (c : Dev nD) : W9 m ρ c (Proc.devRef .tc main_arg7) = m ((c : Thread nD τ).loc main_arg7) :=
  (W9_of_ne m ρ c main_arg7 (by decide)).trans <| (W8_keep m ρ c main_arg7 (by decide)).trans <| (W7_of_ne m ρ c main_arg7 (by decide)).trans <| (W6_of_ne m ρ c main_arg7 (by decide)).trans <|
    (W5_keep m ρ c main_arg7 (by decide)).trans <| (W4_of_ne m ρ c main_arg7 (by decide)).trans <| (W3_keep m ρ c main_arg7 (by decide)).trans <|
    (W2_keep m ρ c main_arg7 (by decide)).trans <| (W1_keep m ρ c main_arg7 (by decide)).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation, the generator register. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment: entered with every unscoped buffer at the contents before it, left with them at the
    contents after it; its arrays are split out of the unscoped buffers at entry and put back at exit; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V3 m ρ) c).Φ 0 from rfl]
    iintro ⟨Hp, -, Hr⟩
    iapply (hin0 (V3 m ρ) c)
    unfold Pipeline.ΦA
    isplitl [Hr]; · iexact Hr
    iexact Hp
  hout c := by
    rw [Pipeline.ownSems0_none, show (pdats m ρ 0 c).Φ (Fin.last _) = (dat0 (V3 m ρ) c).Φ (Fin.last cfg0.N) from rfl]
    have hgive := hout0 (V3 m ρ) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers at entry and put back at exit; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V5 m ρ) c).Φ 0 from rfl]
    iintro ⟨Hp, -, Hr⟩
    iapply (hin1 (V5 m ρ) c)
    unfold Pipeline.ΦA
    isplitl [Hr]; · iexact Hr
    iexact Hp
  hout c := by
    rw [Pipeline.ownSems0_none, show (pdats m ρ 1 c).Φ (Fin.last _) = (dat1 (V5 m ρ) c).Φ (Fin.last cfg1.N) from rfl]
    have hgive := hout1 (V5 m ρ) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it; its arrays are split out of the unscoped buffers at entry and put back at exit; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V6 m ρ) c).Φ 0 from rfl]
    iintro ⟨Hp, -, Hr⟩
    iapply (hin2 (V6 m ρ) c)
    unfold Pipeline.ΦA
    isplitl [Hr]; · iexact Hr
    iexact Hp
  hout c := by
    rw [Pipeline.ownSems0_none, show (pdats m ρ 2 c).Φ (Fin.last _) = (dat2 (V6 m ρ) c).Φ (Fin.last cfg2.N) from rfl]
    have hgive := hout2 (V6 m ρ) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at the
    contents after it; its arrays are split out of the unscoped buffers at entry and put back at exit; the generator
    register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V8 m ρ) c).Φ 0 from rfl]
    iintro ⟨Hp, -, Hr⟩
    iapply (hin3 (V8 m ρ) c)
    unfold Pipeline.ΦA
    isplitl [Hr]; · iexact Hr
    iexact Hp
  hout c := by
    rw [Pipeline.ownSems0_none, show (pdats m ρ 3 c).Φ (Fin.last _) = (dat3 (V8 m ρ) c).Φ (Fin.last cfg3.N) from rfl]
    have hgive := hout3 (V8 m ρ) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ) ]

set_option backward.isDefEq.respectTransparency.types false in
/-- THE RUN. From any memory with zero counters every weakly fair execution of the program terminates, nothing
    faulting, and every final state holds each unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_main m ρ)

/-- THE RESULT: the output array ends at what region 3's pipeline leaves in it, and every argument as launched. -/
theorem run_value : θ_run defs (onTc (τ := τ) (main (F := F))) ⟨m, fun _ => 0, ρ⟩ (fun r => ∀ c : Dev nD,
      r.2.mem ((c.tc : Thread nD τ).loc main_v64) = (dat3 (V8 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v64 (by decide))).trans (W9_arr m ρ c 4),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_main m ρ)

end Cert.Kernel.Hand

end
-- ==== Proof.Reg0.lean ====
/-
  Region 0 of the program: the first dense layer, a 100000×48 matrix times a 48×48 matrix, ten row blocks of 10000.
  The pipeline hands the body, at grid point t, block t of its first operand and the whole of its second; the body
  stores one value over the whole output block. What that block holds after the body is therefore one pure function
  of the two input blocks (the store's payload), and the region's proof data say exactly that: the inputs' buffers
  are left as found, the output's buffer holds the payload, nothing is owed and the scoped rest is untouched.
-/
import proofs.«129971_j27144193311514_1_alg».proof.Proof.Gen.KernelIdeal.Launch
import proofs.«129971_j27144193311514_1_alg».proof.Proof.Gen.KernelIdeal.Skeleton
import proofs.«129971_j27144193311514_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev rOut0 : Rect S10000x48 := Rect.unit (s := S10000x48) ![0, 0] S10000x48.size inb_S10000x48_S10000x48_0_0

/-- The output block after the body: the store's payload of the two input blocks, laid over the whole block. -/
def out0_2 (x0 : Vec F S10000x48 .f32) (x1 : Vec F S48x48 .f32) : Vec F S10000x48 .f32 :=
  View.canon [⟨rOut0, k0_pay1 (View.ld x0 (Rect.unit (s := S10000x48) ![0, 0] S10000x48.size inb_S10000x48_S10000x48_0_0)) (View.ld x1 (Rect.unit (s := S48x48) ![0, 0] S48x48.size inb_S48x48_S48x48_0_0))⟩]

/-- The one store covers the block. -/
theorem cover0_2 (p0 : Vec F S10000x48 .f32) (y : S10000x48.Idx) :
    ∃ pc ∈ ([⟨rOut0, p0⟩] : List (View.Piece (Elt F) S10000x48 .f32)), y ∈ pc.1.set :=
  View.cover_of_tiled [⟨rOut0, p0⟩] S10000x48.size (by rfl) y

set_option maxHeartbeats 1000000 in
/-- The body on whole staging buffers, the inputs' at contents x0, x1 and the output's at anything, ends with the
    inputs' as they were and the output's at the payload. -/
theorem sound_kernel0 (c : Dev nD) (E : Set ℕ) (i : grid0.Coords) (arg1 : Memref sig .tc .vmem S10000x48 .f32) (harg1 : arg1.IsWhole) (arg2 : Memref sig .tc .vmem S48x48 .f32) (harg2 : arg2.IsWhole)
    (arg3 : Memref sig .tc .vmem S10000x48 .f32) (harg3 : arg3.IsWhole)
    (x0 : Vec F S10000x48 .f32) (x1 : Vec F S48x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as the region finds them; after the body each input's buffer at its
    block and the output's at the payload of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Before the first point and after the last the invariant is the class's: the scoped rest and the generator register. -/
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.Reg1.lean ====
/-
  Region 1 of the program: the bias row added to every row and the leaky rectifier, five row blocks of 20000.
  The pipeline hands the body, at grid point t, block t of its first operand and the whole of its second; the body
  stores one value over the whole output block. What that block holds after the body is therefore one pure function
  of the two input blocks (the store's payload), and the region's proof data say exactly that: the inputs' buffers
  are left as found, the output's buffer holds the payload, nothing is owed and the scoped rest is untouched.
-/
import proofs.«129971_j27144193311514_1_alg».proof.Proof.Gen.KernelIdeal.Launch
import proofs.«129971_j27144193311514_1_alg».proof.Proof.Gen.KernelIdeal.Skeleton
import proofs.«129971_j27144193311514_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole output block. -/
abbrev rOut1 : Rect S20000x48 := Rect.unit (s := S20000x48) ![0, 0] S20000x48.size inb_S20000x48_S20000x48_0_0

/-- The output block after the body: the store's payload of the two input blocks, laid over the whole block. -/
def out1_2 (x0 : Vec F S20000x48 .f32) (x1 : Vec F S1x48 .f32) : Vec F S20000x48 .f32 :=
  View.canon [⟨rOut1, k1_pay1 (View.ld x0 (Rect.unit (s := S20000x48) ![0, 0] S20000x48.size inb_S20000x48_S20000x48_0_0)) (View.ld x1 (Rect.unit (s := S1x48) ![0, 0] S1x48.size inb_S1x48_S1x48_0_0))⟩]

/-- The one store covers the block. -/
theorem cover1_2 (p0 : Vec F S20000x48 .f32) (y : S20000x48.Idx) :
    ∃ pc ∈ ([⟨rOut1, p0⟩] : List (View.Piece (Elt F) S20000x48 .f32)), y ∈ pc.1.set :=
  View.cover_of_tiled [⟨rOut1, p0⟩] S20000x48.size (by rfl) y

set_option maxHeartbeats 1000000 in
/-- The body on whole staging buffers, the inputs' at contents x0, x1 and the output's at anything, ends with the
    inputs' as they were and the output's at the payload. -/
theorem sound_kernel1 (c : Dev nD) (E : Set ℕ) (i : grid1.Coords) (arg1 : Memref sig .tc .vmem S20000x48 .f32) (harg1 : arg1.IsWhole) (arg2 : Memref sig .tc .vmem S1x48 .f32) (harg2 : arg2.IsWhole)
    (arg3 : Memref sig .tc .vmem S20000x48 .f32) (harg3 : arg3.IsWhole)
    (x0 : Vec F S20000x48 .f32) (x1 : Vec F S1x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as the region finds them; after the body each input's buffer at its
    block and the output's at the payload of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Before the first point and after the last the invariant is the class's: the scoped rest and the generator register. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Reg2.lean ====
/-
  Region 2 of the program: the second dense layer, a 100000×48 matrix times a 48×48 matrix, ten row blocks of 10000.
  The pipeline hands the body, at grid point t, block t of its first operand and the whole of its second; the body
  stores one value over the whole output block. What that block holds after the body is therefore one pure function
  of the two input blocks (the store's payload), and the region's proof data say exactly that: the inputs' buffers
  are left as found, the output's buffer holds the payload, nothing is owed and the scoped rest is untouched.
-/
import proofs.«129971_j27144193311514_1_alg».proof.Proof.Gen.KernelIdeal.Launch
import proofs.«129971_j27144193311514_1_alg».proof.Proof.Gen.KernelIdeal.Skeleton
import proofs.«129971_j27144193311514_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body stores through: the whole output block. -/
abbrev rOut2 : Rect S10000x48 := Rect.unit (s := S10000x48) ![0, 0] S10000x48.size inb_S10000x48_S10000x48_0_0

/-- The output block after the body: the store's payload of the two input blocks, laid over the whole block. -/
def out2_2 (x0 : Vec F S10000x48 .f32) (x1 : Vec F S48x48 .f32) : Vec F S10000x48 .f32 :=
  View.canon [⟨rOut2, k2_pay1 (View.ld x0 (Rect.unit (s := S10000x48) ![0, 0] S10000x48.size inb_S10000x48_S10000x48_0_0)) (View.ld x1 (Rect.unit (s := S48x48) ![0, 0] S48x48.size inb_S48x48_S48x48_0_0))⟩]

/-- The one store covers the block. -/
theorem cover2_2 (p0 : Vec F S10000x48 .f32) (y : S10000x48.Idx) :
    ∃ pc ∈ ([⟨rOut2, p0⟩] : List (View.Piece (Elt F) S10000x48 .f32)), y ∈ pc.1.set :=
  View.cover_of_tiled [⟨rOut2, p0⟩] S10000x48.size (by rfl) y

set_option maxHeartbeats 1000000 in
/-- The body on whole staging buffers, the inputs' at contents x0, x1 and the output's at anything, ends with the
    inputs' as they were and the output's at the payload. -/
theorem sound_kernel2 (c : Dev nD) (E : Set ℕ) (i : grid2.Coords) (arg1 : Memref sig .tc .vmem S10000x48 .f32) (harg1 : arg1.IsWhole) (arg2 : Memref sig .tc .vmem S48x48 .f32) (harg2 : arg2.IsWhole)
    (arg3 : Memref sig .tc .vmem S10000x48 .f32) (harg3 : arg3.IsWhole)
    (x0 : Vec F S10000x48 .f32) (x1 : Vec F S48x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core c: the arrays as the region finds them; after the body each input's buffer at its
    block and the output's at the payload of the input blocks; the scoped rest and the generator register untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Before the first point and after the last the invariant is the class's: the scoped rest and the generator register. -/
theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.Reg3.lean ====
/-
  Region 3 of the program: the sum over the 100000 rows, five row blocks of 20000, kept in a scratch row between the
  grid points, and at the last point the pooled row (plus 100000 times the bias row) times the 48×2 matrix plus the
  last bias, stored into the one output block.
  At point 0 the body first stores zeros into the scratch; at every point it adds the block's column sums to the
  scratch; at point 4 it also computes and stores the result. So after point n the scratch holds a running sum that
  is a recursion on n, and the region's invariant between the points is exactly that: the scratch row at the running
  sum, everything else the region may use handed back once the scratch is given up.
-/
import proofs.«129971_j27144193311514_1_alg».proof.Proof.Gen.KernelIdeal.Launch
import proofs.«129971_j27144193311514_1_alg».proof.Proof.Gen.KernelIdeal.Skeleton
import proofs.«129971_j27144193311514_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch row the kernel keeps between the grid points. -/
abbrev scr3 : Memref sig .tc .vmem S1x48 .f32 := Memref.whole cc3_scratch0

/-- THE RUNNING SUM: what the scratch row holds after point n — zeros plus the first block's column sums after point 0,
    what the point before left plus this block's column sums afterwards. -/
def acc3 (c : Dev nD) : (n : ℕ) → n < cfg3.N → FVec F S1x48 .f32
  | 0, hn => k3_pay2 (k3_pay1 (F := F)) (iblk3 V c 0 ⟨0, hn⟩)
  | n + 1, hn => k3_pay2 (acc3 c n (Nat.lt_of_succ_lt hn)) (iblk3 V c 0 ⟨n + 1, hn⟩)

/-- What the last point stores into the output block, of the running sum and the three small operands (stated at
    every point; the body stores it at the last one only, and nothing reads it elsewhere). -/
def out3_4 (c : Dev nD) (t : Fin cfg3.N) : FVec F S1x2 .f32 :=
  k3_pay3 (acc3 V c t.val t.isLt) (iblk3 V c 1 t) (iblk3 V c 2 t) (iblk3 V c 3 t)

/-- The region's invariant before position n: at the start the scoped rest and the generator register; afterwards the
    scratch row at the running sum, and the rest handed back in exchange for the scratch row at any contents. -/
def PhiS3 (c : Dev nD) : (n : ℕ) → n ≤ cfg3.N → sProp 𝕄
  | 0, _ => Pipeline.ΦA spec3 c
  | n + 1, hn => iprop(owns (c : Thread nD τ) scr3 fullShare (acc3 V c n hn)
      ∗ ((∃ d, owns (c : Thread nD τ) scr3 fullShare d) -∗ Pipeline.ΦA spec3 c))

/-- The region's proof data on core c. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]

/-- Before the first point the invariant is the class's. -/
theorem hin3 (c : Dev nD) : (Pipeline.ΦA spec3 c : sProp 𝕄) ⊢ (dat3 V c).Φ 0 := .rfl

/-! ## The grid's facts: the two conditions of the body, where the output window is idle, where it is written back -/

/-- The condition of the body's first branch (the scratch row is reset), from the grid coordinates. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The condition of the body's second branch (the result is computed and stored), from the grid coordinates. -/
abbrev cond3_1 (i : grid3.Coords) : Prop := k3_cond2 i = 1#1
/-- It holds at the last point only. -/
theorem hcond3_1 : ∀ t : Fin cfg3.N, cond3_1 (grid3.coords t) ↔ t.val = 4 :=
  (by decide +kernel : ∀ t : Fin grid3.N, cond3_1 (grid3.coords t) ↔ t.val = 4)

/-- The four inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Away from the last point the output window is idle, -/
theorem idleAt3_4 : ∀ t : Fin cfg3.N, t.val ≠ 4 → cfg3.idle 4 (grid3.coords t) = true :=
  (by decide +kernel : ∀ t : Fin grid3.N, t.val ≠ 4 → idle3 4 (grid3.coords t) = true)
/-- and its block is not written back there; -/
theorem noFlush3_4 : ∀ t : Fin cfg3.N, t.val ≠ 4 → (cfg3.win 4).flush t = false :=
  (by decide +kernel : ∀ t : Fin grid3.N, t.val ≠ 4 → win3_4.flush t = false)
/-- at the last point it is live. -/
theorem liveAt3_4 : ∀ t : Fin cfg3.N, t.val = 4 → cfg3.idle 4 (grid3.coords t) = false :=
  (by decide +kernel : ∀ t : Fin grid3.N, t.val = 4 → idle3 4 (grid3.coords t) = false)

/-- The zero offsets of a whole-block rectangle, however spelt. -/
theorem hz3 : (![0, 0] : Fin 2 → Nat) = fun _ => 0 := funext fun a => by fin_cases a <;> rfl

/-- A store through the whole scratch row, last, covers it whatever was stored before. -/
theorem cover3_s (p : Vec F S1x48 .f32) (L : List (View.Piece (Elt F) S1x48 .f32)) (y : S1x48.Idx) :
    ∃ pc ∈ ((⟨Rect.unit (s := S1x48) ![0, 0] S1x48.size inb_S1x48_S1x48_0_0, p⟩ : View.Piece (Elt F) S1x48 .f32) :: L), y ∈ pc.1.set :=
  ⟨_, List.mem_cons.mpr (Or.inl rfl), View.mem_set_unit_zero (S := S1x48) hz3 inb_S1x48_S1x48_0_0 y⟩
/-- The one store through the whole output block covers it. -/
theorem cover3_o (p : Vec F S1x2 .f32) (L : List (View.Piece (Elt F) S1x2 .f32)) (y : S1x2.Idx) :
    ∃ pc ∈ ((⟨Rect.unit (s := S1x2) ![0, 0] S1x2.size inb_S1x2_S1x2_0_0, p⟩ : View.Piece (Elt F) S1x2 .f32) :: L), y ∈ pc.1.set :=
  ⟨_, List.mem_cons.mpr (Or.inl rfl), View.mem_set_unit_zero (S := S1x2) hz3 inb_S1x2_S1x2_0_0 y⟩

/-! ## The inputs' buffers -/

/-- An input window's staging buffer holds its block at every point, fetched there or not: unfetched, the block
    index has not moved, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_0 (c : Dev nD) (t : Fin cfg3.N) (d) : (dat3 V c).before 0 t d = iblk3 V c 0 t :=
  before3_0_of V (dat3 V c) (A_eq3 V c 0) (after3_0 V c) t d
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_1 (c : Dev nD) (t : Fin cfg3.N) (d) : (dat3 V c).before 1 t d = iblk3 V c 1 t :=
  before3_1_of V (dat3 V c) (A_eq3 V c 1) (after3_1 V c) t d
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_2 (c : Dev nD) (t : Fin cfg3.N) (d) : (dat3 V c).before 2 t d = iblk3 V c 2 t :=
  before3_2_of V (dat3 V c) (A_eq3 V c 2) (after3_2 V c) t d
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_3 (c : Dev nD) (t : Fin cfg3.N) (d) : (dat3 V c).before 3 t d = iblk3 V c 3 t :=
  before3_3_of V (dat3 V c) (A_eq3 V c 3) (after3_3 V c) t d

/-! ## The running sum and the invariant, point by point -/

/-- At the first point the running sum is the first block's column sums over zeros; -/
theorem acc3_first (c : Dev nD) (t : Fin cfg3.N) (h0 : t.val = 0) :
    acc3 V c t.val t.isLt = k3_pay2 (k3_pay1 (F := F)) (iblk3 V c 0 t) := by
  obtain ⟨n, hn⟩ := t
  cases n with
  | zero => rfl
  | succ n => exact absurd h0 (Nat.succ_ne_zero n)

/-- afterwards it is this block's column sums over what the point before left. -/
theorem acc3_later (c : Dev nD) (t : Fin cfg3.N) (h0 : t.val ≠ 0) :
    acc3 V c t.val t.isLt
      = k3_pay2 (acc3 V c (t.val - 1) (Nat.lt_of_le_of_lt (Nat.sub_le _ _) t.isLt)) (iblk3 V c 0 t) := by
  obtain ⟨n, hn⟩ := t
  cases n with
  | zero => exact absurd rfl h0
  | succ n => rfl

theorem PhiS3_zero (c : Dev nD) (n : ℕ) (h : n ≤ cfg3.N) (hz : n = 0) : PhiS3 V c n h = Pipeline.ΦA spec3 c := by
  subst hz; rfl

/-- After point n (before point n + 1): the scratch row at that point's running sum. -/
theorem PhiS3_succ (c : Dev nD) (n : ℕ) (hn : n < cfg3.N) :
    PhiS3 V c (n + 1) hn = iprop(owns (c : Thread nD τ) scr3 fullShare (acc3 V c n hn)
      ∗ ((∃ d, owns (c : Thread nD τ) scr3 fullShare d) -∗ Pipeline.ΦA spec3 c)) := rfl

/-- Before a point that is not the first: the scratch row at what the point before left. -/
theorem PhiS3_pos (c : Dev nD) (n : ℕ) (h : n ≤ cfg3.N) (hz : n ≠ 0) :
    PhiS3 V c n h = iprop(owns (c : Thread nD τ) scr3 fullShare (acc3 V c (n - 1) (by omega))
      ∗ ((∃ d, owns (c : Thread nD τ) scr3 fullShare d) -∗ Pipeline.ΦA spec3 c)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- The class's invariant lends the scratch row: it holds the row at some contents, and takes it back at any
    contents for everything it held. -/
theorem PhiA3_split (c : Dev nD) :
    (Pipeline.ΦA spec3 c : sProp 𝕄)
      ⊢ iprop((∃ d, owns (c : Thread nD τ) scr3 fullShare d)
          ∗ ((∃ d, owns (c : Thread nD τ) scr3 fullShare d) -∗ Pipeline.ΦA spec3 c)) := by
  unfold Pipeline.ΦA; rw [scopedRest3_eq]; simp only [scr3, owns_whole]
  iintro ⟨⟨H1, H2, H3, H4, H5, H6, H7, H8, H9, H10, H11, H12, H13, H14, H15, HS⟩, Hg⟩
  isplitl [HS]; · iexact HS
  iintro HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HS

/-! ## The body on whole memrefs, case by case -/

set_option maxHeartbeats 1000000 in
/-- At the first point (the first branch taken, the second not): the scratch row at anything ends at the block's
    column sums over zeros; the block's buffer is left as it was, the other buffers are not touched. -/
theorem sound_kernel3_A (c : Dev nD) (E : Set ℕ) (i : grid3.Coords)
    (arg1 : Memref sig .tc .vmem S20000x48 .f32) (harg1 : arg1.IsWhole) (arg2 : Memref sig .tc .vmem S1x48 .f32) (harg2 : arg2.IsWhole)
    (arg3 : Memref sig .tc .vmem S48x2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x48 .f32) (harg6 : arg6.IsWhole)
    (hc0 : cond3_0 i) (hc1 : ¬cond3_1 i)
    (x0 : Vec F S20000x48 .f32) (K : PUnit → sProp 𝕄) :
    iprop(owns (c : Thread nD τ) arg1 fullShare x0 ∗ (∃ d, owns (c : Thread nD τ) arg6 fullShare d)
        ∗ (iprop(owns (c : Thread nD τ) arg1 fullShare x0 ∗ owns (c : Thread nD τ) arg6 fullShare (k3_pay2 (k3_pay1 (F := F)) x0)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%ds, %fs, -, HS⟩, Hk⟩
  subst hf0
  sl_exec (disch := first | exact hc0 | exact hc1)
  sl_step
  iapply Hk
  isplitl [H0]
  · iexists f0; isplitr; · ipureintro; rfl
    iexact H0
  iexists _; isplitr
  swap; · iexact HS
  ipureintro
  sl_unfold_words
  rw [View.read_writes_eq_canon _ _ _ (cover3_s _ _)]
  rw [View.canon_cons_unit_zero (S := S1x48) hz3, View.readCov_unit_zero (S := S1x48) _ hz3]
  simp only [View.readAt_eq_ld, View.ld_unit_zero (S := S20000x48) hz3]

set_option maxHeartbeats 1000000 in
/-- At a middle point (neither branch taken): the scratch row at s ends at the block's column sums over s. -/
theorem sound_kernel3_B (c : Dev nD) (E : Set ℕ) (i : grid3.Coords)
    (arg1 : Memref sig .tc .vmem S20000x48 .f32) (harg1 : arg1.IsWhole) (arg2 : Memref sig .tc .vmem S1x48 .f32) (harg2 : arg2.IsWhole)
    (arg3 : Memref sig .tc .vmem S48x2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x48 .f32) (harg6 : arg6.IsWhole)
    (hc0 : ¬cond3_0 i) (hc1 : ¬cond3_1 i)
    (x0 : Vec F S20000x48 .f32) (s : Vec F S1x48 .f32) (K : PUnit → sProp 𝕄) :
    iprop(owns (c : Thread nD τ) arg1 fullShare x0 ∗ owns (c : Thread nD τ) arg6 fullShare s
        ∗ (iprop(owns (c : Thread nD τ) arg1 fullShare x0 ∗ owns (c : Thread nD τ) arg6 fullShare (k3_pay2 s x0)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%fs, %hfs, HS⟩, Hk⟩
  subst hf0; subst hfs
  sl_exec (disch := first | exact hc0 | exact hc1)
  sl_step
  iapply Hk
  isplitl [H0]
  · iexists f0; isplitr; · ipureintro; rfl
    iexact H0
  iexists _; isplitr
  swap; · iexact HS
  ipureintro
  sl_unfold_words
  rw [View.read_writes_eq_canon _ _ _ (cover3_s _ _), View.canon_cons_unit_zero (S := S1x48) hz3]
  simp only [View.readAt_eq_ld, View.ld_unit_zero (S := S20000x48) hz3, View.ld_unit_zero (S := S1x48) hz3]

set_option maxHeartbeats 1000000 in
/-- At the last point (the first branch not taken, the second taken): the scratch row at s ends at the block's
    column sums over s, and the output block, at anything, ends at the result computed of that row and the three
    small operands, whose buffers are left as they were. -/
theorem sound_kernel3_C (c : Dev nD) (E : Set ℕ) (i : grid3.Coords)
    (arg1 : Memref sig .tc .vmem S20000x48 .f32) (harg1 : arg1.IsWhole) (arg2 : Memref sig .tc .vmem S1x48 .f32) (harg2 : arg2.IsWhole)
    (arg3 : Memref sig .tc .vmem S48x2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x48 .f32) (harg6 : arg6.IsWhole)
    (hc0 : ¬cond3_0 i) (hc1 : cond3_1 i)
    (x0 : Vec F S20000x48 .f32) (x1 : Vec F S1x48 .f32) (x2 : Vec F S48x2 .f32) (x3 : Vec F S1x2 .f32) (s : Vec F S1x48 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k3_pay3 (k3_pay2 s x0) x1 x2 x3)
            ∗ owns (c : Thread nD τ) arg6 fullShare (k3_pay2 s x0)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover3_o _ _), View.canon_cons_unit_zero (S := S1x2) hz3,
      View.readCov_unit_zero (S := S1x48) _ hz3]
    simp only [View.readAt_eq_ld, View.ld_unit_zero (S := S20000x48) hz3, View.ld_unit_zero (S := S1x48) hz3,
      View.ld_unit_zero (S := S48x2) hz3, View.ld_unit_zero (S := S1x2) hz3]
  iexists _; isplitr
  swap; · iexact HS
  ipureintro
  sl_unfold_words
  rw [View.read_writes_eq_canon _ _ _ (cover3_s _ _), View.canon_cons_unit_zero (S := S1x48) hz3]
  simp only [View.readAt_eq_ld, View.ld_unit_zero (S := S20000x48) hz3, View.ld_unit_zero (S := S1x48) hz3]

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point. The inputs' buffers hold their blocks. At the first point the class's invariant lends the
    scratch row at some contents and the body leaves it at the first running sum; at a later point the invariant
    holds the row at the running sum of the point before and the body leaves it at this point's; the promise to
    take the row back is carried along unchanged. Away from the last point the output's buffer is handed back as
    found (idle and not written back there); at the last point the body stores the result over the whole block.
    What the core owes passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [PhiS3_castSucc]
  by_cases h0 : t.val = 0
  · have h4 : t.val ≠ 4 := by omega
    rw [Dat.leavesExact_idle (dat3 V c) 4 t (idleAt3_4 t h4) (noFlush3_4 t h4)]
    rw [PhiS3_zero V c _ _ h0, acc3_first V c t h0]
    iintro ⟨HΦ, Ho, ⟨%d0, H0⟩, ⟨%d1, H1⟩, ⟨%d2, H2⟩, ⟨%d3, H3⟩, ⟨%d4, H4⟩⟩
    ihave ⟨HS, Hw⟩ := (PhiA3_split (F := F) c) $$ HΦ
    iapply (sound_kernel3_A c Set.univ _ _ _ _ _ _ _ _ _ _ _ _ _ ((hcond3_0 t).mpr h0) (fun h => h4 ((hcond3_1 t).mp h)) (iblk3 V c 0 t) _)
    isplitl [H0]; · iexact H0
    isplitl [HS]; · iexact HS
    iintro ⟨H0, HS⟩
    isplitl [HS Hw]
    · isplitl [HS]; · iexact HS
      iexact Hw
    isplitl [Ho]; · iexact Ho
    isplitl [H0]; · iexact H0
    isplitl [H1]; · iexact H1
    isplitl [H2]; · iexact H2
    isplitl [H3]; · iexact H3
    iexists _; iexact H4
  · by_cases h4 : t.val = 4
    · rw [show (dat3 V c).leavesExact 4 t = owns (c : Thread nD τ) (st3_4 t) fullShare ((dat3 V c).after 4 t) from by
        unfold Dat.leavesExact; rw [liveAt3_4 t h4], after3_4]
      unfold out3_4
      rw [PhiS3_pos V c _ _ h0, acc3_later V c t h0]
      iintro ⟨⟨HS, Hw⟩, Ho, ⟨%d0, H0⟩, ⟨%d1, H1⟩, ⟨%d2, H2⟩, ⟨%d3, H3⟩, ⟨%d4, H4⟩⟩
      iapply (sound_kernel3_C c Set.univ _ _ _ _ _ _ _ _ _ _ _ _ _ (fun h => h0 ((hcond3_0 t).mp h)) ((hcond3_1 t).mpr h4)
        (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexact H4
    · rw [Dat.leavesExact_idle (dat3 V c) 4 t (idleAt3_4 t h4) (noFlush3_4 t h4)]
      rw [PhiS3_pos V c _ _ h0, acc3_later V c t h0]
      iintro ⟨⟨HS, Hw⟩, Ho, ⟨%d0, H0⟩, ⟨%d1, H1⟩, ⟨%d2, H2⟩, ⟨%d3, H3⟩, ⟨%d4, H4⟩⟩
      iapply (sound_kernel3_B c Set.univ _ _ _ _ _ _ _ _ _ _ _ _ _ (fun h => h0 ((hcond3_0 t).mp h)) (fun h => h4 ((hcond3_1 t).mp h))
        (iblk3 V c 0 t) _ _)
      isplitl [H0]; · iexact H0
      isplitl [HS]; · iexact HS
      iintro ⟨H0, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexists _; iexact H4

/-- After the last point the scratch row is given up and the class's invariant comes back. -/
theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 5 := N_3; omega)]
  iintro ⟨HS, Hw⟩
  iapply Hw
  iexists _; iexact HS

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.Hand

end
-- ==== Proof.Run.lean ====
/-
  The run of the whole program: nine segments in order — three stretches of host operations (the edge lists, the degree
  normalisation, the per-edge weights), the first dense layer, the first aggregation on the host, the bias and
  rectifier, the second dense layer, the second aggregation on the host, and the pooling with the last linear map.
  Between two segments the core holds every unscoped buffer at a named valuation: the launch memory, then after a host
  stretch what the stretch's operations compute from the valuation before, and after a region the valuation before
  with the region's arrays at what its pipeline leaves. The run ends with every unscoped buffer at the last of these
  valuations, from which both the frame (no argument array is ever written) and the result's value are read.
-/
import proofs.«129971_j27144193311514_1_alg».proof.Proof.Reg0
import proofs.«129971_j27144193311514_1_alg».proof.Proof.Reg1
import proofs.«129971_j27144193311514_1_alg».proof.Proof.Reg2
import proofs.«129971_j27144193311514_1_alg».proof.Proof.Reg3
import proofs.«129971_j27144193311514_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_keep (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_keep (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- At region 0's exit: its arrays at what the pipeline leaves (an input as entered, the output with the write-backs
    folded in), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- An input window's array is left as the region found it. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_keep (c : Dev nD) (r : Ref sig .tc) (h : r ∉ hostOps1_W) : W5 m ρ c (Proc.devRef .tc r) = W4 m ρ c (Proc.devRef .tc r) :=
  StableHlo.after_of_writes_sub hostOps1 _ hostOps1_writes h

/-- At region 1's exit: its arrays at what the pipeline leaves (an input as entered, the output with the write-backs
    folded in), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- An input window's array is left as the region found it. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (an input as entered, the output with the write-backs
    folded in), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- An input window's array is left as the region found it. -/
theorem W7_in (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
theorem W8_keep (c : Dev nD) (r : Ref sig .tc) (h : r ∉ hostOps3_W) : W8 m ρ c (Proc.devRef .tc r) = W7 m ρ c (Proc.devRef .tc r) :=
  StableHlo.after_of_writes_sub hostOps3 _ hostOps3_writes h

/-- At region 3's exit: its arrays at what the pipeline leaves (an input as entered, the output with the write-backs
    folded in), every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- An input window's array is left as the region found it. -/
theorem W9_in (c : Dev nD) (w : Fin cfg3.W) (hw : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hw _).trans (A_eq3 (V8 m ρ) c w))
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ## No segment writes an argument array -/

theorem W9_main_arg0 (c : Dev nD) : W9 m ρ c (Proc.devRef .tc main_arg0) = m ((c : Thread nD τ).loc main_arg0) :=
  (W9_of_ne m ρ c main_arg0 (by decide)).trans <| (W8_keep m ρ c main_arg0 (by decide)).trans <| (W7_of_ne m ρ c main_arg0 (by decide)).trans <| (W6_of_ne m ρ c main_arg0 (by decide)).trans <|
    (W5_keep m ρ c main_arg0 (by decide)).trans <| (W4_in m ρ c 0 rfl).trans <| (W3_keep m ρ c main_arg0 (by decide)).trans <|
    (W2_keep m ρ c main_arg0 (by decide)).trans <| (W1_keep m ρ c main_arg0 (by decide)).trans rfl
theorem W9_main_arg1 (c : Dev nD) : W9 m ρ c (Proc.devRef .tc main_arg1) = m ((c : Thread nD τ).loc main_arg1) :=
  (W9_of_ne m ρ c main_arg1 (by decide)).trans <| (W8_keep m ρ c main_arg1 (by decide)).trans <| (W7_of_ne m ρ c main_arg1 (by decide)).trans <| (W6_of_ne m ρ c main_arg1 (by decide)).trans <|
    (W5_keep m ρ c main_arg1 (by decide)).trans <| (W4_of_ne m ρ c main_arg1 (by decide)).trans <| (W3_keep m ρ c main_arg1 (by decide)).trans <|
    (W2_keep m ρ c main_arg1 (by decide)).trans <| (W1_keep m ρ c main_arg1 (by decide)).trans rfl
theorem W9_main_arg2 (c : Dev nD) : W9 m ρ c (Proc.devRef .tc main_arg2) = m ((c : Thread nD τ).loc main_arg2) :=
  (W9_of_ne m ρ c main_arg2 (by decide)).trans <| (W8_keep m ρ c main_arg2 (by decide)).trans <| (W7_of_ne m ρ c main_arg2 (by decide)).trans <| (W6_of_ne m ρ c main_arg2 (by decide)).trans <|
    (W5_keep m ρ c main_arg2 (by decide)).trans <| (W4_in m ρ c 1 rfl).trans <| (W3_keep m ρ c main_arg2 (by decide)).trans <|
    (W2_keep m ρ c main_arg2 (by decide)).trans <| (W1_keep m ρ c main_arg2 (by decide)).trans rfl
theorem W9_main_arg3 (c : Dev nD) : W9 m ρ c (Proc.devRef .tc main_arg3) = m ((c : Thread nD τ).loc main_arg3) :=
  (W9_of_ne m ρ c main_arg3 (by decide)).trans <| (W8_keep m ρ c main_arg3 (by decide)).trans <| (W7_of_ne m ρ c main_arg3 (by decide)).trans <| (W6_of_ne m ρ c main_arg3 (by decide)).trans <|
    (W5_keep m ρ c main_arg3 (by decide)).trans <| (W4_of_ne m ρ c main_arg3 (by decide)).trans <| (W3_keep m ρ c main_arg3 (by decide)).trans <|
    (W2_keep m ρ c main_arg3 (by decide)).trans <| (W1_keep m ρ c main_arg3 (by decide)).trans rfl
theorem W9_main_arg4 (c : Dev nD) : W9 m ρ c (Proc.devRef .tc main_arg4) = m ((c : Thread nD τ).loc main_arg4) :=
  (W9_of_ne m ρ c main_arg4 (by decide)).trans <| (W8_keep m ρ c main_arg4 (by decide)).trans <| (W7_in m ρ c 1 rfl).trans <| (W6_of_ne m ρ c main_arg4 (by decide)).trans <|
    (W5_keep m ρ c main_arg4 (by decide)).trans <| (W4_of_ne m ρ c main_arg4 (by decide)).trans <| (W3_keep m ρ c main_arg4 (by decide)).trans <|
    (W2_keep m ρ c main_arg4 (by decide)).trans <| (W1_keep m ρ c main_arg4 (by decide)).trans rfl
theorem W9_main_arg5 (c : Dev nD) : W9 m ρ c (Proc.devRef .tc main_arg5) = m ((c : Thread nD τ).loc main_arg5) :=
  (W9_of_ne m ρ c main_arg5 (by decide)).trans <| (W8_keep m ρ c main_arg5 (by decide)).trans <| (W7_of_ne m ρ c main_arg5 (by decide)).trans <| (W6_of_ne m ρ c main_arg5 (by decide)).trans <|
    (W5_keep m ρ c main_arg5 (by decide)).trans <| (W4_of_ne m ρ c main_arg5 (by decide)).trans <| (W3_keep m ρ c main_arg5 (by decide)).trans <|
    (W2_keep m ρ c main_arg5 (by decide)).trans <| (W1_keep m ρ c main_arg5 (by decide)).trans rfl
theorem W9_main_arg6 (c : Dev nD) : W9 m ρ c (Proc.devRef .tc main_arg6) = m ((c : Thread nD τ).loc main_arg6) :=
  (W9_in m ρ c 2 rfl).trans <| (W8_keep m ρ c main_arg6 (by decide)).trans <| (W7_of_ne m ρ c main_arg6 (by decide)).trans <| (W6_of_ne m ρ c main_arg6 (by decide)).trans <|
    (W5_keep m ρ c main_arg6 (by decide)).trans <| (W4_of_ne m ρ c main_arg6 (by decide)).trans <| (W3_keep m ρ c main_arg6 (by decide)).trans <|
    (W2_keep m ρ c main_arg6 (by decide)).trans <| (W1_keep m ρ c main_arg6 (by decide)).trans rfl
theorem W9_main_arg7 (c : Dev nD) : W9 m ρ c (Proc.devRef .tc main_arg7) = m ((c : Thread nD τ).loc main_arg7) :=
  (W9_of_ne m ρ c main_arg7 (by decide)).trans <| (W8_keep m ρ c main_arg7 (by decide)).trans <| (W7_of_ne m ρ c main_arg7 (by decide)).trans <| (W6_of_ne m ρ c main_arg7 (by decide)).trans <|
    (W5_keep m ρ c main_arg7 (by decide)).trans <| (W4_of_ne m ρ c main_arg7 (by decide)).trans <| (W3_keep m ρ c main_arg7 (by decide)).trans <|
    (W2_keep m ρ c main_arg7 (by decide)).trans <| (W1_keep m ρ c main_arg7 (by decide)).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation, the generator register. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment: entered with every unscoped buffer at the contents before it, left with them at the
    contents after it; its arrays are split out of the unscoped buffers at entry and put back at exit; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V3 m ρ) c).Φ 0 from rfl]
    iintro ⟨Hp, -, Hr⟩
    iapply (hin0 (V3 m ρ) c)
    unfold Pipeline.ΦA
    isplitl [Hr]; · iexact Hr
    iexact Hp
  hout c := by
    rw [Pipeline.ownSems0_none, show (pdats m ρ 0 c).Φ (Fin.last _) = (dat0 (V3 m ρ) c).Φ (Fin.last cfg0.N) from rfl]
    have hgive := hout0 (V3 m ρ) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers at entry and put back at exit; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V5 m ρ) c).Φ 0 from rfl]
    iintro ⟨Hp, -, Hr⟩
    iapply (hin1 (V5 m ρ) c)
    unfold Pipeline.ΦA
    isplitl [Hr]; · iexact Hr
    iexact Hp
  hout c := by
    rw [Pipeline.ownSems0_none, show (pdats m ρ 1 c).Φ (Fin.last _) = (dat1 (V5 m ρ) c).Φ (Fin.last cfg1.N) from rfl]
    have hgive := hout1 (V5 m ρ) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it; its arrays are split out of the unscoped buffers at entry and put back at exit; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V6 m ρ) c).Φ 0 from rfl]
    iintro ⟨Hp, -, Hr⟩
    iapply (hin2 (V6 m ρ) c)
    unfold Pipeline.ΦA
    isplitl [Hr]; · iexact Hr
    iexact Hp
  hout c := by
    rw [Pipeline.ownSems0_none, show (pdats m ρ 2 c).Φ (Fin.last _) = (dat2 (V6 m ρ) c).Φ (Fin.last cfg2.N) from rfl]
    have hgive := hout2 (V6 m ρ) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at the
    contents after it; its arrays are split out of the unscoped buffers at entry and put back at exit; the generator
    register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V8 m ρ) c).Φ 0 from rfl]
    iintro ⟨Hp, -, Hr⟩
    iapply (hin3 (V8 m ρ) c)
    unfold Pipeline.ΦA
    isplitl [Hr]; · iexact Hr
    iexact Hp
  hout c := by
    rw [Pipeline.ownSems0_none, show (pdats m ρ 3 c).Φ (Fin.last _) = (dat3 (V8 m ρ) c).Φ (Fin.last cfg3.N) from rfl]
    have hgive := hout3 (V8 m ρ) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ) ]

set_option backward.isDefEq.respectTransparency.types false in
/-- THE RUN. From any memory with zero counters every weakly fair execution of the program terminates, nothing
    faulting, and every final state holds each unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_main m ρ)

/-- THE RESULT: the output array ends at what region 3's pipeline leaves in it, and every argument as launched. -/
theorem run_value : θ_run defs (onTc (τ := τ) (main (F := F))) ⟨m, fun _ => 0, ρ⟩ (fun r => ∀ c : Dev nD,
      r.2.mem ((c.tc : Thread nD τ).loc main_v64) = (dat3 (V8 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v64 (by decide))).trans (W9_arr m ρ c 4),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_main m ρ)

end Cert.KernelIdeal.Hand

end
-- ==== Proof.Spec.lean ====
/-
  The mathematics both programs compute, index by index on the extended reals.

  A graph-convolution layer multiplies the node features by a weight matrix and then aggregates over the edges; the
  aggregation (gather the source rows, scale by the edge's normalisation, add into the target rows) is the same chain
  of operations in both programs and is carried as one function of the edge list and the features. What differs is
  where the bias enters at the end. One program adds the bias row b to every one of the 100000 aggregated rows and
  then sums the rows; the other sums the rows first and adds 100000·b once. On the extended reals the two agree:
  a finite sum of (a r + b) is the sum of the a r plus the sum of 100000 copies of b, addition being commutative and
  associative there, and 100000 copies of b add up to 100000·b for a real b as for either infinity.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SNx48 : Shape := ⟨2, ![100000, 48]⟩
abbrev S48x48 : Shape := ⟨2, ![48, 48]⟩
abbrev S1x48 : Shape := ⟨2, ![1, 48]⟩
abbrev S48x2 : Shape := ⟨2, ![48, 2]⟩
abbrev S1x2 : Shape := ⟨2, ![1, 2]⟩

/-- Entry (r, h) of a 100000×48 matrix times a 48×48 matrix. -/
def mmE (X : SNx48.Idx → EReal) (W : S48x48.Idx → EReal) (r : Fin 100000) (h : Fin 48) : EReal :=
  ∑ l : Fin 48, X (ix2 r l) * W (ix2 l h)

/-- The dense layer: the product, as an array. -/
def mmS (X : SNx48.Idx → EReal) (W : S48x48.Idx → EReal) : SNx48.Idx → EReal := fun i => mmE X W (i 0) (i 1)

/-- The leaky rectifier with slope 0.01 (the float nearest to it): y where y ≥ 0, slope·y elsewhere. -/
def leaky (y : EReal) : EReal :=
  Scalar.select (Ideal.cmp .oge y (Ideal.ofBits .f32 0x00000000#32)) y (Ideal.ofBits .f32 0x3C23D70A#32 * y)

/-- Bias row added to every row, then the rectifier. -/
def actS (A : SNx48.Idx → EReal) (b : S1x48.Idx → EReal) : SNx48.Idx → EReal :=
  fun i => leaky (A i + b (ix2 (0 : Fin 1) (i 1)))

/-- Column l of the rows with the bias added, summed over the 100000 rows. -/
def colSum (A : SNx48.Idx → EReal) (b : S1x48.Idx → EReal) (l : Fin 48) : EReal :=
  ∑ r : Fin 100000, (A (ix2 r l) + b (ix2 (0 : Fin 1) l))

/-- The pooled row times the last weight matrix, plus the last bias. -/
def poolS (A : SNx48.Idx → EReal) (b : S1x48.Idx → EReal) (Wl : S48x2.Idx → EReal) (bl : S1x2.Idx → EReal) : S1x2.Idx → EReal :=
  fun j => (∑ l : Fin 48, colSum A b l * Wl (ix2 l (j 1))) + bl (ix2 (0 : Fin 1) (j 1))

/-- A vector of n entries as one row. -/
def rowOf {n : ℕ} (b : (⟨1, ![n]⟩ : Shape).Idx → EReal) : (⟨2, ![1, n]⟩ : Shape).Idx → EReal := fun i => b (ix1 (i 1))

/-- The float 100000.0 is the real 100000. -/
theorem ofBits_1e5 : Ideal.ofBits .f32 0x47C35000#32 = ((100000 : ℝ) : EReal) := by
  simp [Ideal.ofBits, Ideal.ieee, -EReal.coe_mul]; norm_num

/-- n copies of an extended real add up to n times it, n positive. -/
theorem nsmul_eq (n : ℕ) (hn : 0 < n) (b : EReal) : n • b = ((n : ℝ) : EReal) * b := by
  induction b using EReal.rec with
  | bot =>
    rw [EReal.coe_mul_bot_of_pos (by exact_mod_cast hn)]
    obtain ⟨k, rfl⟩ := Nat.exists_eq_succ_of_ne_zero (Nat.pos_iff_ne_zero.mp hn)
    rw [succ_nsmul, EReal.add_bot]
  | coe x =>
    rw [← EReal.coe_mul, ← nsmul_eq_mul]
    induction n with
    | zero => simp
    | succ k ih =>
      rcases Nat.eq_zero_or_pos k with h0 | hk
      · subst h0; simp
      · rw [succ_nsmul, ih hk, succ_nsmul, EReal.coe_add]
  | top =>
    rw [EReal.coe_mul_top_of_pos (by exact_mod_cast hn)]
    obtain ⟨k, rfl⟩ := Nat.exists_eq_succ_of_ne_zero (Nat.pos_iff_ne_zero.mp hn)
    induction k with
    | zero => simp
    | succ j ih => rw [succ_nsmul, ih (Nat.succ_pos _)]; rfl

/-- THE LAW: the rows with the bias added, summed, are the rows summed plus 100000.0 times the bias. -/
theorem sum_add_bias (a : Fin 100000 → EReal) (b : EReal) :
    ∑ r : Fin 100000, (a r + b) = (∑ r : Fin 100000, a r) + Ideal.ofBits .f32 0x47C35000#32 * b := by
  rw [Finset.sum_add_distrib, Finset.sum_const, Finset.card_univ, Fintype.card_fin, ofBits_1e5,
    nsmul_eq 100000 (by norm_num) b]
  norm_num

end Cert.Spec

end
-- ==== Proof.Agg.lean ====
/-
  The aggregation over the edges, as ONE function of the edge list and the node features, and the whole computation
  written with it.

  Both programs build the same two index lists of length 1700000 from the edge list (the 1600000 sources, resp. targets,
  followed by the self loops 0 … 99999), the same degree vector (ones scattered into the targets), the same inverse
  square roots (zero where the degree is zero), the same per-edge weight (the source's value times the target's),
  gather the source rows, scale them by the weights and add them into the target rows. Nothing in the comparison of
  the two programs depends on what this chain computes, only on its being the same function on both sides: it is
  stated once here, and each program's buffers are shown to hold it by unfolding.
-/
import proofs.«129971_j27144193311514_1_alg».proof.KernelIdeal
import proofs.«129971_j27144193311514_1_alg».proof.Proof.Gen.KernelIdeal
import proofs.«129971_j27144193311514_1_alg».proof.Proof.Spec

noncomputable section

namespace Cert.KernelIdeal.Hand

open Idealize.ShloMosaic Cert.KernelIdeal
open Cert.KernelIdeal.Facts₀ Cert.KernelIdeal.Facts

variable {F : FTy → Type} [FloatOps F]

/-- The edge list's row k (0: sources, 1: targets) followed by the self loops. -/
def endsS (ei : (⟨S2x1600000, .i32⟩ : BufTy).Contents (Elt F)) (k : Fin 2) : (⟨S1700000, .i32⟩ : BufTy).Contents (Elt F) :=
  match k with
  | ⟨0, _⟩ => concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0
  | ⟨1, _⟩ => concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A negative index counted from the end: i + 100000 where i < 0, i elsewhere; as a column of start indices. -/
def wrapColS (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The inverse square root of the degrees, zero where the degree is zero. -/
def dinvS (ei : (⟨S2x1600000, .i32⟩ : BufTy).Contents (Elt F)) : (⟨S100000, .f32⟩ : BufTy).Contents (Elt F) :=
  let deg := Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (endsS ei 1))
    (broadcastInDim S1700000 ![] bcast_S_S1700000 (constant (F := F) S_ .f32 0x3F800000#32))
  select (cmpf .ogt deg (broadcastInDim S100000 ![] bcast_S_S100000 (constant (F := F) S_ .f32 0x00000000#32)))
    (Host.rsqrt (maximumf deg (broadcastInDim S100000 ![] bcast_S_S100000 (constant (F := F) S_ .f32 0x2B8CBCCC#32))))
    (broadcastInDim S100000 ![] bcast_S_S100000 (id (constant (F := F) S_ .f32 0x00000000#32)))

/-- The weight of each of the 1700000 edges: the source's inverse square root times the target's. -/
def normS (ei : (⟨S2x1600000, .i32⟩ : BufTy).Contents (Elt F)) : (⟨S1700000, .f32⟩ : BufTy).Contents (Elt F) :=
  mulf (Host.gather gather_S100000_S1700000x1_S1700000_n_0_n_n_0_1_1 (dinvS ei) (wrapColS (endsS ei 0)))
    (Host.gather gather_S100000_S1700000x1_S1700000_n_0_n_n_0_1_1 (dinvS ei) (wrapColS (endsS ei 1)))

/-- THE AGGREGATION: gather the source rows of h, scale each by its edge's weight, add into the target rows. -/
def aggS (ei : (⟨S2x1600000, .i32⟩ : BufTy).Contents (Elt F)) (h : (⟨S100000x48, .f32⟩ : BufTy).Contents (Elt F)) :
    (⟨S100000x48, .f32⟩ : BufTy).Contents (Elt F) :=
  Host.scatterAdd scatter_S100000x48_S1700000x1_S1700000x48_1_0_0_1
    (broadcastInDim S100000x48 ![] bcast_S_S100000x48 (constant (F := F) S_ .f32 0x00000000#32))
    (broadcastInDim S1700000x1 ![0] bcast_S1700000_S1700000x1_0 (endsS ei 1))
    (mulf (Host.gather gather_S100000x48_S1700000x1_S1700000x48_1_0_n_n_0_1_148 h (wrapColS (endsS ei 0)))
      (broadcastInDim S1700000x48 ![0, 1] bcast_S1700000x1_S1700000x48_0_1
        (broadcastInDim S1700000x1 ![0] bcast_S1700000_S1700000x1_0 (normS ei))))

/-- THE WHOLE COMPUTATION at the ideal values: two layers (product, aggregation; bias and rectifier between them), the
    rows summed with the second bias, the last linear map. -/
def G (x : Cert.Spec.SNx48.Idx → EReal) (ei : (⟨S2x1600000, .i32⟩ : BufTy).Contents (Elt Ideal))
    (W1 : Cert.Spec.S48x48.Idx → EReal) (b1 : (⟨1, ![48]⟩ : Shape).Idx → EReal) (W2 : Cert.Spec.S48x48.Idx → EReal)
    (b2 : (⟨1, ![48]⟩ : Shape).Idx → EReal) (Wl : Cert.Spec.S48x2.Idx → EReal) (bl : (⟨1, ![2]⟩ : Shape).Idx → EReal) :
    Cert.Spec.S1x2.Idx → EReal :=
  Cert.Spec.poolS (aggS (F := Ideal) ei (Cert.Spec.mmS (Cert.Spec.actS (aggS (F := Ideal) ei (Cert.Spec.mmS x W1)) (Cert.Spec.rowOf b1)) W2))
    (Cert.Spec.rowOf b2) Wl (Cert.Spec.rowOf bl)

end Cert.KernelIdeal.Hand

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Val0.lean ====
/-
  What region 0 leaves in its output array, at the ideal values: each of the ten row blocks written back is the matching ten thousand rows of the product of the whole 100000×48 array with the 48×48 matrix, and the ten blocks cover the array.

  The body multiplies the block it is shown of the left array by the block it is shown of the right array. At grid
  point t the left block is rows 10000·t … 10000·t + 9999 of the left array and the right block is the whole right
  array, so entry (p, h) of what the body stores is Σ_l X(10000·t + p, l) · W(l, h): entry (10000·t + p, h) of the
  product X·W. The output block at point t sits at the same rows, so what point t writes back is block t of X·W; and
  row r of the output lies in the block of point r / 10000, so the ten blocks leave no index of the array unwritten.
-/
import proofs.«129971_j27144193311514_1_alg».proof.Proof.Reg0
import proofs.«129971_j27144193311514_1_alg».proof.Proof.Spec
import proofs.«129971_j27144193311514_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The offset pair (0, 0) is the zero offset. -/
private theorem zeroOffset : (![0, 0] : Fin 2 → Nat) = fun _ => 0 := funext fun a => by fin_cases a <;> rfl

/-- The body's product at (p, h): row p of the left block against column h of the right block. Narrowing the
    operands to half width changes nothing at the ideal values, and the accumulator starts at zero. -/
theorem k0_pay1_apply (x0 : Vec Ideal S10000x48 .f32) (x1 : Vec Ideal S48x48 .f32) (p : Fin 10000) (h : Fin 48) :
    k0_pay1 (F := Ideal) x0 x1 (ix2 p h) = ∑ l : Fin 48, x0 (ix2 p l) * x1 (ix2 l h) := by
  unfold k0_pay1
  exact DenseLayer.matmul_rows_apply dot_S10000x48_S48x48_S10000x48_1_0_0_1_n_n_wf none x0 x1 p h

/-- Which block each window shows at point t: the left operand's and the output's block t down the rows, the right
    operand's only block; one block across on every window. Decided over the ten points. -/
theorem blockAt0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t, read at (p, l), is the left array at (10000·t + p, l). -/
theorem iblk0_0_apply (c : Dev nD) (t : Fin cfg0.N) (y : S10000x48.Idx) (i : S100000x48.Idx)
    (h0 : (i 0).val = t.val * 10000 + (y 0).val) (h1 : (i 1).val = (y 1).val) :
    (iblk0 V c 0 t : Vec Ideal S10000x48 .f32) y = (V c main_arg0 : S100000x48.Idx → Elt Ideal .f32) i := by
  obtain ⟨e0, e1, -⟩ := blockAt0 t
  show V c main_arg0 (((cfg0.win 0).blk t).view.emb y) = V c main_arg0 i
  congr 1
  funext a; apply Fin.ext
  match a with
  | ⟨0, _⟩ => show win0_0.index t (0 : Fin 2) * 10000 + 1 * (y 0).val = (i 0).val; omega
  | ⟨1, _⟩ => show win0_0.index t (1 : Fin 2) * 48 + 1 * (y 1).val = (i 1).val; omega

/-- The right block at any point is the whole right array. -/
theorem iblk0_1_apply (c : Dev nD) (t : Fin cfg0.N) (y : S48x48.Idx) :
    (iblk0 V c 1 t : Vec Ideal S48x48 .f32) y = (V c main_arg2 : S48x48.Idx → Elt Ideal .f32) y := by
  obtain ⟨-, -, e0, e1, -⟩ := blockAt0 t
  show V c main_arg2 (((cfg0.win 1).blk t).view.emb y) = V c main_arg2 y
  congr 1
  funext a; apply Fin.ext
  match a with
  | ⟨0, _⟩ => show win0_1.index t (0 : Fin 2) * 48 + 1 * (y 0).val = (y 0).val; omega
  | ⟨1, _⟩ => show win0_1.index t (1 : Fin 2) * 48 + 1 * (y 1).val = (y 1).val; omega

/-- The body's product of rows 10000·T … of an array X with the whole of W is those rows of X·W: entry (p, h) of the
    block product is entry (10000·T + p, h) of the product of the arrays. -/
theorem k0_pay1_rows (X : S100000x48.Idx → EReal) (W : S48x48.Idx → EReal)
    (x0 : Vec Ideal S10000x48 .f32) (x1 : Vec Ideal S48x48 .f32) (T : ℕ)
    (hx0 : ∀ (y : S10000x48.Idx) (i : S100000x48.Idx), (i 0).val = T * 10000 + (y 0).val → (i 1).val = (y 1).val → x0 y = X i)
    (hx1 : ∀ y, x1 y = W y)
    (j : S10000x48.Idx) (i : S100000x48.Idx) (h0 : (i 0).val = T * 10000 + (j 0).val) (h1 : (i 1).val = (j 1).val) :
    k0_pay1 (F := Ideal) x0 x1 j = Cert.Spec.mmS X W i := by
  obtain ⟨p, q, rfl⟩ : ∃ (p : Fin 10000) (q : Fin 48), j = ix2 p q := ⟨j 0, j 1, eq_ix2 j⟩
  rw [k0_pay1_apply]
  show _ = ∑ l : Fin 48, X (ix2 (i 0) l) * W (ix2 l (i 1))
  have hq : (i 1 : Fin 48) = q := Fin.ext h1
  refine Finset.sum_congr rfl fun l _ => ?_
  rw [hx0 (ix2 p l) (ix2 (i 0) l) h0 rfl, hx1, hq]

/-- What point t writes back is block t of the product of the two arrays as the region finds them. -/
theorem writes0_2 (c : Dev nD) (t : Fin cfg0.N) :
    (dat0 (F := Ideal) V c).flushed 2 t = ((cfg0.win 2).blk t).view.read (Elt Ideal) (Cert.Spec.mmS (V c main_arg0) (V c main_arg2)) := by
  show (cfg0.win 2).cut (grid0.coords t) ((dat0 (F := Ideal) V c).after 2 t) = _
  rw [after0_2]
  unfold out0_2
  rw [View.canon_unit_zero zeroOffset]
  simp only [View.ld_unit_zero (S := S10000x48) zeroOffset, View.ld_unit_zero (S := S48x48) zeroOffset]
  obtain ⟨-, -, -, -, e0, e1⟩ := blockAt0 t
  funext j
  show k0_pay1 (F := Ideal) (iblk0 V c 0 t) (iblk0 V c 1 t) j = Cert.Spec.mmS (V c main_arg0) (V c main_arg2) (((cfg0.win 2).blk t).view.emb j)
  refine k0_pay1_rows (V c main_arg0) (V c main_arg2) (iblk0 V c 0 t) (iblk0 V c 1 t) t.val (iblk0_0_apply V c t) (iblk0_1_apply V c t) j _ ?_ ?_
  · show win0_2.index t (0 : Fin 2) * 10000 + 1 * (j 0).val = t.val * 10000 + (j 0).val; omega
  · show win0_2.index t (1 : Fin 2) * 48 + 1 * (j 1).val = (j 1).val; omega

/-- An index of the output array is in point t's block iff each coordinate is in the block's range on its axis. -/
theorem inBlock0_2 (t : Fin cfg0.N) (i : S100000x48.Idx) :
    i ∈ ((cfg0.win 2).blk t).view.set ↔ ∀ a : Fin 2, win0_2.index t a * S10000x48.size a ≤ (i a).val ∧ (i a).val < win0_2.index t a * S10000x48.size a + S10000x48.size a := by
  show i ∈ ((View.whole main_v32).slice (win0_2.rect t)).set ↔ _
  rw [View.set_slice_whole, Rect.mem_set_unit]
  exact Iff.rfl

/-- The ten blocks cover the output array: row r lies in the block of point r / 10000. -/
theorem tiles0_2 (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  have hN : cfg0.N = 10 := by decide
  let t : Fin cfg0.N := ⟨(i 0).val / 10000, by omega⟩
  obtain ⟨-, -, -, -, e0, e1⟩ := blockAt0 t
  have ht : t.val = (i 0).val / 10000 := rfl
  refine ⟨t, flush0_2 t, ?_⟩
  rw [inBlock0_2]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 48 ≤ (i 1).val ∧ (i 1).val < win0_2.index t (1 : Fin 2) * 48 + 48; omega

/-- The array the first dense layer leaves: the product of the two arrays it was handed. -/
theorem final0 (c : Dev nD) : (dat0 (F := Ideal) V c).arrAt 2 cfg0.N = Cert.Spec.mmS (V c main_arg0) (V c main_arg2) :=
  (dat0 (F := Ideal) V c).arrAt_eq_of_cover 2 (Cert.Spec.mmS (V c main_arg0) (V c main_arg2)) (fun t _ => writes0_2 V c t) tiles0_2

end Cert.KernelIdeal.Hand

end
-- ==== Proof.Val1.lean ====
/-
  What region 1 leaves in its output array, at the ideal values: each of the five row blocks written back is the matching twenty thousand rows of the array with the bias row added to every row and the leaky rectifier applied, and the five blocks cover the array.
-/
import proofs.«129971_j27144193311514_1_alg».proof.Proof.Reg1
import proofs.«129971_j27144193311514_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- The zero offsets of a whole-block rectangle. -/
theorem zero_offsets1 : (![0, 0] : Fin 2 → Nat) = fun _ => 0 := funext fun a => by fin_cases a <;> rfl

/-- The body's arithmetic at an entry: the rectifier of the entry plus the bias of its column. -/
theorem pay1_apply (x0 : Vec Ideal S20000x48 .f32) (x1 : Vec Ideal S1x48 .f32) (p : Fin 20000) (q : Fin 48) :
    k1_pay1 (F := Ideal) x0 x1 (ix2 p q) = Cert.Spec.leaky (x0 (ix2 p q) + x1 (ix2 (0 : Fin 1) q)) := by
  have hb : broadcastTo S20000x48 (shapeCast S1x48 x1 shapeCasts_S1x48_S1x48) broadcasts_S1x48_S20000x48 (ix2 p q)
      = x1 (ix2 (0 : Fin 1) q) := by
    rw [broadcastTo_1b_ab_apply, shapeCast_self]
  unfold k1_pay1 Cert.Spec.leaky
  rw [← hb]
  rw [shapeCast_self]
  rfl

/-- The body's arithmetic on a block whose entries are entries of a whole array A and whose bias row is the row b:
    at a block entry sitting at array index i, the specification's value at i. -/
theorem pay1_at (x0 : Vec Ideal S20000x48 .f32) (x1 : Vec Ideal S1x48 .f32)
    (A : Cert.Spec.SNx48.Idx → EReal) (b : Cert.Spec.S1x48.Idx → EReal)
    (j : S20000x48.Idx) (i : Cert.Spec.SNx48.Idx) (h0 : x0 j = A i)
    (h1 : ∀ q : Fin 48, x1 (ix2 (0 : Fin 1) q) = b (ix2 (0 : Fin 1) q)) (hc : (i 1).val = (j 1).val) :
    k1_pay1 (F := Ideal) x0 x1 j = Cert.Spec.actS A b i := by
  obtain ⟨p, q, rfl⟩ : ∃ (p : Fin 20000) (q : Fin 48), j = ix2 p q := ⟨j 0, j 1, eq_ix2 j⟩
  rw [pay1_apply, h0, h1]
  unfold Cert.Spec.actS
  have e : i 1 = q := Fin.ext hc
  rw [e]

/-- The windows' index maps over the five points: the input's row block moves with the output's, which is block t; the
    bias row is always the one row; nothing moves along the columns. -/
theorem blocks_at1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the specification's array. -/
theorem flushed1_eq (c : Dev nD) (t : Fin cfg1.N) :
    (dat1 (F := Ideal) V c).flushed 2 t
      = ((cfg1.win 2).blk t).view.read (Elt Ideal) (Cert.Spec.actS (V c main_v45) (V c main_v46)) := by
  show (cfg1.win 2).cut (grid1.coords t) ((dat1 V c).after 2 t) = _
  rw [after1_2]
  unfold out1_2
  rw [View.canon_unit_zero zero_offsets1]
  simp only [View.ld_unit_zero (S := S20000x48) zero_offsets1, View.ld_unit_zero (S := S1x48) zero_offsets1]
  obtain ⟨e0, e1, e2, e3, e4, e5⟩ := blocks_at1 t
  funext j
  show k1_pay1 (F := Ideal) (iblk1 V c 0 t) (iblk1 V c 1 t) j
    = Cert.Spec.actS (V c main_v45) (V c main_v46) (((cfg1.win 2).blk t).view.emb j)
  refine pay1_at _ _ _ _ j _ ?_ ?_ ?_
  · show V c main_v45 (((cfg1.win 0).blk t).view.emb j) = V c main_v45 (((cfg1.win 2).blk t).view.emb j)
    refine congrArg (V c main_v45 : S100000x48.Idx → EReal) (funext fun a => Fin.ext ?_)
    match a with
    | ⟨0, _⟩ =>
      show win1_0.index t (0 : Fin 2) * 20000 + 1 * (j 0).val = win1_2.index t (0 : Fin 2) * 20000 + 1 * (j 0).val
      omega
    | ⟨1, _⟩ =>
      show win1_0.index t (1 : Fin 2) * 48 + 1 * (j 1).val = win1_2.index t (1 : Fin 2) * 48 + 1 * (j 1).val
      omega
  · intro q
    show V c main_v46 (((cfg1.win 1).blk t).view.emb (ix2 (0 : Fin 1) q)) = V c main_v46 (ix2 (0 : Fin 1) q)
    refine congrArg (V c main_v46 : S1x48.Idx → EReal) (funext fun a => Fin.ext ?_)
    match a with
    | ⟨0, _⟩ => show win1_1.index t (0 : Fin 2) * 1 + 1 * 0 = 0; omega
    | ⟨1, _⟩ => show win1_1.index t (1 : Fin 2) * 48 + 1 * q.val = q.val; omega
  · show win1_2.index t (1 : Fin 2) * 48 + 1 * (j 1).val = (j 1).val
    omega

/-- An index of the array is in point t's block iff each coordinate is in the block's range on its axis. -/
theorem mem_block1 (t : Fin cfg1.N) (i : S100000x48.Idx) :
    i ∈ ((cfg1.win 2).blk t).view.set ↔ ∀ a : Fin 2, win1_2.index t a * S20000x48.size a ≤ (i a).val
      ∧ (i a).val < win1_2.index t a * S20000x48.size a + S20000x48.size a := by
  show i ∈ ((View.whole main_v47).slice (win1_2.rect t)).set ↔ _
  rw [View.set_slice_whole, Rect.mem_set_unit]
  exact Iff.rfl

/-- The five blocks cover the array: row r lies in block r / 20000. -/
theorem cover1 (i : S100000x48.Idx) :
    ∃ t : Fin cfg1.N, (cfg1.win 2).flush t = true ∧ i ∈ ((cfg1.win 2).blk t).view.set := by
  have hi0 : (i 0).val < 100000 := (i 0).isLt
  have hi1 : (i 1).val < 48 := (i 1).isLt
  have hN : (i 0).val / 20000 < cfg1.N := by rw [show cfg1.N = 5 from N_1]; omega
  refine ⟨⟨(i 0).val / 20000, hN⟩, flush1_2 _, ?_⟩
  obtain ⟨-, -, -, -, e4, e5⟩ := blocks_at1 ⟨(i 0).val / 20000, hN⟩
  have e4' : win1_2.index ⟨(i 0).val / 20000, hN⟩ (0 : Fin 2) = (i 0).val / 20000 := e4
  rw [mem_block1]
  intro a
  match a with
  | ⟨0, _⟩ =>
    show win1_2.index ⟨(i 0).val / 20000, hN⟩ (0 : Fin 2) * 20000 ≤ (i 0).val
      ∧ (i 0).val < win1_2.index ⟨(i 0).val / 20000, hN⟩ (0 : Fin 2) * 20000 + 20000
    omega
  | ⟨1, _⟩ =>
    show win1_2.index ⟨(i 0).val / 20000, hN⟩ (1 : Fin 2) * 48 ≤ (i 1).val
      ∧ (i 1).val < win1_2.index ⟨(i 0).val / 20000, hN⟩ (1 : Fin 2) * 48 + 48
    omega

/-- The array the bias-and-rectifier region leaves: entry by entry, the rectifier of the entry plus the bias of its column. -/
theorem final1 (c : Dev nD) : (dat1 (F := Ideal) V c).arrAt 2 cfg1.N = Cert.Spec.actS (V c main_v45) (V c main_v46) :=
  (dat1 (F := Ideal) V c).arrAt_eq_of_cover 2 (Cert.Spec.actS (V c main_v45) (V c main_v46))
    (fun t _ => flushed1_eq V c t) cover1

end Cert.KernelIdeal.Hand

end
-- ==== Proof.Val2.lean ====
/-
  What region 2 leaves in its output array, at the ideal values: each of the ten row blocks written back is the matching ten thousand rows of the product of the whole 100000×48 array with the 48×48 matrix, and the ten blocks cover the array.

  The body multiplies the block it is shown of the left array by the block it is shown of the right array. At grid
  point t the left block is rows 10000·t … 10000·t + 9999 of the left array and the right block is the whole right
  array, so entry (p, h) of what the body stores is Σ_l X(10000·t + p, l) · W(l, h): entry (10000·t + p, h) of the
  product X·W. The output block at point t sits at the same rows, so what point t writes back is block t of X·W; and
  row r of the output lies in the block of point r / 10000, so the ten blocks leave no index of the array unwritten.
-/
import proofs.«129971_j27144193311514_1_alg».proof.Proof.Reg2
import proofs.«129971_j27144193311514_1_alg».proof.Proof.Spec
import proofs.«129971_j27144193311514_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The offset pair (0, 0) is the zero offset. -/
private theorem zeroOffset : (![0, 0] : Fin 2 → Nat) = fun _ => 0 := funext fun a => by fin_cases a <;> rfl

/-- The body's product at (p, h): row p of the left block against column h of the right block. Narrowing the
    operands to half width changes nothing at the ideal values, and the accumulator starts at zero. -/
theorem k2_pay1_apply (x0 : Vec Ideal S10000x48 .f32) (x1 : Vec Ideal S48x48 .f32) (p : Fin 10000) (h : Fin 48) :
    k2_pay1 (F := Ideal) x0 x1 (ix2 p h) = ∑ l : Fin 48, x0 (ix2 p l) * x1 (ix2 l h) := by
  unfold k2_pay1
  rw [shapeCast_self]
  exact DenseLayer.matmul_rows_apply dot_S10000x48_S48x48_S10000x48_1_0_0_1_n_n_wf none x0 x1 p h

/-- Which block each window shows at point t: the left operand's and the output's block t down the rows, the right
    operand's only block; one block across on every window. Decided over the ten points. -/
theorem blockAt2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block at point t, read at (p, l), is the left array at (10000·t + p, l). -/
theorem iblk2_0_apply (c : Dev nD) (t : Fin cfg2.N) (y : S10000x48.Idx) (i : S100000x48.Idx)
    (h0 : (i 0).val = t.val * 10000 + (y 0).val) (h1 : (i 1).val = (y 1).val) :
    (iblk2 V c 0 t : Vec Ideal S10000x48 .f32) y = (V c main_v47 : S100000x48.Idx → Elt Ideal .f32) i := by
  obtain ⟨e0, e1, -⟩ := blockAt2 t
  show V c main_v47 (((cfg2.win 0).blk t).view.emb y) = V c main_v47 i
  congr 1
  funext a; apply Fin.ext
  match a with
  | ⟨0, _⟩ => show win2_0.index t (0 : Fin 2) * 10000 + 1 * (y 0).val = (i 0).val; omega
  | ⟨1, _⟩ => show win2_0.index t (1 : Fin 2) * 48 + 1 * (y 1).val = (i 1).val; omega

/-- The right block at any point is the whole right array. -/
theorem iblk2_1_apply (c : Dev nD) (t : Fin cfg2.N) (y : S48x48.Idx) :
    (iblk2 V c 1 t : Vec Ideal S48x48 .f32) y = (V c main_arg4 : S48x48.Idx → Elt Ideal .f32) y := by
  obtain ⟨-, -, e0, e1, -⟩ := blockAt2 t
  show V c main_arg4 (((cfg2.win 1).blk t).view.emb y) = V c main_arg4 y
  congr 1
  funext a; apply Fin.ext
  match a with
  | ⟨0, _⟩ => show win2_1.index t (0 : Fin 2) * 48 + 1 * (y 0).val = (y 0).val; omega
  | ⟨1, _⟩ => show win2_1.index t (1 : Fin 2) * 48 + 1 * (y 1).val = (y 1).val; omega

/-- The body's product of rows 10000·T … of an array X with the whole of W is those rows of X·W: entry (p, h) of the
    block product is entry (10000·T + p, h) of the product of the arrays. -/
theorem k2_pay1_rows (X : S100000x48.Idx → EReal) (W : S48x48.Idx → EReal)
    (x0 : Vec Ideal S10000x48 .f32) (x1 : Vec Ideal S48x48 .f32) (T : ℕ)
    (hx0 : ∀ (y : S10000x48.Idx) (i : S100000x48.Idx), (i 0).val = T * 10000 + (y 0).val → (i 1).val = (y 1).val → x0 y = X i)
    (hx1 : ∀ y, x1 y = W y)
    (j : S10000x48.Idx) (i : S100000x48.Idx) (h0 : (i 0).val = T * 10000 + (j 0).val) (h1 : (i 1).val = (j 1).val) :
    k2_pay1 (F := Ideal) x0 x1 j = Cert.Spec.mmS X W i := by
  obtain ⟨p, q, rfl⟩ : ∃ (p : Fin 10000) (q : Fin 48), j = ix2 p q := ⟨j 0, j 1, eq_ix2 j⟩
  rw [k2_pay1_apply]
  show _ = ∑ l : Fin 48, X (ix2 (i 0) l) * W (ix2 l (i 1))
  have hq : (i 1 : Fin 48) = q := Fin.ext h1
  refine Finset.sum_congr rfl fun l _ => ?_
  rw [hx0 (ix2 p l) (ix2 (i 0) l) h0 rfl, hx1, hq]

/-- What point t writes back is block t of the product of the two arrays as the region finds them. -/
theorem writes2_2 (c : Dev nD) (t : Fin cfg2.N) :
    (dat2 (F := Ideal) V c).flushed 2 t = ((cfg2.win 2).blk t).view.read (Elt Ideal) (Cert.Spec.mmS (V c main_v47) (V c main_arg4)) := by
  show (cfg2.win 2).cut (grid2.coords t) ((dat2 (F := Ideal) V c).after 2 t) = _
  rw [after2_2]
  unfold out2_2
  rw [View.canon_unit_zero zeroOffset]
  simp only [View.ld_unit_zero (S := S10000x48) zeroOffset, View.ld_unit_zero (S := S48x48) zeroOffset]
  obtain ⟨-, -, -, -, e0, e1⟩ := blockAt2 t
  funext j
  show k2_pay1 (F := Ideal) (iblk2 V c 0 t) (iblk2 V c 1 t) j = Cert.Spec.mmS (V c main_v47) (V c main_arg4) (((cfg2.win 2).blk t).view.emb j)
  refine k2_pay1_rows (V c main_v47) (V c main_arg4) (iblk2 V c 0 t) (iblk2 V c 1 t) t.val (iblk2_0_apply V c t) (iblk2_1_apply V c t) j _ ?_ ?_
  · show win2_2.index t (0 : Fin 2) * 10000 + 1 * (j 0).val = t.val * 10000 + (j 0).val; omega
  · show win2_2.index t (1 : Fin 2) * 48 + 1 * (j 1).val = (j 1).val; omega

/-- An index of the output array is in point t's block iff each coordinate is in the block's range on its axis. -/
theorem inBlock2_2 (t : Fin cfg2.N) (i : S100000x48.Idx) :
    i ∈ ((cfg2.win 2).blk t).view.set ↔ ∀ a : Fin 2, win2_2.index t a * S10000x48.size a ≤ (i a).val ∧ (i a).val < win2_2.index t a * S10000x48.size a + S10000x48.size a := by
  show i ∈ ((View.whole main_v48).slice (win2_2.rect t)).set ↔ _
  rw [View.set_slice_whole, Rect.mem_set_unit]
  exact Iff.rfl

/-- The ten blocks cover the output array: row r lies in the block of point r / 10000. -/
theorem tiles2_2 (i : S100000x48.Idx) :
    ∃ t : Fin cfg2.N, (cfg2.win 2).flush t = true ∧ i ∈ ((cfg2.win 2).blk t).view.set := by
  have hi0 : (i 0).val < 100000 := (i 0).isLt
  have hi1 : (i 1).val < 48 := (i 1).isLt
  have hN : cfg2.N = 10 := by decide
  let t : Fin cfg2.N := ⟨(i 0).val / 10000, by omega⟩
  obtain ⟨-, -, -, -, e0, e1⟩ := blockAt2 t
  have ht : t.val = (i 0).val / 10000 := rfl
  refine ⟨t, flush2_2 t, ?_⟩
  rw [inBlock2_2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 48 ≤ (i 1).val ∧ (i 1).val < win2_2.index t (1 : Fin 2) * 48 + 48; omega

/-- The array the second dense layer leaves: the product of the two arrays it was handed. -/
theorem final2 (c : Dev nD) : (dat2 (F := Ideal) V c).arrAt 2 cfg2.N = Cert.Spec.mmS (V c main_v47) (V c main_arg4) :=
  (dat2 (F := Ideal) V c).arrAt_eq_of_cover 2 (Cert.Spec.mmS (V c main_v47) (V c main_arg4)) (fun t _ => writes2_2 V c t) tiles2_2

end Cert.KernelIdeal.Hand

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.Val3.lean ====
/-
  What region 3 leaves in its output array, at the ideal values. The scratch row's running sum after the last point is, column by column, the sum of the column over all 100000 rows (five blocks of 20000 added one after the other, from zero); the last point adds 100000.0 times the bias row, multiplies by the 48×2 matrix and adds the last bias; the one output block is written back at the last point only and is the whole array. By the law of Spec.lean the row sums plus 100000.0 times the bias are the sums of the rows with the bias added.
-/
import proofs.«129971_j27144193311514_1_alg».proof.Proof.Reg3
import proofs.«129971_j27144193311514_1_alg».proof.Proof.Spec
import proofs.«129971_j27144193311514_1_alg».proof.Proof.LibDenseLayer
import proofs.«129971_j27144193311514_1_alg».proof.Proof.LibBlockSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The three payloads read at an index -/

/-- The index over column l with p put on the dropped first axis is (p, l). -/
theorem lift_col {a b : ℕ} (h : (⟨2, ![a, b]⟩ : Shape).Reduces [0] ⟨1, ![b]⟩) (l : Fin b) (p : Fin a) :
    h.lift (ix1 l) p = ix2 p l := by
  funext ax; apply Fin.ext
  match ax with
  | ⟨0, _⟩ => rfl
  | ⟨1, _⟩ => rfl

/-- A sum over the rows of an [a, b] matrix, read at column l, is the sum of the column's entries. -/
theorem multiReduction_add_col {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (l : Fin b) :
    multiReduction .add [0] ⟨1, ![b]⟩ src acc h hφ hacc (ix1 l) = ∑ p : Fin a, src (ix2 p l) := by
  refine (Ideal.multiReduction_add_single src acc h hφ hacc (ix1 l)).trans ?_
  show ∑ p : Fin a, src (h.lift (ix1 l) p) = _
  exact Finset.sum_congr rfl fun p _ => congrArg src (lift_col h l p)

/-- The row the first point starts from is zero. -/
theorem k3_pay1_apply (u : Fin 1) (l : Fin 48) : (k3_pay1 (F := Ideal)) (ix2 u l) = 0 := by
  unfold k3_pay1
  simp only [shapeCast_self]
  show Ideal.ofBits .f32 0x00000000#32 = 0
  exact Ideal.ofBits_zero_f32

/-- A point adds to the row it finds, column by column, the sum of its block's column. -/
theorem pay2_apply (v3 : Vec Ideal S1x48 .f32) (v4 : Vec Ideal S20000x48 .f32) (u : Fin 1) (l : Fin 48) :
    k3_pay2 v3 v4 (ix2 u l) = v3 (ix2 u l) + ∑ p : Fin 20000, v4 (ix2 p l) := by
  unfold k3_pay2
  simp only [shapeCast_self]
  rw [addf_apply, shapeCast_a_1a_apply]
  exact congrArg (v3 (ix2 u l) + ·) (multiReduction_add_col (a := 20000) (b := 48) v4 _ reduces_S20000x48_S48 _ _ l)

/-- The last point's result at (u, h): the row found plus 100000.0 times the bias row, times the matrix, plus the last bias. -/
theorem pay3_apply (v15 v16 : Vec Ideal S1x48 .f32) (v22 : Vec Ideal S48x2 .f32) (v25 : Vec Ideal S1x2 .f32) (u : Fin 1) (h : Fin 2) :
    k3_pay3 v15 v16 v22 v25 (ix2 u h)
      = (∑ l : Fin 48, (v15 (ix2 u l) + Ideal.ofBits .f32 0x47C35000#32 * v16 (ix2 u l)) * v22 (ix2 l h)) + v25 (ix2 u h) := by
  unfold k3_pay3
  simp only [shapeCast_self]
  rw [addf_apply]
  congr 1
  exact DenseLayer.matmul_rows_apply dot_S1x48_S48x2_S1x2_1_0_0_1_n_n_wf none _ _ u h

/-! ## The blocks the windows read -/

variable (V : (c : Dev nD) → (b : Ref sig .tc) → Buf (Elt Ideal) ((c : Thread nD τ).loc b))

/-- The printed index maps, decided over the five points: the row blocks walk down the matrix, every other window
    sits at its one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row p of the row block at point t is row 20000·t + p of the matrix. -/
theorem rows_apply (c : Dev nD) (t : Fin cfg3.N) (x : S20000x48.Idx) (k : S100000x48.Idx)
    (hk0 : (k 0).val = 20000 * t.val + (x 0).val) (hk1 : (k 1).val = (x 1).val) :
    (iblk3 V c 0 t : Vec Ideal S20000x48 .f32) x = (V c main_v61 : S100000x48.Idx → EReal) k := by
  obtain ⟨e0, e1, -⟩ := idx3 t
  unfold iblk3
  rw [View.read_apply]
  show V c main_v61 _ = V c main_v61 _
  congr 1
  funext a
  apply Fin.ext
  match a with
  | ⟨0, _⟩ => show win3_0.index t 0 * 20000 + 1 * (x 0).val = (k 0).val; rw [e0, hk0]; omega
  | ⟨1, _⟩ => show win3_0.index t 1 * 48 + 1 * (x 1).val = (k 1).val; rw [e1, hk1]; omega

/-- The bias row's one block is the bias row. -/
theorem bias_apply (c : Dev nD) (t : Fin cfg3.N) (x : S1x48.Idx) :
    (iblk3 V c 1 t : Vec Ideal S1x48 .f32) x = (V c main_v62 : S1x48.Idx → EReal) x := by
  obtain ⟨-, -, e0, e1, -⟩ := idx3 t
  unfold iblk3
  rw [View.read_apply]
  show V c main_v62 _ = V c main_v62 _
  congr 1
  funext a
  apply Fin.ext
  match a with
  | ⟨0, _⟩ => show win3_1.index t 0 * 1 + 1 * (x 0).val = (x 0).val; rw [e0]; omega
  | ⟨1, _⟩ => show win3_1.index t 1 * 48 + 1 * (x 1).val = (x 1).val; rw [e1]; omega

/-- The last matrix's one block is the matrix. -/
theorem weight_apply (c : Dev nD) (t : Fin cfg3.N) (x : S48x2.Idx) :
    (iblk3 V c 2 t : Vec Ideal S48x2 .f32) x = (V c main_arg6 : S48x2.Idx → EReal) x := by
  obtain ⟨-, -, -, -, e0, e1, -⟩ := idx3 t
  unfold iblk3
  rw [View.read_apply]
  show V c main_arg6 _ = V c main_arg6 _
  congr 1
  funext a
  apply Fin.ext
  match a with
  | ⟨0, _⟩ => show win3_2.index t 0 * 48 + 1 * (x 0).val = (x 0).val; rw [e0]; omega
  | ⟨1, _⟩ => show win3_2.index t 1 * 2 + 1 * (x 1).val = (x 1).val; rw [e1]; omega

/-- The last bias's one block is the last bias. -/
theorem lastBias_apply (c : Dev nD) (t : Fin cfg3.N) (x : S1x2.Idx) :
    (iblk3 V c 3 t : Vec Ideal S1x2 .f32) x = (V c main_v63 : S1x2.Idx → EReal) x := by
  obtain ⟨-, -, -, -, -, -, e0, e1, -⟩ := idx3 t
  unfold iblk3
  rw [View.read_apply]
  show V c main_v63 _ = V c main_v63 _
  congr 1
  funext a
  apply Fin.ext
  match a with
  | ⟨0, _⟩ => show win3_3.index t 0 * 1 + 1 * (x 0).val = (x 0).val; rw [e0]; omega
  | ⟨1, _⟩ => show win3_3.index t 1 * 2 + 1 * (x 1).val = (x 1).val; rw [e1]; omega

/-! ## The running sum -/

/-- The matrix the region sums, as the region finds it. -/
abbrev mat3 (c : Dev nD) : S100000x48.Idx → EReal := V c main_v61

/-- Column l of a matrix as a line of entries, zero past the last row. -/
def colLine (A : S100000x48.Idx → EReal) (l : Fin 48) (r : ℕ) : EReal :=
  if h : r < 100000 then A (ix2 ⟨r, h⟩ l) else 0

/-- Row p of the row block at point t, in column l, is entry 20000·t + p of the column's line. -/
theorem rows_line (c : Dev nD) (t : Fin cfg3.N) (l : Fin 48) (p : Fin 20000) :
    (iblk3 V c 0 t : Vec Ideal S20000x48 .f32) (ix2 p l) = colLine (mat3 V c) l (20000 * t.val + p.val) := by
  have h5 : cfg3.N = 5 := N_3
  have hp : 20000 * t.val + p.val < 100000 := by have := p.isLt; have := t.isLt; omega
  rw [colLine, dif_pos hp]
  exact rows_apply V c t (ix2 p l) (ix2 ⟨20000 * t.val + p.val, hp⟩ l) rfl rfl

/-- After point n the scratch row holds, in column l, the column sums of the first n + 1 row blocks. -/
theorem acc3_apply (c : Dev nD) (u : Fin 1) (l : Fin 48) : ∀ (n : ℕ) (hn : n < cfg3.N),
    acc3 V c n hn (ix2 u l)
      = ∑ t ∈ Finset.range (n + 1), ∑ p : Fin 20000, colLine (mat3 V c) l (20000 * t + p.val)
  | 0, hn => by
    rw [acc3, pay2_apply, k3_pay1_apply, zero_add, Finset.sum_range_one]
    exact Finset.sum_congr rfl fun p _ => rows_line V c ⟨0, hn⟩ l p
  | n + 1, hn => by
    rw [acc3, pay2_apply, acc3_apply c u l n (Nat.lt_of_succ_lt hn), Finset.sum_range_succ _ (n + 1)]
    exact congrArg (HAdd.hAdd (∑ t ∈ Finset.range (n + 1), ∑ p : Fin 20000, colLine (mat3 V c) l (20000 * t + p.val)))
      (Finset.sum_congr rfl fun p _ => rows_line V c ⟨n + 1, hn⟩ l p)

/-- After the last point the scratch row holds, in column l, the sum of the column over all 100000 rows. -/
theorem acc3_last (c : Dev nD) (h4 : 4 < cfg3.N) (u : Fin 1) (l : Fin 48) :
    acc3 V c 4 h4 (ix2 u l) = ∑ r : Fin 100000, mat3 V c (ix2 r l) := by
  refine (acc3_apply V c u l 4 h4).trans ?_
  show ∑ t ∈ Finset.range 5, ∑ p : Fin 20000, colLine (mat3 V c) l (20000 * t + p.val) = _
  rw [BlockSums.sum_blocks (colLine (mat3 V c) l) 20000 5]
  show ∑ n ∈ Finset.range 100000, colLine (mat3 V c) l n = _
  rw [← Fin.sum_univ_eq_sum_range (colLine (mat3 V c) l) 100000]
  refine Finset.sum_congr rfl fun r _ => ?_
  rw [colLine, dif_pos r.isLt]

/-! ## What the last point stores -/

/-- At the last point the stored row is the pooled row of the specification: the column sums plus 100000.0 times the
    bias are the sums of the rows with the bias added. -/
theorem out3_last (c : Dev nD) (t : Fin cfg3.N) (ht : t.val = 4) (u : Fin 1) (h : Fin 2) :
    out3_4 V c t (ix2 u h)
      = Cert.Spec.poolS (V c main_v61) (V c main_v62) (V c main_arg6) (V c main_v63) (ix2 u h) := by
  obtain ⟨tv, tlt⟩ := t
  obtain rfl : tv = 4 := ht
  have hu : u = 0 := Subsingleton.elim _ _
  subst hu
  unfold out3_4
  rw [pay3_apply]
  unfold Cert.Spec.poolS
  refine congrArg₂ (· + ·) (Finset.sum_congr rfl fun l _ => ?_) (lastBias_apply V c _ _)
  rw [acc3_last, bias_apply, weight_apply]
  unfold Cert.Spec.colSum
  rw [Cert.Spec.sum_add_bias]

/-! ## From the one block to the array -/

/-- What the last point stores, read at an index of the block, is the specification at the same index of the array. -/
theorem out3_block (c : Dev nD) (t : Fin cfg3.N) (ht : t.val = 4) (j k : S1x2.Idx) (hk : ∀ a, (k a).val = (j a).val) :
    out3_4 V c t j = Cert.Spec.poolS (V c main_v61) (V c main_v62) (V c main_arg6) (V c main_v63) k := by
  have e : k = j := funext fun a => Fin.ext (hk a)
  subst e
  obtain ⟨u, h, rfl⟩ : ∃ (u : Fin 1) (h : Fin 2), k = ix2 u h := ⟨k 0, k 1, eq_ix2 k⟩
  exact out3_last V c t ht u h

/-- What the last point writes back is the one block of the specification's array. -/
theorem flushed3_eq (c : Dev nD) (t : Fin cfg3.N) (hf : (cfg3.win 4).flush t = true) :
    (dat3 (F := Ideal) V c).flushed 4 t
      = ((cfg3.win 4).blk t).view.read (Elt Ideal)
          (Cert.Spec.poolS (V c main_v61) (V c main_v62) (V c main_arg6) (V c main_v63)) := by
  have h5 : cfg3.N = 5 := N_3
  have ht : t.val = 4 := by have := (flush3_4 t).mp hf; have := t.isLt; omega
  obtain ⟨-, -, -, -, -, -, -, -, e0, e1⟩ := idx3 t
  show (cfg3.win 4).cut (grid3.coords t) ((dat3 V c).after 4 t) = _
  rw [after3_4]
  funext j
  rw [View.read_apply]
  refine out3_block V c t ht _ _ fun a => ?_
  match a with
  | ⟨0, _⟩ => show win3_4.index t 0 * 1 + 1 * (j 0).val = (j 0).val; rw [e0]; omega
  | ⟨1, _⟩ => show win3_4.index t 1 * 2 + 1 * (j 1).val = (j 1).val; rw [e1]; omega

/-- An index of the array is in point t's block iff each coordinate is in the block's range on its axis. -/
theorem mem_blk3 (t : Fin cfg3.N) (i : S1x2.Idx) :
    i ∈ ((cfg3.win 4).blk t).view.set
      ↔ ∀ a : Fin 2, win3_4.index t a * S1x2.size a ≤ (i a).val ∧ (i a).val < win3_4.index t a * S1x2.size a + S1x2.size a := by
  show i ∈ ((View.whole main_v64).slice (win3_4.rect t)).set ↔ _
  rw [View.set_slice_whole, Rect.mem_set_unit]
  exact Iff.rfl

/-- The array the pooling region leaves: the column sums of the rows with the bias row added, times the last matrix,
    plus the last bias. -/
theorem final3 (c : Dev nD) : (dat3 (F := Ideal) V c).arrAt 4 cfg3.N = Cert.Spec.poolS (V c main_v61) (V c main_v62) (V c main_arg6) (V c main_v63) := by
  have h5 : cfg3.N = 5 := N_3
  have h4 : 4 < cfg3.N := by omega
  refine (dat3 (F := Ideal) V c).arrAt_eq_of_cover 4 _ (fun t hf => flushed3_eq V c t hf) fun i => ?_
  refine ⟨⟨4, h4⟩, (flush3_4 ⟨4, h4⟩).mpr rfl, ?_⟩
  obtain ⟨-, -, -, -, -, -, -, -, e0, e1⟩ := idx3 ⟨4, h4⟩
  rw [mem_blk3]
  intro a
  match a with
  | ⟨0, _⟩ =>
    show win3_4.index ⟨4, h4⟩ 0 * 1 ≤ (i 0).val ∧ (i 0).val < win3_4.index ⟨4, h4⟩ 0 * 1 + 1
    have hi : (i 0).val < 1 := (i 0).isLt
    rw [e0]; omega
  | ⟨1, _⟩ =>
    show win3_4.index ⟨4, h4⟩ 1 * 2 ≤ (i 1).val ∧ (i 1).val < win3_4.index ⟨4, h4⟩ 1 * 2 + 2
    have hi : (i 1).val < 2 := (i 1).isLt
    rw [e1]; omega

end Cert.KernelIdeal.Hand

end
-- ==== Proof.HostK.lean ====
/-
  The kernel's program read end to end at the ideal values: what its last region leaves in the result array is the
  whole computation G of the eight argument arrays.
  The chain is read backwards from the result. The pooling region leaves the pooled product of the arrays it was
  handed; of these the aggregated features are what the host stretch before it computes from the second dense layer's
  output and the edge list, the two bias rows are reshapes of argument vectors, and the last matrix is an argument.
  The second dense layer's output is the product of the rectified features with the second weight matrix; the
  rectified features are what the bias-and-rectifier region leaves of the first aggregation and the first bias row;
  the first aggregation is the host stretch's aggregation of the first dense layer's output; and that is the product
  of the first two arguments. Between the segments a buffer no segment writes keeps its contents.
-/
import proofs.«129971_j27144193311514_1_alg».proof.Proof.Run
import proofs.«129971_j27144193311514_1_alg».proof.Proof.Agg
import proofs.«129971_j27144193311514_1_alg».proof.Proof.Val0
import proofs.«129971_j27144193311514_1_alg».proof.Proof.Val1
import proofs.«129971_j27144193311514_1_alg».proof.Proof.Val2
import proofs.«129971_j27144193311514_1_alg».proof.Proof.Val3
import Idealize.ShloMosaic.Lib.StableHlo.Run
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

namespace HostChain

/-- The degree vector: a one added into its target's entry for each of the 1700000 edges. -/
def degS (ei : (⟨S2x1600000, .i32⟩ : BufTy).Contents (Elt Ideal)) : (⟨S100000, .f32⟩ : BufTy).Contents (Elt Ideal) :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (endsS (F := Ideal) ei 1))
    (broadcastInDim S1700000 ![] bcast_S_S1700000 (constant (F := Ideal) S_ .f32 0x3F800000#32))

/-- The per-edge weights from the inverse square roots d and the two index lists. -/
def normOf (d : (⟨S100000, .f32⟩ : BufTy).Contents (Elt Ideal)) (src tgt : (⟨S1700000, .i32⟩ : BufTy).Contents (Elt Ideal)) :
    (⟨S1700000, .f32⟩ : BufTy).Contents (Elt Ideal) :=
  mulf (F := Ideal) (φ := .f32) (Host.gather gather_S100000_S1700000x1_S1700000_n_0_n_n_0_1_1 d (wrapColS src))
    (Host.gather gather_S100000_S1700000x1_S1700000_n_0_n_n_0_1_1 d (wrapColS tgt))

/-- The aggregation from the two index lists, the per-edge weights w and the node features h. -/
def aggOf (src tgt : (⟨S1700000, .i32⟩ : BufTy).Contents (Elt Ideal)) (w : (⟨S1700000, .f32⟩ : BufTy).Contents (Elt Ideal))
    (h : (⟨S100000x48, .f32⟩ : BufTy).Contents (Elt Ideal)) : (⟨S100000x48, .f32⟩ : BufTy).Contents (Elt Ideal) :=
  Host.scatterAdd scatter_S100000x48_S1700000x1_S1700000x48_1_0_0_1
    (broadcastInDim S100000x48 ![] bcast_S_S100000x48 (constant (F := Ideal) S_ .f32 0x00000000#32))
    (broadcastInDim S1700000x1 ![0] bcast_S1700000_S1700000x1_0 tgt)
    (mulf (F := Ideal) (Host.gather gather_S100000x48_S1700000x1_S1700000x48_1_0_n_n_0_1_148 h (wrapColS src))
      (broadcastInDim S1700000x48 ![0, 1] bcast_S1700000x1_S1700000x48_0_1
        (broadcastInDim S1700000x1 ![0] bcast_S1700000_S1700000x1_0 w)))

/-! ## The host stretches, each at an arbitrary valuation -/

section Stretches

variable (V : Valuation τ sig (Elt Ideal))

/-- The first stretch leaves the sources followed by the self loops in the first index list. -/
theorem ops0_v3 :
    (StableHlo.after hostOps0 V (Proc.devRef .tc main_v3) : (⟨S1700000, .i32⟩ : BufTy).Contents (Elt Ideal))
      = endsS (F := Ideal) (V (Proc.devRef .tc main_arg1)) 0 := by
  after_results
  rfl

/-- … and the targets followed by the self loops in the second. -/
theorem ops0_v6 :
    (StableHlo.after hostOps0 V (Proc.devRef .tc main_v6) : (⟨S1700000, .i32⟩ : BufTy).Contents (Elt Ideal))
      = endsS (F := Ideal) (V (Proc.devRef .tc main_arg1)) 1 := by
  after_results
  rfl

/-- Where the degree is positive. -/
theorem ops0_v12 :
    (StableHlo.after hostOps0 V (Proc.devRef .tc main_v12) : (⟨S100000, .i1⟩ : BufTy).Contents (Elt Ideal))
      = cmpf .ogt (degS (V (Proc.devRef .tc main_arg1)))
          (broadcastInDim S100000 ![] bcast_S_S100000 (constant (F := Ideal) S_ .f32 0x00000000#32)) := by
  after_results
  rfl

/-- The inverse square root of the degree kept away from zero. -/
theorem ops0_v15 :
    (StableHlo.after hostOps0 V (Proc.devRef .tc main_v15) : (⟨S100000, .f32⟩ : BufTy).Contents (Elt Ideal))
      = Host.rsqrt (maximumf (degS (V (Proc.devRef .tc main_arg1)))
          (broadcastInDim S100000 ![] bcast_S_S100000 (constant (F := Ideal) S_ .f32 0x2B8CBCCC#32))) := by
  after_results
  rfl

/-- The zero the second stretch spreads over the nodes of degree zero. -/
theorem ops0_cst3 :
    (StableHlo.after hostOps0 V (Proc.devRef .tc main_cst_3) : (⟨S_, .f32⟩ : BufTy).Contents (Elt Ideal))
      = constant (F := Ideal) S_ .f32 0x00000000#32 := by
  after_results

/-- The second stretch selects between the inverse square root and zero. -/
theorem ops01_v16 :
    (StableHlo.after hostOps0_1 V (Proc.devRef .tc main_v16) : (⟨S100000, .f32⟩ : BufTy).Contents (Elt Ideal))
      = select (V (Proc.devRef .tc main_v12)) (V (Proc.devRef .tc main_v15))
          (broadcastInDim S100000 ![] bcast_S_S100000 (id (V (Proc.devRef .tc main_cst_3)))) := by
  after_results
  rfl

/-- The third stretch leaves the per-edge weights of what it finds as inverse square roots and index lists. -/
theorem ops02_v31 :
    (StableHlo.after hostOps0_2 V (Proc.devRef .tc main_v31) : (⟨S1700000, .f32⟩ : BufTy).Contents (Elt Ideal))
      = normOf (V (Proc.devRef .tc main_v16)) (V (Proc.devRef .tc main_v3)) (V (Proc.devRef .tc main_v6)) := by
  after_results_simp
  rfl

/-- The stretch after the first dense layer aggregates that layer's output. -/
theorem ops1_v45 :
    (StableHlo.after hostOps1 V (Proc.devRef .tc main_v45) : (⟨S100000x48, .f32⟩ : BufTy).Contents (Elt Ideal))
      = aggOf (V (Proc.devRef .tc main_v3)) (V (Proc.devRef .tc main_v6)) (V (Proc.devRef .tc main_v31))
          (V (Proc.devRef .tc main_v32)) := by
  after_results_simp
  rfl

/-- … and turns the first bias vector into a row. -/
theorem ops1_v46 :
    (StableHlo.after hostOps1 V (Proc.devRef .tc main_v46) : (⟨S1x48, .f32⟩ : BufTy).Contents (Elt Ideal))
      = Cert.Spec.rowOf (V (Proc.devRef .tc main_arg3)) := by
  after_results
  funext i
  obtain ⟨u, q, rfl⟩ : ∃ (u : Fin 1) (q : Fin 48), i = ix2 u q := ⟨i 0, i 1, eq_ix2 i⟩
  exact shapeCast_a_1a_apply _ _ u q

/-- The stretch after the second dense layer aggregates that layer's output. -/
theorem ops3_v61 :
    (StableHlo.after hostOps3 V (Proc.devRef .tc main_v61) : (⟨S100000x48, .f32⟩ : BufTy).Contents (Elt Ideal))
      = aggOf (V (Proc.devRef .tc main_v3)) (V (Proc.devRef .tc main_v6)) (V (Proc.devRef .tc main_v31))
          (V (Proc.devRef .tc main_v48)) := by
  after_results_simp
  rfl

/-- … and turns the second bias vector and the last bias vector into rows. -/
theorem ops3_v62 :
    (StableHlo.after hostOps3 V (Proc.devRef .tc main_v62) : (⟨S1x48, .f32⟩ : BufTy).Contents (Elt Ideal))
      = Cert.Spec.rowOf (V (Proc.devRef .tc main_arg5)) := by
  after_results
  funext i
  obtain ⟨u, q, rfl⟩ : ∃ (u : Fin 1) (q : Fin 48), i = ix2 u q := ⟨i 0, i 1, eq_ix2 i⟩
  exact shapeCast_a_1a_apply _ _ u q

theorem ops3_v63 :
    (StableHlo.after hostOps3 V (Proc.devRef .tc main_v63) : (⟨S1x2, .f32⟩ : BufTy).Contents (Elt Ideal))
      = Cert.Spec.rowOf (V (Proc.devRef .tc main_arg7)) := by
  after_results
  funext i
  obtain ⟨u, q, rfl⟩ : ∃ (u : Fin 1) (q : Fin 2), i = ix2 u q := ⟨i 0, i 1, eq_ix2 i⟩
  exact shapeCast_a_1a_apply _ _ u q

end Stretches

/-! ## What the buffers hold at the segment boundaries -/

section Boundaries

/-- The edge list in the launch memory of core c. -/
abbrev edges (c : Dev nD) : (⟨S2x1600000, .i32⟩ : BufTy).Contents (Elt Ideal) := m ((c : Thread nD τ).loc main_arg1)

/-- A reference none of the first three stretches writes holds the launch memory's contents after them. -/
theorem W3_launch (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (W3_keep m ρ c r h2).trans <| (W2_keep m ρ c r h1).trans <| (W1_keep m ρ c r h0).trans rfl

/-- A reference that is no array of the first three regions and that the stretch between them does not write holds
    before the last stretch what it held before the first region. -/
theorem W7_from_W3 (c : Dev nD) (r : Ref sig .tc) (a0 : ∀ w, Pipeline.arrRef spec0 w ≠ r) (h1 : r ∉ hostOps1_W)
    (a1 : ∀ w, Pipeline.arrRef spec1 w ≠ r) (a2 : ∀ w, Pipeline.arrRef spec2 w ≠ r) :
    W7 m ρ c (Proc.devRef .tc r) = W3 m ρ c (Proc.devRef .tc r) :=
  (W7_of_ne m ρ c r a2).trans <| (W6_of_ne m ρ c r a1).trans <| (W5_keep m ρ c r h1).trans (W4_of_ne m ρ c r a0)

/-! ### After the first three stretches: the index lists, the inverse square roots, the weights -/

theorem W1_v3 (c : Dev nD) : W1 m ρ c (Proc.devRef .tc main_v3) = endsS (F := Ideal) (edges m c) 0 := ops0_v3 (W0 m ρ c)
theorem W1_v6 (c : Dev nD) : W1 m ρ c (Proc.devRef .tc main_v6) = endsS (F := Ideal) (edges m c) 1 := ops0_v6 (W0 m ρ c)
theorem W1_v12 (c : Dev nD) : W1 m ρ c (Proc.devRef .tc main_v12) = cmpf .ogt (degS (edges m c))
    (broadcastInDim S100000 ![] bcast_S_S100000 (constant (F := Ideal) S_ .f32 0x00000000#32)) := ops0_v12 (W0 m ρ c)
theorem W1_v15 (c : Dev nD) : W1 m ρ c (Proc.devRef .tc main_v15) = Host.rsqrt (maximumf (degS (edges m c))
    (broadcastInDim S100000 ![] bcast_S_S100000 (constant (F := Ideal) S_ .f32 0x2B8CBCCC#32))) := ops0_v15 (W0 m ρ c)
theorem W1_cst3 (c : Dev nD) : W1 m ρ c (Proc.devRef .tc main_cst_3) = constant (F := Ideal) S_ .f32 0x00000000#32 :=
  ops0_cst3 (W0 m ρ c)

theorem W2_v16 (c : Dev nD) : W2 m ρ c (Proc.devRef .tc main_v16) = dinvS (F := Ideal) (edges m c) := by
  show StableHlo.after hostOps0_1 (W1 m ρ c) (Proc.devRef .tc main_v16) = _
  rw [ops01_v16, W1_v12, W1_v15, W1_cst3]
  rfl

theorem W3_v3 (c : Dev nD) : W3 m ρ c (Proc.devRef .tc main_v3) = endsS (F := Ideal) (edges m c) 0 :=
  (W3_keep m ρ c main_v3 (by decide)).trans <| (W2_keep m ρ c main_v3 (by decide)).trans (W1_v3 m ρ c)
theorem W3_v6 (c : Dev nD) : W3 m ρ c (Proc.devRef .tc main_v6) = endsS (F := Ideal) (edges m c) 1 :=
  (W3_keep m ρ c main_v6 (by decide)).trans <| (W2_keep m ρ c main_v6 (by decide)).trans (W1_v6 m ρ c)
theorem W3_v31 (c : Dev nD) : W3 m ρ c (Proc.devRef .tc main_v31) = normS (F := Ideal) (edges m c) := by
  show StableHlo.after hostOps0_2 (W2 m ρ c) (Proc.devRef .tc main_v31) = _
  rw [ops02_v31, W2_v16, W2_keep m ρ c main_v3 (by decide), W2_keep m ρ c main_v6 (by decide), W1_v3, W1_v6]
  rfl

end Boundaries

/-! ### The chain of regions and stretches -/

section Chain

/-- The first dense layer leaves the product of the node features with the first weight matrix. -/
theorem W4_v32 (c : Dev nD) :
    W4 m ρ c (Proc.devRef .tc main_v32)
      = Cert.Spec.mmS (m ((c : Thread nD τ).loc main_arg0)) (m ((c : Thread nD τ).loc main_arg2)) :=
  (W4_arr m ρ c 2).trans <| (final0 (V3 m ρ) c).trans <|
    congrArg₂ Cert.Spec.mmS (W3_launch m ρ c main_arg0 (by decide) (by decide) (by decide))
      (W3_launch m ρ c main_arg2 (by decide) (by decide) (by decide))

theorem W4_v3 (c : Dev nD) : W4 m ρ c (Proc.devRef .tc main_v3) = endsS (F := Ideal) (edges m c) 0 :=
  (W4_of_ne m ρ c main_v3 (by decide)).trans (W3_v3 m ρ c)
theorem W4_v6 (c : Dev nD) : W4 m ρ c (Proc.devRef .tc main_v6) = endsS (F := Ideal) (edges m c) 1 :=
  (W4_of_ne m ρ c main_v6 (by decide)).trans (W3_v6 m ρ c)
theorem W4_v31 (c : Dev nD) : W4 m ρ c (Proc.devRef .tc main_v31) = normS (F := Ideal) (edges m c) :=
  (W4_of_ne m ρ c main_v31 (by decide)).trans (W3_v31 m ρ c)
theorem W4_arg3 (c : Dev nD) : W4 m ρ c (Proc.devRef .tc main_arg3) = m ((c : Thread nD τ).loc main_arg3) :=
  (W4_of_ne m ρ c main_arg3 (by decide)).trans (W3_launch m ρ c main_arg3 (by decide) (by decide) (by decide))

/-- The first aggregation: the stretch after the first dense layer aggregates the product. -/
theorem V5_v45 (c : Dev nD) :
    V5 m ρ c main_v45 = aggS (F := Ideal) (edges m c)
      (Cert.Spec.mmS (m ((c : Thread nD τ).loc main_arg0)) (m ((c : Thread nD τ).loc main_arg2))) := by
  show StableHlo.after hostOps1 (W4 m ρ c) (Proc.devRef .tc main_v45) = _
  rw [ops1_v45, W4_v3, W4_v6, W4_v31, W4_v32]
  rfl

theorem V5_v46 (c : Dev nD) : V5 m ρ c main_v46 = Cert.Spec.rowOf (m ((c : Thread nD τ).loc main_arg3)) := by
  show StableHlo.after hostOps1 (W4 m ρ c) (Proc.devRef .tc main_v46) = _
  rw [ops1_v46, W4_arg3]

/-- The bias-and-rectifier region leaves the rectified first aggregation. -/
theorem V6_v47 (c : Dev nD) :
    V6 m ρ c main_v47 = Cert.Spec.actS (aggS (F := Ideal) (edges m c)
        (Cert.Spec.mmS (m ((c : Thread nD τ).loc main_arg0)) (m ((c : Thread nD τ).loc main_arg2))))
      (Cert.Spec.rowOf (m ((c : Thread nD τ).loc main_arg3))) :=
  (W6_arr m ρ c 2).trans <| (final1 (V5 m ρ) c).trans <| congrArg₂ Cert.Spec.actS (V5_v45 m ρ c) (V5_v46 m ρ c)

theorem V6_arg4 (c : Dev nD) : V6 m ρ c main_arg4 = m ((c : Thread nD τ).loc main_arg4) :=
  (W6_of_ne m ρ c main_arg4 (by decide)).trans <| (W5_keep m ρ c main_arg4 (by decide)).trans <|
    (W4_of_ne m ρ c main_arg4 (by decide)).trans (W3_launch m ρ c main_arg4 (by decide) (by decide) (by decide))

/-- The second dense layer leaves the product of the rectified features with the second weight matrix. -/
theorem W7_v48 (c : Dev nD) :
    W7 m ρ c (Proc.devRef .tc main_v48) = Cert.Spec.mmS (Cert.Spec.actS (aggS (F := Ideal) (edges m c)
        (Cert.Spec.mmS (m ((c : Thread nD τ).loc main_arg0)) (m ((c : Thread nD τ).loc main_arg2))))
      (Cert.Spec.rowOf (m ((c : Thread nD τ).loc main_arg3)))) (m ((c : Thread nD τ).loc main_arg4)) :=
  (W7_arr m ρ c 2).trans <| (final2 (V6 m ρ) c).trans <| congrArg₂ Cert.Spec.mmS (V6_v47 m ρ c) (V6_arg4 m ρ c)

theorem W7_v3 (c : Dev nD) : W7 m ρ c (Proc.devRef .tc main_v3) = endsS (F := Ideal) (edges m c) 0 :=
  (W7_from_W3 m ρ c main_v3 (by decide) (by decide) (by decide) (by decide)).trans (W3_v3 m ρ c)
theorem W7_v6 (c : Dev nD) : W7 m ρ c (Proc.devRef .tc main_v6) = endsS (F := Ideal) (edges m c) 1 :=
  (W7_from_W3 m ρ c main_v6 (by decide) (by decide) (by decide) (by decide)).trans (W3_v6 m ρ c)
theorem W7_v31 (c : Dev nD) : W7 m ρ c (Proc.devRef .tc main_v31) = normS (F := Ideal) (edges m c) :=
  (W7_from_W3 m ρ c main_v31 (by decide) (by decide) (by decide) (by decide)).trans (W3_v31 m ρ c)
/-- An argument array no region before the last touches is the launch memory's before the last stretch. -/
theorem W7_arg (c : Dev nD) (r : Ref sig .tc) (h0 : r ∉ hostOps0_W) (h01 : r ∉ hostOps0_1_W) (h02 : r ∉ hostOps0_2_W)
    (a0 : ∀ w, Pipeline.arrRef spec0 w ≠ r) (h1 : r ∉ hostOps1_W)
    (a1 : ∀ w, Pipeline.arrRef spec1 w ≠ r) (a2 : ∀ w, Pipeline.arrRef spec2 w ≠ r) :
    W7 m ρ c (Proc.devRef .tc r) = m ((c : Thread nD τ).loc r) :=
  (W7_from_W3 m ρ c r a0 h1 a1 a2).trans (W3_launch m ρ c r h0 h01 h02)

/-- The second aggregation: the last stretch aggregates the second dense layer's output. -/
theorem V8_v61 (c : Dev nD) :
    V8 m ρ c main_v61 = aggS (F := Ideal) (edges m c) (Cert.Spec.mmS (Cert.Spec.actS (aggS (F := Ideal) (edges m c)
        (Cert.Spec.mmS (m ((c : Thread nD τ).loc main_arg0)) (m ((c : Thread nD τ).loc main_arg2))))
      (Cert.Spec.rowOf (m ((c : Thread nD τ).loc main_arg3)))) (m ((c : Thread nD τ).loc main_arg4))) := by
  show StableHlo.after hostOps3 (W7 m ρ c) (Proc.devRef .tc main_v61) = _
  rw [ops3_v61, W7_v3, W7_v6, W7_v31, W7_v48]
  rfl

theorem V8_v62 (c : Dev nD) : V8 m ρ c main_v62 = Cert.Spec.rowOf (m ((c : Thread nD τ).loc main_arg5)) := by
  show StableHlo.after hostOps3 (W7 m ρ c) (Proc.devRef .tc main_v62) = _
  rw [ops3_v62, W7_arg m ρ c main_arg5 (by decide) (by decide) (by decide) (by decide) (by decide) (by decide) (by decide)]

theorem V8_v63 (c : Dev nD) : V8 m ρ c main_v63 = Cert.Spec.rowOf (m ((c : Thread nD τ).loc main_arg7)) := by
  show StableHlo.after hostOps3 (W7 m ρ c) (Proc.devRef .tc main_v63) = _
  rw [ops3_v63, W7_arg m ρ c main_arg7 (by decide) (by decide) (by decide) (by decide) (by decide) (by decide) (by decide)]

theorem V8_arg6 (c : Dev nD) : V8 m ρ c main_arg6 = m ((c : Thread nD τ).loc main_arg6) :=
  (W8_keep m ρ c main_arg6 (by decide)).trans
    (W7_arg m ρ c main_arg6 (by decide) (by decide) (by decide) (by decide) (by decide) (by decide) (by decide))

end Chain

end HostChain

open HostChain in
/-- What the last region leaves in the result array is the whole computation of the arguments. -/
theorem kernel_value (c : Dev nD) :
    (dat3 (F := Ideal) (V8 m ρ) c).arrAt 4 cfg3.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [final3 (V8 m ρ) c, V8_v61, V8_v62, V8_v63, V8_arg6]
  rfl

end Cert.KernelIdeal.Hand

end
-- ==== Proof.RefTerm.lean ====
/-
  The reference's result as one term of its eight arguments, and that term read index by index: it is the whole
  computation G.
  The reference multiplies on the host (a product contracting the second axis of the features with the first of the
  weights: at (r, h) the sum over l of X(r, l)·W(l, h)), aggregates with the same chain of gathers and scatters as the
  kernel's program, adds the bias vector laid along every row, applies the rectifier as a select between x and
  0.01·x on x ≥ 0, and after the second layer sums the rows from zero, lays the 48 sums out as one row, multiplies by
  the 48×2 matrix and adds the last bias.
-/
import proofs.«129971_j27144193311514_1_alg».proof.ReferenceIdeal
import proofs.«129971_j27144193311514_1_alg».proof.Proof.Gen.ReferenceIdeal
import proofs.«129971_j27144193311514_1_alg».proof.Proof.Agg
import proofs.«129971_j27144193311514_1_alg».proof.Proof.Spec
import proofs.«129971_j27144193311514_1_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts
open Idealize.ShloMosaic.ValueIdx

/-- The rectifier as the reference spells it: y where y ≥ 0 (against the broadcast scalar 0), the broadcast slope times y
    elsewhere. -/
def rectT (y : (⟨S100000x48, .f32⟩ : BufTy).Contents (Elt Ideal)) : (⟨S100000x48, .f32⟩ : BufTy).Contents (Elt Ideal) :=
  select
    (cmpf (F := Ideal) (φ := .f32) .oge y
      (broadcastInDim S100000x48 ![] bcast_S_S100000x48 (constant (F := Ideal) S_ .f32 0x00000000#32)))
    y
    (mulf (F := Ideal) (φ := .f32)
      (broadcastInDim S100000x48 ![] bcast_S_S100000x48 (id (constant (F := Ideal) S_ .f32 0x3C23D70A#32))) y)

/-- A bias vector laid along a row and that row repeated down the 100000 rows. -/
def biasT (b : (⟨S48, .f32⟩ : BufTy).Contents (Elt Ideal)) : (⟨S100000x48, .f32⟩ : BufTy).Contents (Elt Ideal) :=
  broadcastInDim S100000x48 ![0, 1] bcast_S1x48_S100000x48_0_1 (broadcastInDim S1x48 ![1] bcast_S48_S1x48_1 b)

/-- The host's product of the features with a 48×48 weight matrix. -/
def dotT (h : (⟨S100000x48, .f32⟩ : BufTy).Contents (Elt Ideal)) (W : (⟨S48x48, .f32⟩ : BufTy).Contents (Elt Ideal)) :
    (⟨S100000x48, .f32⟩ : BufTy).Contents (Elt Ideal) :=
  Host.dotGeneral (F := Ideal) (φ₁ := .f32) (φ₂ := .f32) dot_S100000x48_S48x48_S100000x48_1_0_0_1_n_n none h W

/-- One layer up to its bias: the product, the aggregation, the bias added. -/
def layerT (ei : (⟨S2x1600000, .i32⟩ : BufTy).Contents (Elt Ideal)) (h : (⟨S100000x48, .f32⟩ : BufTy).Contents (Elt Ideal))
    (W : (⟨S48x48, .f32⟩ : BufTy).Contents (Elt Ideal)) (b : (⟨S48, .f32⟩ : BufTy).Contents (Elt Ideal)) :
    (⟨S100000x48, .f32⟩ : BufTy).Contents (Elt Ideal) :=
  addf (F := Ideal) (φ := .f32) (Cert.KernelIdeal.Hand.aggS (F := Ideal) ei (dotT h W)) (biasT b)

/-- The reference's result, the composed term of its operations over the eight arguments. -/
def refOut (x : (⟨S100000x48, .f32⟩ : BufTy).Contents (Elt Ideal)) (ei : (⟨S2x1600000, .i32⟩ : BufTy).Contents (Elt Ideal))
    (W1 : (⟨S48x48, .f32⟩ : BufTy).Contents (Elt Ideal)) (b1 : (⟨S48, .f32⟩ : BufTy).Contents (Elt Ideal))
    (W2 : (⟨S48x48, .f32⟩ : BufTy).Contents (Elt Ideal)) (b2 : (⟨S48, .f32⟩ : BufTy).Contents (Elt Ideal))
    (Wl : (⟨S48x2, .f32⟩ : BufTy).Contents (Elt Ideal)) (bl : (⟨S2, .f32⟩ : BufTy).Contents (Elt Ideal)) :
    (⟨S1x2, .f32⟩ : BufTy).Contents (Elt Ideal) :=
  addf (F := Ideal) (φ := .f32)
    (Host.dotGeneral (F := Ideal) (φ₁ := .f32) (φ₂ := .f32) dot_S1x48_S48x2_S1x2_1_0_0_1_n_n none
      (broadcastInDim S1x48 ![1] bcast_S48_S1x48_1
        (Host.reduceAdd (F := Ideal) (φ := .f32) (layerT ei (rectT (layerT ei x W1 b1)) W2 b2)
          (constant (F := Ideal) S_ .f32 0x00000000#32) reducesTo_S100000x48_S48_d0 h_S_))
      Wl)
    (broadcastInDim S1x2 ![1] bcast_S2_S1x2_1 bl)

/-- The host's product read at an index is the dense layer's product: at (r, h) the sum over l of X(r, l)·W(l, h). -/
theorem dotT_eq (h : (⟨S100000x48, .f32⟩ : BufTy).Contents (Elt Ideal)) (W : (⟨S48x48, .f32⟩ : BufTy).Contents (Elt Ideal)) :
    dotT h W = Cert.Spec.mmS h W := by
  funext i
  obtain ⟨p, q, rfl⟩ : ∃ (p : Fin 100000) (q : Fin 48), i = ix2 p q := ⟨i 0, i 1, eq_ix2 i⟩
  exact DenseLayer.dotGeneral_rows_apply dot_S100000x48_S48x48_S100000x48_1_0_0_1_n_n_wf none .single h W p q

/-- The bias laid over the rows reads, at (p, c), the vector's entry c. -/
theorem biasT_apply (b : (⟨S48, .f32⟩ : BufTy).Contents (Elt Ideal)) (p : Fin 100000) (c : Fin 48) :
    biasT b (ix2 p c) = Cert.Spec.rowOf b (ix2 (0 : Fin 1) c) := by
  exact DenseLayer.bias_inDim_apply bcast_S48_S1x48_1 bcast_S1x48_S100000x48_0_1 b p c

/-- The rectifier's select read at an index: y where y ≥ 0, the slope times y elsewhere. -/
theorem rectT_apply (y : (⟨S100000x48, .f32⟩ : BufTy).Contents (Elt Ideal)) (i : S100000x48.Idx) :
    rectT y i = Cert.Spec.leaky (y i) := by
  show Scalar.select (Ideal.cmp .oge (y i) (Ideal.ofBits .f32 0x00000000#32)) (y i) (Ideal.ofBits .f32 0x3C23D70A#32 * y i) = _
  rfl

/-- One layer up to its bias, read at (p, c): the aggregated product there plus the bias's entry c. -/
theorem layerT_apply (ei : (⟨S2x1600000, .i32⟩ : BufTy).Contents (Elt Ideal)) (h : (⟨S100000x48, .f32⟩ : BufTy).Contents (Elt Ideal))
    (W : (⟨S48x48, .f32⟩ : BufTy).Contents (Elt Ideal)) (b : (⟨S48, .f32⟩ : BufTy).Contents (Elt Ideal)) (p : Fin 100000) (c : Fin 48) :
    layerT ei h W b (ix2 p c)
      = Cert.KernelIdeal.Hand.aggS (F := Ideal) ei (Cert.Spec.mmS h W) (ix2 p c) + Cert.Spec.rowOf b (ix2 (0 : Fin 1) c) := by
  unfold layerT
  rw [addf_apply, dotT_eq, biasT_apply]

/-- The first layer with its rectifier is the activation of the aggregated product. -/
theorem act_eq (ei : (⟨S2x1600000, .i32⟩ : BufTy).Contents (Elt Ideal)) (h : (⟨S100000x48, .f32⟩ : BufTy).Contents (Elt Ideal))
    (W : (⟨S48x48, .f32⟩ : BufTy).Contents (Elt Ideal)) (b : (⟨S48, .f32⟩ : BufTy).Contents (Elt Ideal)) :
    rectT (layerT ei h W b)
      = Cert.Spec.actS (Cert.KernelIdeal.Hand.aggS (F := Ideal) ei (Cert.Spec.mmS h W)) (Cert.Spec.rowOf b) := by
  funext i
  obtain ⟨p, q, rfl⟩ : ∃ (p : Fin 100000) (q : Fin 48), i = ix2 p q := ⟨i 0, i 1, eq_ix2 i⟩
  rw [rectT_apply, layerT_apply]
  unfold Cert.Spec.actS
  rfl

/-- The source index over column l with r put on the dropped first axis is (r, l). -/
theorem lift_col (h : S100000x48.Reduces [0] S48) (l : Fin 48) (r : Fin 100000) :
    h.lift (ix1 l) r = ix2 r l := by
  funext ax; apply Fin.ext
  match ax with
  | ⟨0, _⟩ => rfl
  | ⟨1, _⟩ => rfl

/-- The sum of the rows from zero, laid out as one row, read at (u, l): the sum over the rows of column l. -/
theorem pooled_apply (Y : (⟨S100000x48, .f32⟩ : BufTy).Contents (Elt Ideal)) (u : Fin 1) (l : Fin 48) :
    broadcastInDim S1x48 ![1] bcast_S48_S1x48_1
        (Host.reduceAdd (F := Ideal) (φ := .f32) Y (constant (F := Ideal) S_ .f32 0x00000000#32)
          reducesTo_S100000x48_S48_d0 h_S_) (ix2 u l)
      = ∑ r : Fin 100000, Y (ix2 r l) := by
  have hr : S100000x48.Reduces [0] S48 := by decide
  rw [DenseLayer.broadcastInDim_vec_row_apply, hostReduceAdd_apply,
    Ideal.hostReduceAdd_single reducesTo_S100000x48_S48_d0 hr, constant_apply, Ideal.ofBits_zero_f32, zero_add]
  exact Finset.sum_congr rfl fun r _ => congrArg Y (lift_col hr l r)

/-- The last product read at (u, c). -/
theorem dotL_apply (R : (⟨S1x48, .f32⟩ : BufTy).Contents (Elt Ideal)) (Wl : (⟨S48x2, .f32⟩ : BufTy).Contents (Elt Ideal))
    (u : Fin 1) (c : Fin 2) :
    Host.dotGeneral (F := Ideal) (φ₁ := .f32) (φ₂ := .f32) dot_S1x48_S48x2_S1x2_1_0_0_1_n_n none R Wl (ix2 u c)
      = ∑ l : Fin 48, R (ix2 u l) * Wl (ix2 l c) :=
  DenseLayer.dotGeneral_rows_apply dot_S1x48_S48x2_S1x2_1_0_0_1_n_n_wf none .single R Wl u c

/-- The reference's result is the whole computation. -/
theorem refOut_eq (x : (⟨S100000x48, .f32⟩ : BufTy).Contents (Elt Ideal)) (ei : (⟨S2x1600000, .i32⟩ : BufTy).Contents (Elt Ideal))
    (W1 : (⟨S48x48, .f32⟩ : BufTy).Contents (Elt Ideal)) (b1 : (⟨S48, .f32⟩ : BufTy).Contents (Elt Ideal))
    (W2 : (⟨S48x48, .f32⟩ : BufTy).Contents (Elt Ideal)) (b2 : (⟨S48, .f32⟩ : BufTy).Contents (Elt Ideal))
    (Wl : (⟨S48x2, .f32⟩ : BufTy).Contents (Elt Ideal)) (bl : (⟨S2, .f32⟩ : BufTy).Contents (Elt Ideal)) :
    refOut x ei W1 b1 W2 b2 Wl bl = Cert.KernelIdeal.Hand.G x ei W1 b1 W2 b2 Wl bl := by
  funext j
  obtain ⟨u, c, rfl⟩ : ∃ (u : Fin 1) (c : Fin 2), j = ix2 u c := ⟨j 0, j 1, eq_ix2 j⟩
  have hrow : ∀ l : Fin 48,
      broadcastInDim S1x48 ![1] bcast_S48_S1x48_1
          (Host.reduceAdd (F := Ideal) (φ := .f32) (layerT ei (rectT (layerT ei x W1 b1)) W2 b2)
            (constant (F := Ideal) S_ .f32 0x00000000#32) reducesTo_S100000x48_S48_d0 h_S_) (ix2 u l)
        = Cert.Spec.colSum
            (Cert.KernelIdeal.Hand.aggS (F := Ideal) ei
              (Cert.Spec.mmS (Cert.Spec.actS (Cert.KernelIdeal.Hand.aggS (F := Ideal) ei (Cert.Spec.mmS x W1)) (Cert.Spec.rowOf b1)) W2))
            (Cert.Spec.rowOf b2) l := by
    intro l
    rw [pooled_apply]
    unfold Cert.Spec.colSum
    refine Finset.sum_congr rfl fun r _ => ?_
    rw [layerT_apply, act_eq]
  unfold refOut
  rw [addf_apply, DenseLayer.broadcastInDim_vec_row_apply, dotL_apply]
  simp only [hrow]
  rfl

end Cert.ReferenceIdeal.Hand

end
-- ==== Proof.RefRun.lean ====
/-
  The reference's program as one list of host operations, and its run: every weakly fair execution terminates with
  every buffer at what the operations, applied in order to the launch contents, leave in it. No operation writes an
  argument; the result buffer holds the composed term of the arguments.
-/
import proofs.«129971_j27144193311514_1_alg».proof.Proof.RefTerm
import Idealize.ShloMosaic.Lib.StableHlo.Run
import Idealize.ShloMosaic.Lib.Pipeline.Regions

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F]

/-- Two index vectors laid end to end: 1600000 edge ends, then the 100000 self loops. The program spells this as a
    function of the two-entry list of its operands; named, its operands are plain arguments. -/
def cat2 (a : (⟨S1600000, .i32⟩ : BufTy).Contents (Elt F)) (b : (⟨S100000, .i32⟩ : BufTy).Contents (Elt F)) :
    (⟨S1700000, .i32⟩ : BufTy).Contents (Elt F) :=
  concatenate S1700000 0 [⟨S1600000, a⟩, ⟨S100000, b⟩] concatenates_S1600000_S100000_S1700000_d0

/-- The program's operations in order, the outlined functions' operations in place of their calls. An outlined function's
    operation is written over the call's buffers themselves, its function at the types the program's typed references
    carry: at a literal buffer the typed builder's transports are the identity, so this is the same operation. -/
abbrev ops : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 (cat2 : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 (cat2 : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x2B8CBCCC#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v32 ((fun l r => Host.dotGeneral dot_S100000x48_S48x48_S100000x48_1_0_0_1_n_n none l r) : (⟨S100000x48, .f32⟩ : BufTy).Contents (Elt F) → (⟨S48x48, .f32⟩ : BufTy).Contents (Elt F) → (⟨S100000x48, .f32⟩ : BufTy).Contents (Elt F)),
    StableHlo.nullary main_c_7 (constantI S_ 32 0#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x48_S1700000x1_S1700000x48_1_0_n_n_0_1_148 x i) : (⟨S100000x48, .f32⟩ : BufTy).Contents (Elt F) → (⟨S1700000x1, .i32⟩ : BufTy).Contents (Elt F) → (⟨S1700000x48, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x48 ![0, 1] bcast_S1700000x1_S1700000x48_0_1 : (⟨S1700000x1, .f32⟩ : BufTy).Contents (Elt F) → (⟨S1700000x48, .f32⟩ : BufTy).Contents (Elt F)),
    StableHlo.binary main_v39 main_v41 main_v42 (mulf : (⟨S1700000x48, .f32⟩ : BufTy).Contents (Elt F) → (⟨S1700000x48, .f32⟩ : BufTy).Contents (Elt F) → (⟨S1700000x48, .f32⟩ : BufTy).Contents (Elt F)),
    StableHlo.nullary main_cst_9 (constant S_ .f32 0x00000000#32),
    StableHlo.unary main_cst_9 main_v43 (broadcastInDim S100000x48 ![] bcast_S_S100000x48 : (⟨S_, .f32⟩ : BufTy).Contents (Elt F) → (⟨S100000x48, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x48_S1700000x1_S1700000x48_1_0_0_1 x i u) : (⟨S100000x48, .f32⟩ : BufTy).Contents (Elt F) → (⟨S1700000x1, .i32⟩ : BufTy).Contents (Elt F) → (⟨S1700000x48, .f32⟩ : BufTy).Contents (Elt F) → (⟨S100000x48, .f32⟩ : BufTy).Contents (Elt F)),
    StableHlo.unary main_arg3 main_v46 (broadcastInDim S1x48 ![1] bcast_S48_S1x48_1 : (⟨S48, .f32⟩ : BufTy).Contents (Elt F) → (⟨S1x48, .f32⟩ : BufTy).Contents (Elt F)),
    StableHlo.unary main_v46 main_v47 (broadcastInDim S100000x48 ![0, 1] bcast_S1x48_S100000x48_0_1 : (⟨S1x48, .f32⟩ : BufTy).Contents (Elt F) → (⟨S100000x48, .f32⟩ : BufTy).Contents (Elt F)),
    StableHlo.binary main_v45 main_v47 main_v48 (addf : (⟨S100000x48, .f32⟩ : BufTy).Contents (Elt F) → (⟨S100000x48, .f32⟩ : BufTy).Contents (Elt F) → (⟨S100000x48, .f32⟩ : BufTy).Contents (Elt F)),
    StableHlo.nullary main_cst_10 (constant S_ .f32 0x3C23D70A#32),
    StableHlo.nullary main_call1_cst (constant S_ .f32 0x00000000#32),
    StableHlo.unary main_call1_cst main_call1_v0 (broadcastInDim S100000x48 ![] bcast_S_S100000x48 : (⟨S_, .f32⟩ : BufTy).Contents (Elt F) → (⟨S100000x48, .f32⟩ : BufTy).Contents (Elt F)),
    StableHlo.binary main_v48 main_call1_v0 main_call1_v1 (cmpf .oge : (⟨S100000x48, .f32⟩ : BufTy).Contents (Elt F) → (⟨S100000x48, .f32⟩ : BufTy).Contents (Elt F) → (⟨S100000x48, .i1⟩ : BufTy).Contents (Elt F)),
    StableHlo.unary main_cst_10 main_call1_v2 (id : (⟨S_, .f32⟩ : BufTy).Contents (Elt F) → (⟨S_, .f32⟩ : BufTy).Contents (Elt F)),
    StableHlo.unary main_call1_v2 main_call1_v3 (broadcastInDim S100000x48 ![] bcast_S_S100000x48 : (⟨S_, .f32⟩ : BufTy).Contents (Elt F) → (⟨S100000x48, .f32⟩ : BufTy).Contents (Elt F)),
    StableHlo.binary main_call1_v3 main_v48 main_call1_v4 (mulf : (⟨S100000x48, .f32⟩ : BufTy).Contents (Elt F) → (⟨S100000x48, .f32⟩ : BufTy).Contents (Elt F) → (⟨S100000x48, .f32⟩ : BufTy).Contents (Elt F)),
    StableHlo.ternary main_call1_v1 main_v48 main_call1_v4 main_v49 (select : (⟨S100000x48, .i1⟩ : BufTy).Contents (Elt F) → (⟨S100000x48, .f32⟩ : BufTy).Contents (Elt F) → (⟨S100000x48, .f32⟩ : BufTy).Contents (Elt F) → (⟨S100000x48, .f32⟩ : BufTy).Contents (Elt F)),
    StableHlo.nullary main_v50 (iotaInDim S100000 32 0),
    StableHlo.unary main_arg1 main_v51 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v51 main_v52 rfl shapeCasts_S1x1600000_S1600000,
    StableHlo.binary main_v52 main_v50 main_v53 (cat2 : (⟨S1600000, .i32⟩ : BufTy).Contents (Elt F) → (⟨S100000, .i32⟩ : BufTy).Contents (Elt F) → (⟨S1700000, .i32⟩ : BufTy).Contents (Elt F)),
    StableHlo.unary main_arg1 main_v54 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v54 main_v55 rfl shapeCasts_S1x1600000_S1600000,
    StableHlo.binary main_v55 main_v50 main_v56 (cat2 : (⟨S1600000, .i32⟩ : BufTy).Contents (Elt F) → (⟨S100000, .i32⟩ : BufTy).Contents (Elt F) → (⟨S1700000, .i32⟩ : BufTy).Contents (Elt F)),
    StableHlo.nullary main_cst_11 (constant S_ .f32 0x3F800000#32),
    StableHlo.unary main_cst_11 main_v57 (broadcastInDim S1700000 ![] bcast_S_S1700000 : (⟨S_, .f32⟩ : BufTy).Contents (Elt F) → (⟨S1700000, .f32⟩ : BufTy).Contents (Elt F)),
    StableHlo.nullary main_cst_12 (constant S_ .f32 0x00000000#32),
    StableHlo.unary main_cst_12 main_v58 (broadcastInDim S100000 ![] bcast_S_S100000 : (⟨S_, .f32⟩ : BufTy).Contents (Elt F) → (⟨S100000, .f32⟩ : BufTy).Contents (Elt F)),
    StableHlo.unary main_v56 main_v59 (broadcastInDim S1700000x1 ![0] bcast_S1700000_S1700000x1_0 : (⟨S1700000, .i32⟩ : BufTy).Contents (Elt F) → (⟨S1700000x1, .i32⟩ : BufTy).Contents (Elt F)),
    StableHlo.ternary main_v58 main_v59 main_v57 main_v60 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_13 (constant S_ .f32 0x00000000#32),
    StableHlo.unary main_cst_13 main_v61 (broadcastInDim S100000 ![] bcast_S_S100000 : (⟨S_, .f32⟩ : BufTy).Contents (Elt F) → (⟨S100000, .f32⟩ : BufTy).Contents (Elt F)),
    StableHlo.binary main_v60 main_v61 main_v62 (cmpf .ogt : (⟨S100000, .f32⟩ : BufTy).Contents (Elt F) → (⟨S100000, .f32⟩ : BufTy).Contents (Elt F) → (⟨S100000, .i1⟩ : BufTy).Contents (Elt F)),
    StableHlo.nullary main_cst_14 (constant S_ .f32 0x2B8CBCCC#32),
    StableHlo.unary main_cst_14 main_v63 (broadcastInDim S100000 ![] bcast_S_S100000 : (⟨S_, .f32⟩ : BufTy).Contents (Elt F) → (⟨S100000, .f32⟩ : BufTy).Contents (Elt F)),
    StableHlo.binary main_v60 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (Host.rsqrt : (⟨S100000, .f32⟩ : BufTy).Contents (Elt F) → (⟨S100000, .f32⟩ : BufTy).Contents (Elt F)),
    StableHlo.nullary main_cst_15 (constant S_ .f32 0x00000000#32),
    StableHlo.unary main_cst_15 main_call2_v0 (id : (⟨S_, .f32⟩ : BufTy).Contents (Elt F) → (⟨S_, .f32⟩ : BufTy).Contents (Elt F)),
    StableHlo.unary main_call2_v0 main_call2_v1 (broadcastInDim S100000 ![] bcast_S_S100000 : (⟨S_, .f32⟩ : BufTy).Contents (Elt F) → (⟨S100000, .f32⟩ : BufTy).Contents (Elt F)),
    StableHlo.ternary main_v62 main_v65 main_call2_v1 main_v66 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c_16 (constantI S_ 32 0#32),
    StableHlo.unary main_c_16 main_v67 (broadcastInDim S1700000 ![] bcast_S_S1700000 : (⟨S_, .i32⟩ : BufTy).Contents (Elt F) → (⟨S1700000, .i32⟩ : BufTy).Contents (Elt F)),
    StableHlo.binary main_v53 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_17 (constantI S_ 32 100000#32),
    StableHlo.unary main_c_17 main_v69 (broadcastInDim S1700000 ![] bcast_S_S1700000 : (⟨S_, .i32⟩ : BufTy).Contents (Elt F) → (⟨S1700000, .i32⟩ : BufTy).Contents (Elt F)),
    StableHlo.binary main_v53 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v53 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v66 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_18 (constantI S_ 32 0#32),
    StableHlo.unary main_c_18 main_v74 (broadcastInDim S1700000 ![] bcast_S_S1700000 : (⟨S_, .i32⟩ : BufTy).Contents (Elt F) → (⟨S1700000, .i32⟩ : BufTy).Contents (Elt F)),
    StableHlo.binary main_v56 main_v74 main_v75 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v76 (broadcastInDim S1700000 ![] bcast_S_S1700000 : (⟨S_, .i32⟩ : BufTy).Contents (Elt F) → (⟨S1700000, .i32⟩ : BufTy).Contents (Elt F)),
    StableHlo.binary main_v56 main_v76 main_v77 (addi : (⟨S1700000, .i32⟩ : BufTy).Contents (Elt F) → (⟨S1700000, .i32⟩ : BufTy).Contents (Elt F) → (⟨S1700000, .i32⟩ : BufTy).Contents (Elt F)),
    StableHlo.ternary main_v75 main_v77 main_v56 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v78 main_v79 (broadcastInDim S1700000x1 ![0] bcast_S1700000_S1700000x1_0 : (⟨S1700000, .i32⟩ : BufTy).Contents (Elt F) → (⟨S1700000x1, .i32⟩ : BufTy).Contents (Elt F)),
    StableHlo.binary main_v66 main_v79 main_v80 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v73 main_v80 main_v81 (mulf : (⟨S1700000, .f32⟩ : BufTy).Contents (Elt F) → (⟨S1700000, .f32⟩ : BufTy).Contents (Elt F) → (⟨S1700000, .f32⟩ : BufTy).Contents (Elt F)),
    StableHlo.binary main_v49 main_arg4 main_v82 ((fun l r => Host.dotGeneral dot_S100000x48_S48x48_S100000x48_1_0_0_1_n_n none l r) : (⟨S100000x48, .f32⟩ : BufTy).Contents (Elt F) → (⟨S48x48, .f32⟩ : BufTy).Contents (Elt F) → (⟨S100000x48, .f32⟩ : BufTy).Contents (Elt F)),
    StableHlo.nullary main_c_20 (constantI S_ 32 0#32),
    StableHlo.unary main_c_20 main_v83 (broadcastInDim S1700000 ![] bcast_S_S1700000 : (⟨S_, .i32⟩ : BufTy).Contents (Elt F) → (⟨S1700000, .i32⟩ : BufTy).Contents (Elt F)),
    StableHlo.binary main_v53 main_v83 main_v84 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v85 (broadcastInDim S1700000 ![] bcast_S_S1700000 : (⟨S_, .i32⟩ : BufTy).Contents (Elt F) → (⟨S1700000, .i32⟩ : BufTy).Contents (Elt F)),
    StableHlo.binary main_v53 main_v85 main_v86 (addi : (⟨S1700000, .i32⟩ : BufTy).Contents (Elt F) → (⟨S1700000, .i32⟩ : BufTy).Contents (Elt F) → (⟨S1700000, .i32⟩ : BufTy).Contents (Elt F)),
    StableHlo.ternary main_v84 main_v86 main_v53 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v87 main_v88 (broadcastInDim S1700000x1 ![0] bcast_S1700000_S1700000x1_0 : (⟨S1700000, .i32⟩ : BufTy).Contents (Elt F) → (⟨S1700000x1, .i32⟩ : BufTy).Contents (Elt F)),
    StableHlo.binary main_v82 main_v88 main_v89 ((fun x i => Host.gather gather_S100000x48_S1700000x1_S1700000x48_1_0_n_n_0_1_148 x i) : (⟨S100000x48, .f32⟩ : BufTy).Contents (Elt F) → (⟨S1700000x1, .i32⟩ : BufTy).Contents (Elt F) → (⟨S1700000x48, .f32⟩ : BufTy).Contents (Elt F)),
    StableHlo.unary main_v81 main_v90 (broadcastInDim S1700000x1 ![0] bcast_S1700000_S1700000x1_0 : (⟨S1700000, .f32⟩ : BufTy).Contents (Elt F) → (⟨S1700000x1, .f32⟩ : BufTy).Contents (Elt F)),
    StableHlo.unary main_v90 main_v91 (broadcastInDim S1700000x48 ![0, 1] bcast_S1700000x1_S1700000x48_0_1 : (⟨S1700000x1, .f32⟩ : BufTy).Contents (Elt F) → (⟨S1700000x48, .f32⟩ : BufTy).Contents (Elt F)),
    StableHlo.binary main_v89 main_v91 main_v92 (mulf : (⟨S1700000x48, .f32⟩ : BufTy).Contents (Elt F) → (⟨S1700000x48, .f32⟩ : BufTy).Contents (Elt F) → (⟨S1700000x48, .f32⟩ : BufTy).Contents (Elt F)),
    StableHlo.nullary main_cst_22 (constant S_ .f32 0x00000000#32),
    StableHlo.unary main_cst_22 main_v93 (broadcastInDim S100000x48 ![] bcast_S_S100000x48 : (⟨S_, .f32⟩ : BufTy).Contents (Elt F) → (⟨S100000x48, .f32⟩ : BufTy).Contents (Elt F)),
    StableHlo.unary main_v56 main_v94 (broadcastInDim S1700000x1 ![0] bcast_S1700000_S1700000x1_0 : (⟨S1700000, .i32⟩ : BufTy).Contents (Elt F) → (⟨S1700000x1, .i32⟩ : BufTy).Contents (Elt F)),
    StableHlo.ternary main_v93 main_v94 main_v92 main_v95 ((fun x i u => Host.scatterAdd scatter_S100000x48_S1700000x1_S1700000x48_1_0_0_1 x i u) : (⟨S100000x48, .f32⟩ : BufTy).Contents (Elt F) → (⟨S1700000x1, .i32⟩ : BufTy).Contents (Elt F) → (⟨S1700000x48, .f32⟩ : BufTy).Contents (Elt F) → (⟨S100000x48, .f32⟩ : BufTy).Contents (Elt F)),
    StableHlo.unary main_arg5 main_v96 (broadcastInDim S1x48 ![1] bcast_S48_S1x48_1 : (⟨S48, .f32⟩ : BufTy).Contents (Elt F) → (⟨S1x48, .f32⟩ : BufTy).Contents (Elt F)),
    StableHlo.unary main_v96 main_v97 (broadcastInDim S100000x48 ![0, 1] bcast_S1x48_S100000x48_0_1 : (⟨S1x48, .f32⟩ : BufTy).Contents (Elt F) → (⟨S100000x48, .f32⟩ : BufTy).Contents (Elt F)),
    StableHlo.binary main_v95 main_v97 main_v98 (addf : (⟨S100000x48, .f32⟩ : BufTy).Contents (Elt F) → (⟨S100000x48, .f32⟩ : BufTy).Contents (Elt F) → (⟨S100000x48, .f32⟩ : BufTy).Contents (Elt F)),
    StableHlo.nullary main_cst_23 (constant S_ .f32 0x00000000#32),
    StableHlo.binary main_v98 main_cst_23 main_v99 ((fun x v => Host.reduceAdd x v reducesTo_S100000x48_S48_d0 h_S_) : (⟨S100000x48, .f32⟩ : BufTy).Contents (Elt F) → (⟨S_, .f32⟩ : BufTy).Contents (Elt F) → (⟨S48, .f32⟩ : BufTy).Contents (Elt F)),
    StableHlo.unary main_v99 main_v100 (broadcastInDim S1x48 ![1] bcast_S48_S1x48_1 : (⟨S48, .f32⟩ : BufTy).Contents (Elt F) → (⟨S1x48, .f32⟩ : BufTy).Contents (Elt F)),
    StableHlo.binary main_v100 main_arg6 main_v101 ((fun l r => Host.dotGeneral dot_S1x48_S48x2_S1x2_1_0_0_1_n_n none l r) : (⟨S1x48, .f32⟩ : BufTy).Contents (Elt F) → (⟨S48x2, .f32⟩ : BufTy).Contents (Elt F) → (⟨S1x2, .f32⟩ : BufTy).Contents (Elt F)),
    StableHlo.unary main_arg7 main_v102 (broadcastInDim S1x2 ![1] bcast_S2_S1x2_1 : (⟨S2, .f32⟩ : BufTy).Contents (Elt F) → (⟨S1x2, .f32⟩ : BufTy).Contents (Elt F)),
    StableHlo.binary main_v101 main_v102 main_v103 (addf : (⟨S1x2, .f32⟩ : BufTy).Contents (Elt F) → (⟨S1x2, .f32⟩ : BufTy).Contents (Elt F) → (⟨S1x2, .f32⟩ : BufTy).Contents (Elt F)) ]

/-- The program is the straight line of these operations: its three windows run in order, each outlined function's
    body in place of its call over that call's buffers, sequencing reassociated to the right. Both sides unfold to the
    same chain of steps. -/
theorem main_eq (c : Dev nD) : main (F := F) c = seq ops := by
  chain_rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., reshape_bufs_sub .., binary_bufs_sub .., unary_bufs_sub .., reshape_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., binary_bufs_sub .., unary_bufs_sub .., binary_bufs_sub ..,
    unary_bufs_sub .., binary_bufs_sub ..⟩

/-- Every operation determines its result: none allocates. -/
theorem ops_fresh : (ops : List (HloOp τ sig (Elt F))).Forall fun op => op.fresh = ∅ := by
  simp only [List.Forall]; repeat' constructor

/-- The references the operations write, in order: one each. -/
abbrev opsW : List (Ref sig .tc) :=
  [main_v0, main_v1, main_v2, main_v3, main_v4, main_v5, main_v6, main_cst, main_v7, main_cst_0, main_v8, main_v9,
    main_v10, main_cst_1, main_v11, main_v12, main_cst_2, main_v13, main_v14, main_v15, main_cst_3, main_call0_v0, main_call0_v1, main_v16,
    main_c, main_v17, main_v18, main_c_4, main_v19, main_v20, main_v21, main_v22, main_v23, main_c_5, main_v24, main_v25,
    main_c_6, main_v26, main_v27, main_v28, main_v29, main_v30, main_v31, main_v32, main_c_7, main_v33, main_v34, main_c_8,
    main_v35, main_v36, main_v37, main_v38, main_v39, main_v40, main_v41, main_v42, main_cst_9, main_v43, main_v44, main_v45,
    main_v46, main_v47, main_v48, main_cst_10, main_call1_cst, main_call1_v0, main_call1_v1, main_call1_v2, main_call1_v3, main_call1_v4, main_v49, main_v50,
    main_v51, main_v52, main_v53, main_v54, main_v55, main_v56, main_cst_11, main_v57, main_cst_12, main_v58, main_v59, main_v60,
    main_cst_13, main_v61, main_v62, main_cst_14, main_v63, main_v64, main_v65, main_cst_15, main_call2_v0, main_call2_v1, main_v66, main_c_16,
    main_v67, main_v68, main_c_17, main_v69, main_v70, main_v71, main_v72, main_v73, main_c_18, main_v74, main_v75, main_c_19,
    main_v76, main_v77, main_v78, main_v79, main_v80, main_v81, main_v82, main_c_20, main_v83, main_v84, main_c_21, main_v85,
    main_v86, main_v87, main_v88, main_v89, main_v90, main_v91, main_v92, main_cst_22, main_v93, main_v94, main_v95, main_v96,
    main_v97, main_v98, main_cst_23, main_v99, main_v100, main_v101, main_v102, main_v103]

/-- Each operation writes its own entry of that list. -/
theorem ops_writes : (ops : List (HloOp τ sig (Elt F))).Forall fun op => op.writes ⊆ (opsW.map (Proc.devRef (τ := τ) .tc)).toFinset := by
  simp only [List.Forall, nullary_writes, unary_writes, binary_writes, ternary_writes, reshape_writes,
    Finset.singleton_subset_iff, List.mem_toFinset]
  and_intros
  all_goals exact List.mem_map_of_mem (by decide)

/-- The run: every buffer ends at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ op h => (List.forall_iff_forall_mem.mp ops_fresh) op h)

set_option maxRecDepth 8192 in
/-- No operation writes an argument. -/
theorem kept (m : (ℓ : Loc nD τ sig) → Buf (Elt F) ℓ) (d : Dev nD) :
    after (ops (F := F)) (launchContents m d) (Proc.devRef .tc main_arg0) = m ((d.tc : Thread nD τ).loc main_arg0)
    ∧ after (ops (F := F)) (launchContents m d) (Proc.devRef .tc main_arg1) = m ((d.tc : Thread nD τ).loc main_arg1)
    ∧ after (ops (F := F)) (launchContents m d) (Proc.devRef .tc main_arg2) = m ((d.tc : Thread nD τ).loc main_arg2)
    ∧ after (ops (F := F)) (launchContents m d) (Proc.devRef .tc main_arg3) = m ((d.tc : Thread nD τ).loc main_arg3)
    ∧ after (ops (F := F)) (launchContents m d) (Proc.devRef .tc main_arg4) = m ((d.tc : Thread nD τ).loc main_arg4)
    ∧ after (ops (F := F)) (launchContents m d) (Proc.devRef .tc main_arg5) = m ((d.tc : Thread nD τ).loc main_arg5)
    ∧ after (ops (F := F)) (launchContents m d) (Proc.devRef .tc main_arg6) = m ((d.tc : Thread nD τ).loc main_arg6)
    ∧ after (ops (F := F)) (launchContents m d) (Proc.devRef .tc main_arg7) = m ((d.tc : Thread nD τ).loc main_arg7) :=
  ⟨after_of_writes_sub ops _ ops_writes (by decide), after_of_writes_sub ops _ ops_writes (by decide),
    after_of_writes_sub ops _ ops_writes (by decide), after_of_writes_sub ops _ ops_writes (by decide),
    after_of_writes_sub ops _ ops_writes (by decide), after_of_writes_sub ops _ ops_writes (by decide),
    after_of_writes_sub ops _ ops_writes (by decide), after_of_writes_sub ops _ ops_writes (by decide)⟩

set_option maxRecDepth 65536 in
set_option maxHeartbeats 4000000 in
/-- From any contents, the fold read at the result buffer: each operation's result at the buffer it writes is its function
    of the contents at its operands, and at every other buffer what was there, so the fold unrolls to the operations
    composed over the eight arguments. That composition is the term of the reference's result: the term's named stages (the end
    lists, the inverse square roots of the degrees, the edge weights, the aggregation, a layer, the rectifier) unfold to
    these same operations in this order, and the shape records of the two programs' texts have equal fields. -/
theorem res_val (V : Valuation τ sig (Elt Ideal)) :
    after (ops (F := Ideal)) V (Proc.devRef .tc main_v103)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  after_results_simp
  rfl

/-- The result buffer ends at the composed term of the arguments. -/
theorem res_eq (m : (ℓ : Loc nD τ sig) → Buf (Elt Ideal) ℓ) (d : Dev nD) :
    after (ops (F := Ideal)) (launchContents m d) (Proc.devRef .tc main_v103) = refOut (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) :=
  res_val (launchContents m d)

end Cert.ReferenceIdeal.Hand

end
-- ==== Proof.lean ====
/-
  The certificate: both programs compute G, the two graph-convolution layers followed by the pooled linear map, of
  their eight arguments.

  The kernel's program is nine segments — host stretches that build the edge lists, the degree normalisation and the
  per-edge weights and that aggregate over the edges, and four kernel regions: two dense layers, the bias with the
  leaky rectifier, and the pooling with the last linear map. Each region's pipeline is run from proof data that name
  what its body leaves in every window; the run of the whole program threads the buffers' contents through the
  segments, so that no argument is ever written (the three frames) and the result array ends at what the last region
  leaves. At the ideal values that is G of the arguments: a dense layer's blocks are rows of one matrix product, the
  rectifier region is pointwise, and the pooling region's running sum over its five blocks is the sum over all rows.
  The reference is host operations only; its result is the same G, read index by index, the aggregation being the
  same chain of operations on both sides. The one algebraic law between the two: the reference adds the bias to
  every row before summing the rows, the kernel adds 100000 times the bias after; on the extended reals the two are
  equal. The kernel's idealization rewrote no operation, so nothing is owed for it.
-/
import proofs.«129971_j27144193311514_1_alg».proof.Defs
import proofs.«129971_j27144193311514_1_alg».proof.Proof.Gen.Kernel
import proofs.«129971_j27144193311514_1_alg».proof.Proof.Gen.KernelIdeal
import proofs.«129971_j27144193311514_1_alg».proof.Proof.Gen.ReferenceIdeal
import proofs.«129971_j27144193311514_1_alg».proof.Proof.Gen.Pre_finite_inputs
import proofs.«129971_j27144193311514_1_alg».proof.Proof.BRun
import proofs.«129971_j27144193311514_1_alg».proof.Proof.Run
import proofs.«129971_j27144193311514_1_alg».proof.Proof.HostK
import proofs.«129971_j27144193311514_1_alg».proof.Proof.RefRun
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_kernel : Cert.frame_Kernel := fun m ρ _ => Cert.Kernel.Hand.frame m ρ

/-- The same of the idealized program. -/
theorem frame_kernelIdeal : Cert.frame_KernelIdeal := fun m ρ _ => Cert.KernelIdeal.Hand.frame m ρ

/-- The reference runs to the end, faults nowhere, and no operation of it writes an argument. -/
theorem frame_reference : Cert.frame_ReferenceIdeal := fun m ρ _ =>
  (θ_run Cert.ReferenceIdeal.defs _ _).mono (fun r h c =>
    have k := Cert.ReferenceIdeal.Hand.kept (F := Ideal) m c
    ⟨(h c _).trans k.1, (h c _).trans k.2.1, (h c _).trans k.2.2.1, (h c _).trans k.2.2.2.1,
     (h c _).trans k.2.2.2.2.1, (h c _).trans k.2.2.2.2.2.1, (h c _).trans k.2.2.2.2.2.2.1, (h c _).trans k.2.2.2.2.2.2.2⟩)
    (Cert.ReferenceIdeal.Hand.run_after (F := Ideal) m ρ)

/-- From memories that agree on the arguments both programs end with G of the arguments in their result arrays. -/
theorem algebraic : Cert.algebraic_KernelIdeal_ReferenceIdeal := by
  intro m ρ m' ρ' _ hagree
  refine ⟨fun c => Cert.KernelIdeal.Hand.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Hand.kernel_value m ρ c), (h c).2⟩)
      (Cert.KernelIdeal.Hand.run_value (F := Ideal) m ρ)
  · refine (θ_run Cert.ReferenceIdeal.defs _ _).mono (fun r h c => ?_) (Cert.ReferenceIdeal.Hand.run_after (F := Ideal) m' ρ')
    have k := Cert.ReferenceIdeal.Hand.kept (F := Ideal) m' c
    refine ⟨?_, (h c _).trans k.1, (h c _).trans k.2.1, (h c _).trans k.2.2.1, (h c _).trans k.2.2.2.1,
      (h c _).trans k.2.2.2.2.1, (h c _).trans k.2.2.2.2.2.1, (h c _).trans k.2.2.2.2.2.2.1, (h c _).trans k.2.2.2.2.2.2.2⟩
    rw [h c Cert.ReferenceIdeal.main_v103, Cert.ReferenceIdeal.Hand.res_eq m' c, Cert.ReferenceIdeal.Hand.refOut_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
